-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![32, 32, 32]⟩ ⟨3, ![64, 64, 64]⟩ (Layout.meshBlock [2, 2, 2] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![32, 32, 32]⟩ ⟨3, ![64, 64, 64]⟩ (Layout.meshBlock [2, 2, 2] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S32x32x32 : Shape := ⟨3, ![32, 32, 32]⟩
abbrev S_ : Shape := ⟨0, ![]⟩

class Facts : Prop where
  bcast_S_S32x32x32 : S_.BroadcastsInDim S32x32x32 (![] : Fin 0 → Fin S32x32x32.rank)
  reducesTo_S32x32x32_S_d0_1_2 : S32x32x32.ReducesTo [0, 1, 2] S_
  h_S_ : 0 < S_.numel

variable [Facts]

def fn {F : FTy → Type} [FloatOps F] (main_arg0 : FVec F S32x32x32 .f32) : IVec S_ 1 :=
  let main_v0 : FVec F S32x32x32 .f32 := Host.absf main_arg0
  let main_cst : FVec F S_ .f32 := constant S_ .f32 0x7F800000#32
  let main_v1 : FVec F S32x32x32 .f32 := broadcastInDim S32x32x32 ![] bcast_S_S32x32x32 main_cst
  let main_v2 : IVec S32x32x32 1 := cmpf .olt main_v0 main_v1
  let main_c : IVec S_ 1 := constantI S_ 1 1#1
  let main_v3 : IVec S_ 1 := (fun x v => Host.reduce IntOp.andi x v reducesTo_S32x32x32_S_d0_1_2 h_S_) main_v2 main_c
  main_v3
-- ==== Pre_finite_inputs_ReferenceIdeal.lean ====
abbrev S64x64x64 : Shape := ⟨3, ![64, 64, 64]⟩
abbrev S_ : Shape := ⟨0, ![]⟩

class Facts : Prop where
  bcast_S_S64x64x64 : S_.BroadcastsInDim S64x64x64 (![] : Fin 0 → Fin S64x64x64.rank)
  reducesTo_S64x64x64_S_d0_1_2 : S64x64x64.ReducesTo [0, 1, 2] S_
  h_S_ : 0 < S_.numel

variable [Facts]

def fn {F : FTy → Type} [FloatOps F] (main_arg0 : FVec F S64x64x64 .f32) : IVec S_ 1 :=
  let main_v0 : FVec F S64x64x64 .f32 := Host.absf main_arg0
  let main_cst : FVec F S_ .f32 := constant S_ .f32 0x7F800000#32
  let main_v1 : FVec F S64x64x64 .f32 := broadcastInDim S64x64x64 ![] bcast_S_S64x64x64 main_cst
  let main_v2 : IVec S64x64x64 1 := cmpf .olt main_v0 main_v1
  let main_c : IVec S_ 1 := constantI S_ 1 1#1
  let main_v3 : IVec S_ 1 := (fun x v => Host.reduce IntOp.andi x v reducesTo_S64x64x64_S_d0_1_2 h_S_) main_v2 main_c
  main_v3
-- ==== Kernel.lean ====
abbrev S32x32x32 : Shape := ⟨3, ![32, 32, 32]⟩
abbrev S3x32x32 : Shape := ⟨3, ![3, 32, 32]⟩
abbrev S3 : Shape := ⟨1, ![3]⟩
abbrev S_ : Shape := ⟨0, ![]⟩
abbrev S1x32x32 : Shape := ⟨3, ![1, 32, 32]⟩
abbrev S32x32 : Shape := ⟨2, ![32, 32]⟩
abbrev S32x1x32 : Shape := ⟨3, ![32, 1, 32]⟩
abbrev S32x32x1 : Shape := ⟨3, ![32, 32, 1]⟩
abbrev S31x32x32 : Shape := ⟨3, ![31, 32, 32]⟩
abbrev S32x31x32 : Shape := ⟨3, ![32, 31, 32]⟩
abbrev S32x32x31 : Shape := ⟨3, ![32, 32, 31]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S32x32x32, .f32⟩
  | .hbm, ⟨1, _⟩ => ⟨S32x32x32, .f32⟩
  | .local _ .vmem, ⟨0, _⟩ => ⟨S32x32x32, .f32⟩
  | .local _ .vmem, ⟨1, _⟩ => ⟨S32x32x32, .f32⟩
  | .local _ .vmem, ⟨2, _⟩ => ⟨S3x32x32, .f32⟩
  | .local _ .vmem, ⟨3, _⟩ => ⟨S3x32x32, .f32⟩
  | _, _ => ⟨S32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_7 : BitVec 32 := 4#32
  let v13 : BitVec 32 := Scalar.muli v9 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32_12 v19
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_13 : BitVec 32 := 2#32
  let v21 : BitVec 32 := Scalar.muli v10 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_dev4 (d0 : Dev nD) : Nat :=
  let c0_i32_55 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_54 : BitVec 32 := 4#32
  let v130 : BitVec 32 := Scalar.muli v9 c4_i32_54
  let v131 : BitVec 32 := Scalar.addi c0_i32_55 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v132 : BitVec 32 := Scalar.muli v5 c2_i32_56
  let v133 : BitVec 32 := Scalar.addi v131 v132
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v134 : BitVec 32 := Scalar.muli v8 c1_i32_57
  let v135 : BitVec 32 := Scalar.addi v133 v134
  v135.toNat
def k0_dev5 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v144 : BitVec 32 := Scalar.muli v2 c4_i32_66
  let v145 : BitVec 32 := Scalar.addi c0_i32_67 v144
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_68 : BitVec 32 := 2#32
  let v146 : BitVec 32 := Scalar.muli v10 c2_i32_68
  let v147 : BitVec 32 := Scalar.addi v145 v146
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_69 : BitVec 32 := 1#32
  let v148 : BitVec 32 := Scalar.muli v8 c1_i32_69
  let v149 : BitVec 32 := Scalar.addi v147 v148
  v149.toNat
def k0_dev6 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v158 : BitVec 32 := Scalar.muli v2 c4_i32_78
  let v159 : BitVec 32 := Scalar.addi c0_i32_79 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v160 : BitVec 32 := Scalar.muli v5 c2_i32_80
  let v161 : BitVec 32 := Scalar.addi v159 v160
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_81 : BitVec 32 := 1#32
  let v162 : BitVec 32 := Scalar.muli v11 c1_i32_81
  let v163 : BitVec 32 := Scalar.addi v161 v162
  v163.toNat
abbrev stage0_0 : Fin 1 → Memref sig .tc .vmem S32x32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S32x32x32_S32x32x32_0_0_0 : ∀ a, (![0, 0, 0] : Fin 3 → Nat) a + S32x32x32.size a ≤ S32x32x32.size a
  h_S32x32x32 : 0 < S32x32x32.numel
  shapeCasts_S32x32x32_S32x32x32 : S32x32x32.ShapeCasts S32x32x32
  slices_S32x32x32_o31_0_0_S1x32x32 : S32x32x32.Slices ![31, 0, 0] S1x32x32
  shapeCasts_S1x32x32_S32x32 : S1x32x32.ShapeCasts S32x32
  slices_S32x32x32_o0_0_0_S1x32x32 : S32x32x32.Slices ![0, 0, 0] S1x32x32
  inb_S3x32x32_S1x32x32_0_0_0 : ∀ a, (![0, 0, 0] : Fin 3 → Nat) a + S1x32x32.size a ≤ S3x32x32.size a
  h_S1x32x32 : 0 < S1x32x32.numel
  shapeCasts_S32x32_S1x32x32 : S32x32.ShapeCasts S1x32x32
  slices_S32x32x32_o0_31_0_S32x1x32 : S32x32x32.Slices ![0, 31, 0] S32x1x32
  shapeCasts_S32x1x32_S32x32 : S32x1x32.ShapeCasts S32x32
  slices_S32x32x32_o0_0_0_S32x1x32 : S32x32x32.Slices ![0, 0, 0] S32x1x32
  inb_S3x32x32_S1x32x32_1_0_0 : ∀ a, (![1, 0, 0] : Fin 3 → Nat) a + S1x32x32.size a ≤ S3x32x32.size a
  slices_S32x32x32_o0_0_31_S32x32x1 : S32x32x32.Slices ![0, 0, 31] S32x32x1
  shapeCasts_S32x32x1_S32x32 : S32x32x1.ShapeCasts S32x32
  slices_S32x32x32_o0_0_0_S32x32x1 : S32x32x32.Slices ![0, 0, 0] S32x32x1
  inb_S3x32x32_S1x32x32_2_0_0 : ∀ a, (![2, 0, 0] : Fin 3 → Nat) a + S1x32x32.size a ≤ S3x32x32.size a
  slices_S32x32x32_o0_0_0_S31x32x32 : S32x32x32.Slices ![0, 0, 0] S31x32x32
  concatenates_S1x32x32_S31x32x32_S32x32x32_d0 : Shape.Concatenates [S1x32x32, S31x32x32] S32x32x32 0
  slices_S32x32x32_o1_0_0_S31x32x32 : S32x32x32.Slices ![1, 0, 0] S31x32x32
  concatenates_S31x32x32_S1x32x32_S32x32x32_d0 : Shape.Concatenates [S31x32x32, S1x32x32] S32x32x32 0
  slices_S32x32x32_o0_0_0_S32x31x32 : S32x32x32.Slices ![0, 0, 0] S32x31x32
  concatenates_S32x1x32_S32x31x32_S32x32x32_d1 : Shape.Concatenates [S32x1x32, S32x31x32] S32x32x32 1
  slices_S32x32x32_o0_1_0_S32x31x32 : S32x32x32.Slices ![0, 1, 0] S32x31x32
  concatenates_S32x31x32_S32x1x32_S32x32x32_d1 : Shape.Concatenates [S32x31x32, S32x1x32] S32x32x32 1
  slices_S32x32x32_o0_0_0_S32x32x31 : S32x32x32.Slices ![0, 0, 0] S32x32x31
  concatenates_S32x32x1_S32x32x31_S32x32x32_d2 : Shape.Concatenates [S32x32x1, S32x32x31] S32x32x32 2
  slices_S32x32x32_o0_0_1_S32x32x31 : S32x32x32.Slices ![0, 0, 1] S32x32x31
  concatenates_S32x32x31_S32x32x1_S32x32x32_d2 : Shape.Concatenates [S32x32x31, S32x32x1] S32x32x32 2
  iota_S32x32x32_d0_w32 : S32x32x32.Iotas .tc 32 [0]
  iota_S32x32x32_d1_w32 : S32x32x32.Iotas .tc 32 [1]
  iota_S32x32x32_d2_w32 : S32x32x32.Iotas .tc 32 [2]
  natLt_1_32 : 1 < 32
  hamt_3 : (3#32 : BitVec 32).msb = false
  inb_S3_S1_0 : ∀ a, (![0] : Fin 1 → Nat) a + S1.size a ≤ S3.size a
  squeezes_S1_S_ : S1.Squeezes S_
  squeezes_S1x32x32_S32x32 : S1x32x32.Squeezes S32x32
  inb_S3_S1_1 : ∀ a, (![1] : Fin 1 → Nat) a + S1.size a ≤ S3.size a
  inb_S3_S1_2 : ∀ a, (![2] : Fin 1 → Nat) a + S1.size a ≤ S3.size a
  broadcasts_S1x32x32_S32x32x32 : S1x32x32.Broadcasts S32x32x32
  shapeCasts_S32x32_S32x1x32 : S32x32.ShapeCasts S32x1x32
  broadcasts_S32x1x32_S32x32x32 : S32x1x32.Broadcasts S32x32x32
  shapeCasts_S32x32_S32x32x1 : S32x32.ShapeCasts S32x32x1
  broadcasts_S32x32x1_S32x32x32 : S32x32x1.Broadcasts S32x32x32
  hcc0_scratch2 : 2 + S3.numel ≤ 8
  hcc0_scratch3 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch2 : DmaSems sig S3 := SemArray.consecutive 2 S3 hcc0_scratch2
abbrev cc0_scratch3 : DmaSems sig S3 := SemArray.consecutive 5 S3 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x64x64 : Shape := ⟨3, ![64, 64, 64]⟩
abbrev S_ : Shape := ⟨0, ![]⟩
abbrev S62x62x62 : Shape := ⟨3, ![62, 62, 62]⟩
abbrev S1 : Shape := ⟨1, ![1]⟩
abbrev S3 : Shape := ⟨1, ![3]⟩

abbrev nBuf : Space → Nat
  | .hbm => 27
  | .vmem => 0
  | .smem => 0
  | _ => 0

abbrev bufTy : (tb : Table) → Fin (tcTables nBuf tb) → BufTy
  | .hbm, ⟨0, _⟩ => ⟨S64x64x64, .f32⟩
  | .hbm, ⟨1, _⟩ => ⟨S_, .f32⟩
  | .hbm, ⟨2, _⟩ => ⟨S64x64x64, .f32⟩
  | .hbm, ⟨3, _⟩ => ⟨S62x62x62, .f32⟩
  | .hbm, ⟨4, _⟩ => ⟨S62x62x62, .f32⟩
  | .hbm, ⟨5, _⟩ => ⟨S62x62x62, .f32⟩
  | .hbm, ⟨6, _⟩ => ⟨S62x62x62, .f32⟩
  | .hbm, ⟨7, _⟩ => ⟨S62x62x62, .f32⟩
  | .hbm, ⟨8, _⟩ => ⟨S62x62x62, .f32⟩
  | .hbm, ⟨9, _⟩ => ⟨S62x62x62, .f32⟩
  | .hbm, ⟨10, _⟩ => ⟨S62x62x62, .f32⟩
  | .hbm, ⟨11, _⟩ => ⟨S62x62x62, .f32⟩
  | .hbm, ⟨12, _⟩ => ⟨S62x62x62, .f32⟩
  | .hbm, ⟨13, _⟩ => ⟨S62x62x62, .f32⟩
  | .hbm, ⟨14, _⟩ => ⟨S62x62x62, .f32⟩
  | .hbm, ⟨15, _⟩ => ⟨S_, .f32⟩
  | .hbm, ⟨16, _⟩ => ⟨S62x62x62, .f32⟩
  | .hbm, ⟨17, _⟩ => ⟨S62x62x62, .f32⟩
  | .hbm, ⟨18, _⟩ => ⟨S62x62x62, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S3, .i32⟩
  | .hbm, ⟨26, _⟩ => ⟨S64x64x64, .f32⟩
  | _, _ => ⟨S64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S_S64x64x64 : S_.BroadcastsInDim S64x64x64 (![] : Fin 0 → Fin S64x64x64.rank)
  slices_S64x64x64_S62x62x62_0_1_1 : S64x64x64.Slices ![0, 1, 1] S62x62x62
  slices_S64x64x64_S62x62x62_2_1_1 : S64x64x64.Slices ![2, 1, 1] S62x62x62
  slices_S64x64x64_S62x62x62_1_0_1 : S64x64x64.Slices ![1, 0, 1] S62x62x62
  slices_S64x64x64_S62x62x62_1_2_1 : S64x64x64.Slices ![1, 2, 1] S62x62x62
  slices_S64x64x64_S62x62x62_1_1_0 : S64x64x64.Slices ![1, 1, 0] S62x62x62
  slices_S64x64x64_S62x62x62_1_1_2 : S64x64x64.Slices ![1, 1, 2] S62x62x62
  slices_S64x64x64_S62x62x62_1_1_1 : S64x64x64.Slices ![1, 1, 1] S62x62x62
  bcast_S_S62x62x62 : S_.BroadcastsInDim S62x62x62 (![] : Fin 0 → Fin S62x62x62.rank)
  bcast_S_S1 : S_.BroadcastsInDim S1 (![] : Fin 0 → Fin S1.rank)
  concatenates_S1_S1_S1_S3_d0 : Shape.Concatenates [S1, S1, S1] S3 0
  scatter_S64x64x64_S3_S62x62x62_012_n_012_0_wf : ScatterDims.WF S64x64x64 S3 S62x62x62 [0, 1, 2] [] [0, 1, 2] 0

variable [Facts₀]

def scatter_S64x64x64_S3_S62x62x62_012_n_012_0 : ScatterDims S64x64x64 S3 S62x62x62 where
  updateWindowDims := [0, 1, 2]
  insertedWindowDims := []
  scatterDimsToOperandDims := [0, 1, 2]
  indexVectorDim := 0
  wf := scatter_S64x64x64_S3_S62x62x62_012_n_012_0_wf

class Facts : Prop extends Facts₀ where

variable [Facts]
-- ==== Proof.Kernel.Mesh.lean ====
/-
  The 2×2×2 mesh seen from one device: its three neighbours (the devices that differ from it in exactly one mesh
  coordinate), the three coordinate words the body computes from its device id, and which devices the body's
  six addressed operations name.
-/
import proofs.«900534_g7700000000000535_dist_halo3d_v7x_xyz2x2x2_s32_f32_1_alg».proof.Proof.Gen.Kernel

noncomputable section

namespace Cert.Kernel.Halo

open Cert.Kernel Cert.Kernel.Gen
open Idealize.ShloMosaic

/-- The weight of mesh axis `a` in the row-major device numbering: 4, 2, 1. -/
def axisBit : Fin 3 → Nat := ![4, 2, 1]

/-- The neighbour of `c` along mesh axis `a`: the other device on that axis (the coordinate flipped). -/
def nbr (a : Fin 3) (c : Dev nD) : Dev nD := ⟨c.val ^^^ axisBit a, by revert a c; decide⟩

/-- Flipping a coordinate twice is the identity. -/
theorem nbr_nbr (a : Fin 3) (c : Dev nD) : nbr a (nbr a c) = c := by revert a c; decide

theorem nbr_ne (a : Fin 3) (c : Dev nD) : nbr a c ≠ c := by revert a c; decide

theorem nbr_inj (a : Fin 3) {c c' : Dev nD} (h : nbr a c = nbr a c') : c = c' := by
  rw [← nbr_nbr a c, h, nbr_nbr]

/-- Neighbours along different axes are different devices. -/
theorem nbr_ne_nbr {a b : Fin 3} (h : a ≠ b) (c : Dev nD) : nbr a c ≠ nbr b c := by revert a b c; decide

/-- The mesh as a permutation along axis `a`. -/
def flip (a : Fin 3) : Dev nD ≃ Dev nD := ⟨nbr a, nbr a, nbr_nbr a, nbr_nbr a⟩

/-- The three signals and the three transfers name the neighbours along axes 0, 1, 2 in that order. -/
theorem dev1_eq (c : Dev nD) : (⟨k0_dev1 c, k0_dev1_lt c⟩ : Dev nD) = nbr 0 c := by
  apply Fin.ext; show k0_dev1 c = _; rw [k0_dev1_eq]; revert c; decide
theorem dev2_eq (c : Dev nD) : (⟨k0_dev2 c, k0_dev2_lt c⟩ : Dev nD) = nbr 1 c := by
  apply Fin.ext; show k0_dev2 c = _; rw [k0_dev2_eq]; revert c; decide
theorem dev3_eq (c : Dev nD) : (⟨k0_dev3 c, k0_dev3_lt c⟩ : Dev nD) = nbr 2 c := by
  apply Fin.ext; show k0_dev3 c = _; rw [k0_dev3_eq]; revert c; decide
theorem dev4_eq (c : Dev nD) : (⟨k0_dev4 c, k0_dev4_lt c⟩ : Dev nD) = nbr 0 c := by
  apply Fin.ext; show k0_dev4 c = _; rw [k0_dev4_eq]; revert c; decide
theorem dev5_eq (c : Dev nD) : (⟨k0_dev5 c, k0_dev5_lt c⟩ : Dev nD) = nbr 1 c := by
  apply Fin.ext; show k0_dev5 c = _; rw [k0_dev5_eq]; revert c; decide
theorem dev6_eq (c : Dev nD) : (⟨k0_dev6 c, k0_dev6_lt c⟩ : Dev nD) = nbr 2 c := by
  apply Fin.ext; show k0_dev6 c = _; rw [k0_dev6_eq]; revert c; decide

/-- The device's mesh coordinates as the words the body computes: `(id / 4) % 2`, `(id / 2) % 2`, `id % 2`. -/
def wx (c : Dev nD) : BitVec 32 := Scalar.remsi (Scalar.divsi (Dev.word c) 4#32) 2#32
def wy (c : Dev nD) : BitVec 32 := Scalar.remsi (Scalar.divsi (Dev.word c) 2#32) 2#32
def wz (c : Dev nD) : BitVec 32 := Scalar.remsi (Scalar.divsi (Dev.word c) 1#32) 2#32

end Cert.Kernel.Halo

end
-- ==== Proof.Kernel.Result.lean ====
/-
  What one device computes, as pure functions of array contents: the three faces of its block it sends to its
  neighbours (the face next to the neighbour), and its result block from its own block and the three faces it
  receives — the local 7-point stencil with zeros beyond the block, plus each received face on the one layer that
  touches that neighbour, masked to the interior of the whole 64³ array.
-/
import proofs.«900534_g7700000000000535_dist_halo3d_v7x_xyz2x2x2_s32_f32_1_alg».proof.Proof.Gen.Kernel.Skeleton
import proofs.«900534_g7700000000000535_dist_halo3d_v7x_xyz2x2x2_s32_f32_1_alg».proof.Proof.Kernel.Mesh

noncomputable section

namespace Cert.Kernel.Halo

open Cert.Kernel Cert.Kernel.Gen
open Idealize.ShloMosaic

variable {F : FTy → Type} [FloatOps F]

/-- The face of the block `u` device `c` sends along axis `a`: layer 31 of that axis if `c`'s coordinate there
    is 0, layer 0 if it is 1, as a 1×32×32 array. -/
def face (c : Dev nD) : (a : Fin 3) → Vec F S32x32x32 .f32 → Vec F S1x32x32 .f32
  | 0, u => k0_pay3 (wx c) u
  | 1, u => k0_pay4 (wy c) u
  | 2, u => k0_pay5 (wz c) u

/-- Device `c`'s result block from its own block `u` and the faces `h0`, `h1`, `h2` received along the three axes. -/
def outOf (c : Dev nD) (u : Vec F S32x32x32 .f32) (h0 h1 h2 : Vec F S1x32x32 .f32) : Vec F S32x32x32 .f32 :=
  k0_pay1 (k0_pay14 (wx c) (wy c) (wz c))
    (k0_pay16 (F := F) (wy c) (iota .tc S32x32x32 32 [1] Facts₀.iota_S32x32x32_d1_w32))
    (k0_pay17 (F := F) (wz c) (iota .tc S32x32x32 32 [2] Facts₀.iota_S32x32x32_d2_w32))
    (k0_pay18 (k0_pay13 (k0_pay2 u) (k0_pay8 (F := F)) (k0_pay9 u) (k0_pay10 u) (k0_pay11 u) (k0_pay12 u)) (k0_pay15 (F := F) (wx c)) h0)
    (k0_pay19 h1) h2

/-- The whole mesh's results from every device's block: each device receives, along each axis, the face its
    neighbour on that axis sends along it. -/
def meshOut (u : Dev nD → Vec F S32x32x32 .f32) (c : Dev nD) : Vec F S32x32x32 .f32 :=
  outOf c (u c) (face (nbr 0 c) 0 (u (nbr 0 c))) (face (nbr 1 c) 1 (u (nbr 1 c))) (face (nbr 2 c) 2 (u (nbr 2 c)))

end Cert.Kernel.Halo

end
-- ==== Proof.Kernel.Protocol.lean ====
/-
  The halo exchange as a protocol of rounds. Every device has one barrier cell (three unit duties, one per mesh
  axis, paid by the neighbour along that axis), three send cells and three receive cells (one duty each: the
  credit of one 32×32 face). A neighbour's barrier signal hands the device the neighbour's landing slot for the
  axis; the device's transfer along the axis fills that slot with its own face and pays the neighbour's receive
  cell, whose payload is the slot holding that face.
-/
import proofs.«900534_g7700000000000535_dist_halo3d_v7x_xyz2x2x2_s32_f32_1_alg».proof.Proof.Kernel.Result
import proofs.«900534_g7700000000000535_dist_halo3d_v7x_xyz2x2x2_s32_f32_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (duties named by a mesh axis) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Buffers, slots, semaphores, cells -/

abbrev xM : Memref sig .tc .vmem S32x32x32 .f32 := Memref.whole cc0_stg0_0
abbrev oM : Memref sig .tc .vmem S32x32x32 .f32 := Memref.whole cc0_stg1_0
abbrev sM : Memref sig .tc .vmem S3x32x32 .f32 := Memref.whole cc0_scratch0
abbrev hM : Memref sig .tc .vmem S3x32x32 .f32 := Memref.whole cc0_scratch1

theorem slot_inb (a : Fin 3) : ∀ i, (![a.val, 0, 0] : Fin 3 → Nat) i + S1x32x32.size i ≤ S3x32x32.size i := by
  revert a; decide

/-- Slot `a` of a 3×32×32 scratch buffer: its `a`-th 32×32 layer. -/
abbrev slotRect (a : Fin 3) : Rect S3x32x32 := Rect.unit (s := S3x32x32) ![a.val, 0, 0] S1x32x32.size (slot_inb a)

/-- Slot `a` of the send buffer and of the landing buffer, as the 32×32 views the transfers go through. -/
abbrev sSlot (a : Fin 3) : Memref sig .tc .vmem S32x32 .f32 :=
  ((sM.slice (slotRect a) (fun _ => rfl)).squeeze S32x32 Facts₀.squeezes_S1x32x32_S32x32)
abbrev hSlot (a : Fin 3) : Memref sig .tc .vmem S32x32 .f32 :=
  ((hM.slice (slotRect a) (fun _ => rfl)).squeeze S32x32 Facts₀.squeezes_S1x32x32_S32x32)

theorem sem_inb (a : Fin 3) : ∀ i, (![a.val] : Fin 1 → Nat) i + S1.size i ≤ S3.size i := by revert a; decide

/-- The runtime's barrier semaphore; the send and receive DMA semaphores of axis `a`. -/
abbrev barS : Sem sig := (SemArray.scalar (sig.barrier 0 rfl) : Sems sig S_).sem
abbrev sendSem (a : Fin 3) : DmaSem sig :=
  ((cc0_scratch2.slice (Rect.unit (s := S3) ![a.val] S1.size (sem_inb a))).squeeze S_ Facts₀.squeezes_S1_S_).sem
abbrev recvSem (a : Fin 3) : DmaSem sig :=
  ((cc0_scratch3.slice (Rect.unit (s := S3) ![a.val] S1.size (sem_inb a))).squeeze S_ Facts₀.squeezes_S1_S_).sem

theorem sendSem_val (a : Fin 3) : (sendSem a).val = 2 + a.val := by revert a; decide
theorem recvSem_val (a : Fin 3) : (recvSem a).val = 5 + a.val := by revert a; decide

abbrev barCell (c : Dev nD) : GSem nD τ sig := ((c : Thread nD τ), .reg barS)
abbrev sendCell (c : Dev nD) (a : Fin 3) : GSem nD τ sig := ((c : Thread nD τ), .dma (sendSem a))
abbrev recvCell (c : Dev nD) (a : Fin 3) : GSem nD τ sig := ((c : Thread nD τ), .dma (recvSem a))

/-- The credit of one face. -/
abbrev Nx : ℕ := (hSlot 0 : Memref sig .tc .vmem S32x32 .f32).view.dmaCredit
theorem Nx_pos : 0 < Nx := View.dmaCredit_pos _ (by decide)
theorem amount_slot (a : Fin 3) : (hSlot a : Memref sig .tc .vmem S32x32 .f32).view.amount (.dma (recvSem a)) = Nx := by
  revert a; decide

/-! ## Contents -/

/-- Device `c`'s block of the input, as its staging buffer holds it. -/
def ublk (c : Dev nD) : (cc0_stg0_0 : Ref sig .tc).ty.Contents (Elt F) :=
  (win0_0.blk (0 : Fin 1)).view.read (Elt F) ((s₀ m ρ).mem ((c : Thread nD τ).loc main_arg0))

/-- The face device `c` sends along axis `a`, as the 32×32 array a slot's view reads. -/
def faceS (c : Dev nD) (a : Fin 3) : S32x32.Idx → Elt F .f32 :=
  shapeCast S32x32 (face c a (ublk m ρ c)) Facts₀.shapeCasts_S1x32x32_S32x32

/-- Slot `a` of device `c`'s send buffer, and of its landing buffer, at contents `f` of the whole buffer. -/
def sPts (c : Dev nD) (a : Fin 3) (f : Buf (Elt F) ((sSlot a : Memref sig .tc .vmem S32x32 .f32).view.loc (c : Thread nD τ))) : sProp 𝕄 :=
  (sSlot a : Memref sig .tc .vmem S32x32 .f32).view.loc (c : Thread nD τ) ↦[(sSlot a : Memref sig .tc .vmem S32x32 .f32).view.set]{fullShare} f
def hPts (c : Dev nD) (a : Fin 3) (f : Buf (Elt F) ((hSlot a : Memref sig .tc .vmem S32x32 .f32).view.loc (c : Thread nD τ))) : sProp 𝕄 :=
  (hSlot a : Memref sig .tc .vmem S32x32 .f32).view.loc (c : Thread nD τ) ↦[(hSlot a : Memref sig .tc .vmem S32x32 .f32).view.set]{fullShare} f

omit [FloatOps F] in
instance sPts_storable (c : Dev nD) (a : Fin 3) (f) : BI.Storable (upEmb : UEmb _ 𝕄) (sPts (F := F) c a f) := by unfold sPts; infer_instance
omit [FloatOps F] in
instance hPts_storable (c : Dev nD) (a : Fin 3) (f) : BI.Storable (upEmb : UEmb _ 𝕄) (hPts (F := F) c a f) := by unfold hPts; infer_instance

/-! ## The schedule -/

/-- What the neighbour along axis `a` hands `c` with its barrier signal: its landing slot `a`, and that it stands at
    round 0 of its receive cell `a` — what `c`'s transfer along `a` needs. -/
def barPay (c : Dev nD) (a : Fin 3) : sProp 𝕄 := iprop((∃ f, hPts (nbr a c) a f) ∗ reached ER (recvCell (nbr a c) a) 0)
/-- What the landing of the neighbour's face hands `c`: its landing slot `a` reading the neighbour's face. -/
def recvPay (c : Dev nD) (a : Fin 3) : sProp 𝕄 :=
  iprop(∃ f, hPts c a f ∗ ⌜(hSlot a : Memref sig .tc .vmem S32x32 .f32).view.read (Elt F) f = faceS m ρ (nbr a c) a⌝)
/-- What the departure of its own face hands `c` back: its send slot. -/
def sendPay (c : Dev nD) (a : Fin 3) : sProp 𝕄 := iprop(∃ f, sPts c a f)

abbrev IsBar (g : GSem nD τ sig) : Prop := g.1.2 = .tc ∧ g.2 = .reg barS
abbrev IsXfer (g : GSem nD τ sig) : Prop := g.1.2 = .tc ∧ ∃ a : Fin 3, (g.2 = .dma (sendSem a) ∨ g.2 = .dma (recvSem a))

/-- One round: a barrier cell has the three unit duties (one per axis); a send or receive cell the one duty `0` of a
    face's credit. -/
def xrd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else Nx
  payload g _ d :=
    if g.2 = .reg barS then barPay g.1.1 d
    else if g.2 = .dma (recvSem 0) then recvPay m ρ g.1.1 0
    else if g.2 = .dma (recvSem 1) then recvPay m ρ g.1.1 1
    else if g.2 = .dma (recvSem 2) then recvPay m ρ g.1.1 2
    else if g.2 = .dma (sendSem 0) then sendPay g.1.1 0
    else if g.2 = .dma (sendSem 1) then sendPay g.1.1 1
    else if g.2 = .dma (sendSem 2) then sendPay g.1.1 2
    else iprop(emp)
  amount_pos g _ _ _ := by
    by_cases h : g.2 = .reg barS
    · rw [if_pos h]; exact Nat.one_pos
    · rw [if_neg h]; exact Nx_pos

instance xrd_payload_storable (g : GSem nD τ sig) (r : ℕ) (d : Fin 3) :
    BI.Storable (upEmb : UEmb _ 𝕄) ((xrd (F := F) m ρ).payload g r d) := by
  show BI.Storable upEmb (if g.2 = .reg barS then barPay g.1.1 d
    else if g.2 = .dma (recvSem 0) then recvPay m ρ g.1.1 0
    else if g.2 = .dma (recvSem 1) then recvPay m ρ g.1.1 1
    else if g.2 = .dma (recvSem 2) then recvPay m ρ g.1.1 2
    else if g.2 = .dma (sendSem 0) then sendPay g.1.1 0
    else if g.2 = .dma (sendSem 1) then sendPay g.1.1 1
    else if g.2 = .dma (sendSem 2) then sendPay g.1.1 2
    else iprop(emp))
  unfold barPay recvPay sendPay
  (repeat' split) <;> infer_instance

section Sched
variable (c : Dev nD) (a : Fin 3)

theorem send_ne_bar : (SemLoc.dma (sendSem a) : SemLoc sig) ≠ .reg barS := fun h => by cases h
theorem recv_ne_bar : (SemLoc.dma (recvSem a) : SemLoc sig) ≠ .reg barS := fun h => by cases h
theorem send_ne_recv (b : Fin 3) : (SemLoc.dma (sendSem a) : SemLoc sig) ≠ .dma (recvSem b) := by revert a b; decide
theorem recv_inj {a b : Fin 3} (h : (SemLoc.dma (recvSem a) : SemLoc sig) = .dma (recvSem b)) : a = b := by revert a b; decide
theorem send_inj {a b : Fin 3} (h : (SemLoc.dma (sendSem a) : SemLoc sig) = .dma (sendSem b)) : a = b := by revert a b; decide

omit [FloatOps F] in
theorem duties_bar : (xrd (F := F) m ρ).duties (barCell c) 0 = Finset.univ := by dsimp only [xrd]; exact if_pos ⟨rfl, rfl, rfl⟩
omit [FloatOps F] in
theorem duties_send : (xrd (F := F) m ρ).duties (sendCell c a) 0 = {0} := by
  dsimp only [xrd]; rw [if_neg (fun h => send_ne_bar a h.2.2)]; exact if_pos ⟨rfl, rfl, a, .inl rfl⟩
omit [FloatOps F] in
theorem duties_recv : (xrd (F := F) m ρ).duties (recvCell c a) 0 = {0} := by
  dsimp only [xrd]; rw [if_neg (fun h => recv_ne_bar a h.2.2)]; exact if_pos ⟨rfl, rfl, a, .inr rfl⟩
omit [FloatOps F] in
theorem duties_later (g : GSem nD τ sig) : ∀ r, 1 ≤ r → (xrd (F := F) m ρ).duties g r = ∅ :=
  fun r hr => by dsimp only [xrd]; rw [if_neg fun h => by omega, if_neg fun h => by omega]

omit [FloatOps F] in
theorem amount_bar (d : Fin 3) : (xrd (F := F) m ρ).amount (barCell c) 0 d = 1 := by dsimp only [xrd]; exact if_pos rfl
omit [FloatOps F] in
theorem amount_send (d : Fin 3) : (xrd (F := F) m ρ).amount (sendCell c a) 0 d = Nx := by dsimp only [xrd]; exact if_neg (send_ne_bar a)
omit [FloatOps F] in
theorem amount_recv (d : Fin 3) : (xrd (F := F) m ρ).amount (recvCell c a) 0 d = Nx := by dsimp only [xrd]; exact if_neg (recv_ne_bar a)

omit [FloatOps F] in
theorem expect_bar : (xrd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
omit [FloatOps F] in
theorem expect_send : (xrd (F := F) m ρ).expect (sendCell c a) 0 = Nx := by
  unfold Schedule.expect Schedule.amountOf; rw [duties_send, Finset.sum_singleton, amount_send]
omit [FloatOps F] in
theorem expect_recv : (xrd (F := F) m ρ).expect (recvCell c a) 0 = Nx := by
  unfold Schedule.expect Schedule.amountOf; rw [duties_recv, Finset.sum_singleton, amount_recv]

omit [FloatOps F] in
theorem payload_bar (d : Fin 3) : (xrd (F := F) m ρ).payload (barCell c) 0 d = barPay c d := by dsimp only [xrd]; rw [if_pos rfl]
theorem payload_recv (d : Fin 3) : (xrd (F := F) m ρ).payload (recvCell c a) 0 d = recvPay m ρ c a := by
  dsimp only [xrd]; rw [if_neg (recv_ne_bar a)]
  fin_cases a
  · exact if_pos rfl
  · rw [if_neg (fun h => absurd (recv_inj h) (by decide))]; exact if_pos rfl
  · rw [if_neg (fun h => absurd (recv_inj h) (by decide)), if_neg (fun h => absurd (recv_inj h) (by decide))]; exact if_pos rfl
omit [FloatOps F] in
theorem payload_send (d : Fin 3) : (xrd (F := F) m ρ).payload (sendCell c a) 0 d = sendPay c a := by
  dsimp only [xrd]; rw [if_neg (send_ne_bar a), if_neg (send_ne_recv a 0), if_neg (send_ne_recv a 1), if_neg (send_ne_recv a 2)]
  fin_cases a
  · exact if_pos rfl
  · rw [if_neg (fun h => absurd (send_inj h) (by decide))]; exact if_pos rfl
  · rw [if_neg (fun h => absurd (send_inj h) (by decide)), if_neg (fun h => absurd (send_inj h) (by decide))]; exact if_pos rfl

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- The whole round of a barrier cell: the three neighbours' payloads. -/
theorem rest_bar : bigSep ((xrd (F := F) m ρ).duties (barCell c) 0 \ ∅) (fun d => (xrd (F := F) m ρ).payload (barCell c) 0 d)
    = iprop(barPay c 0 ∗ barPay c 1 ∗ barPay c 2) := by
  rw [Finset.sdiff_empty, duties_bar, bigSep_fin3, payload_bar, payload_bar, payload_bar]
omit [FloatOps F] in
theorem rest_send : bigSep ((xrd (F := F) m ρ).duties (sendCell c a) 0 \ ∅) (fun d => (xrd (F := F) m ρ).payload (sendCell c a) 0 d) = sendPay c a := by
  rw [Finset.sdiff_empty, duties_send, bigSep_singleton, payload_send]
theorem rest_recv : bigSep ((xrd (F := F) m ρ).duties (recvCell c a) 0 \ ∅) (fun d => (xrd (F := F) m ρ).payload (recvCell c a) 0 d) = recvPay m ρ c a := by
  rw [Finset.sdiff_empty, duties_recv, bigSep_singleton, payload_recv]

end Sched

end Cert.Kernel.Halo

end
-- ==== Proof.Kernel.Ledger.lean ====
/-
  What each device owes at launch, the levels that order the waits, the ghost state a device's body starts from,
  and the pipeline's proof data: the staged input block, the result block, the body's invariant before and after
  its one grid point.
-/
import proofs.«900534_g7700000000000535_dist_halo3d_v7x_xyz2x2x2_s32_f32_1_alg».proof.Proof.Kernel.Protocol

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch; the levels -/

/-- The three receive credits a device owes its neighbours (one face each), summed so that the transfer along axis 0
    peels the last summand, the one along axis 1 the middle one. -/
def R₀ (c : Dev nD) : CellTallies nD τ sig Unit :=
  tallyAt (recvCell (nbr 2 c) 2) () Nx + tallyAt (recvCell (nbr 1 c) 1) () Nx + tallyAt (recvCell (nbr 0 c) 0) () Nx
/-- With the three barrier units, the signal along axis 0 peeling the last summand. -/
def O₂ (c : Dev nD) : CellTallies nD τ sig Unit := R₀ c + tallyAt (barCell (nbr 2 c)) () 1
def O₁ (c : Dev nD) : CellTallies nD τ sig Unit := O₂ c + tallyAt (barCell (nbr 1 c)) () 1
def O₀ (c : Dev nD) : CellTallies nD τ sig Unit := O₁ c + tallyAt (barCell (nbr 0 c)) () 1

def L (g : GSem nD τ sig) : Finset Unit := if g.1.2 = .tc then {()} else ∅
/-- Barrier cells at level 1, receive cells at 2, everything else (staging, send) at 0. -/
def lv (g : GSem nD τ sig) (_ : Unit) : ℕ :=
  if g.2 = .reg barS then 1 else if ∃ a : Fin 3, g.2 = .dma (recvSem a) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (a : Fin 3) : lv (recvCell c a) () = 2 := by
  dsimp only [lv]; rw [if_neg (recv_ne_bar a), if_pos ⟨a, rfl⟩]

theorem R₀_pos {c : Dev nD} {g : GSem nD τ sig} {u : Unit} (h : 0 < R₀ c g u) : ∃ a, g = recvCell (nbr a c) a := by
  unfold R₀ at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    (∃ a, g = recvCell (nbr a c) a) ∨ ∃ a, g = barCell (nbr a c) := by
  unfold O₀ O₁ O₂ at h
  rw [Pi.add_apply, Finsupp.add_apply, Pi.add_apply, Finsupp.add_apply, Pi.add_apply, Finsupp.add_apply, tallyAt_apply, tallyAt_apply, tallyAt_apply] at h
  by_contra hn
  rw [not_or, not_exists, not_exists] at hn
  rw [if_neg (fun h' => hn.2 2 h'.1), if_neg (fun h' => hn.2 1 h'.1), if_neg (fun h' => hn.2 0 h'.1)] at h
  obtain ⟨a, ha⟩ := R₀_pos h
  exact hn.1 a ha

omit [FloatOps F] in
/-- A wait on a staging or send cell (level 0) is below everything a device owes at launch. -/
theorem mayWait_stage (c : Dev nD) (q : DmaSem sig) (hq : ∀ a : Fin 3, SemLoc.dma q ≠ .dma (recvSem a)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨a, rfl⟩ | ⟨a, rfl⟩ <;> exact Finset.mem_singleton_self _)
      (fun p hp => by
        rw [Finset.mem_singleton.mp hp]; dsimp only [lv]
        rw [if_neg (fun h => by cases h), if_neg (fun ⟨a, h⟩ => hq a h)])
      (fun g u hg => by
        rcases O₀_pos hg with ⟨a, rfl⟩ | ⟨a, rfl⟩
        · rw [lv_recv]; decide
        · rw [lv_bar]; decide)
  · rw [MayWait_zero]; iintro -; iempintro

omit [FloatOps F] in
/-- At its barrier wait a device owes the three receive credits only: receive cells, above its barrier cell. -/
theorem mayWait_bar (c : Dev nD) :
    (levAts L lv : sProp 𝕄) ⊢ MayWait (c : Thread nD τ) (.reg barS) () (R₀ c) :=
  MayOwe.of_cut (L := L) (lev := lv) 1 (fun p hp => by rw [Finset.mem_singleton.mp hp, L_tc]; exact Finset.mem_singleton_self _)
    (fun g u hg => by obtain ⟨a, rfl⟩ := R₀_pos hg; exact Finset.mem_singleton_self _)
    (fun p hp => by rw [Finset.mem_singleton.mp hp]; exact le_of_eq (lv_bar c))
    (fun g u hg => by obtain ⟨a, rfl⟩ := R₀_pos hg; rw [lv_recv]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: the stencil of its own block and the three faces its neighbours send it. -/
def outAt (c : Dev nD) : (cc0_stg1_0 : Ref sig .tc).ty.Contents (Elt F) := meshOut (ublk m ρ) c

section Ghost
variable (K : Dev nD × Fin 7 → ℕ)

/-- The seven cells of a device, as this proof indexes them: barrier; send 0, 1, 2; receive 0, 1, 2. -/
abbrev csem : Fin 7 → SemLoc sig := fun
  | 0 => .reg barS | 1 => .dma (sendSem 0) | 2 => .dma (sendSem 1) | 3 => .dma (sendSem 2)
  | 4 => .dma (recvSem 0) | 5 => .dma (recvSem 1) | 6 => .dma (recvSem 2)
abbrev kcell (ck : Dev nD × Fin 7) : GSem nD τ sig := ((ck.1 : Thread nD τ), csem ck.2)
abbrev sIx (a : Fin 3) : Fin 7 := ⟨1 + a.val, by omega⟩
abbrev rIx (a : Fin 3) : Fin 7 := ⟨4 + a.val, by omega⟩

/-- The cells' invariants device `c`'s body opens, under the names `K` the launch allocated them at: its own seven,
    each neighbour's barrier cell (its signals) and each neighbour's receive cell of the axis (its transfers). -/
def invs (c : Dev nD) : sProp 𝕄 :=
  iprop(cellInv ER (xrd m ρ) (K (c, 0)) (barCell c)
    ∗ (cellInv ER (xrd m ρ) (K (c, 1)) (sendCell c 0) ∗ cellInv ER (xrd m ρ) (K (c, 2)) (sendCell c 1) ∗ cellInv ER (xrd m ρ) (K (c, 3)) (sendCell c 2))
    ∗ (cellInv ER (xrd m ρ) (K (c, 4)) (recvCell c 0) ∗ cellInv ER (xrd m ρ) (K (c, 5)) (recvCell c 1) ∗ cellInv ER (xrd m ρ) (K (c, 6)) (recvCell c 2))
    ∗ (cellInv ER (xrd m ρ) (K (nbr 0 c, 0)) (barCell (nbr 0 c)) ∗ cellInv ER (xrd m ρ) (K (nbr 1 c, 0)) (barCell (nbr 1 c)) ∗ cellInv ER (xrd m ρ) (K (nbr 2 c, 0)) (barCell (nbr 2 c)))
    ∗ (cellInv ER (xrd m ρ) (K (nbr 0 c, 4)) (recvCell (nbr 0 c) 0) ∗ cellInv ER (xrd m ρ) (K (nbr 1 c, 5)) (recvCell (nbr 1 c) 1) ∗ cellInv ER (xrd m ρ) (K (nbr 2 c, 6)) (recvCell (nbr 2 c) 2)))

instance invs_persistent (c : Dev nD) : BI.Persistent (invs m ρ K c) := by unfold invs; infer_instance

/-- Device `c`'s positions: round 0 of each of its seven cells. -/
def positions (c : Dev nD) : sProp 𝕄 :=
  iprop(atPos ER (barCell c) 0 ∅ 0
    ∗ (atPos ER (sendCell c 0) 0 ∅ 0 ∗ atPos ER (sendCell c 1) 0 ∅ 0 ∗ atPos ER (sendCell c 2) 0 ∅ 0)
    ∗ (atPos ER (recvCell c 0) 0 ∅ 0 ∗ atPos ER (recvCell c 1) 0 ∅ 0 ∗ atPos ER (recvCell c 2) 0 ∅ 0))

/-- That round 0 is reached: of the cells `c` pays (neighbours' barrier and receive cells, its own send cells) and of
    its own receive cells (handed to the neighbours with its barrier signals). -/
def marks (c : Dev nD) : sProp 𝕄 :=
  iprop((reached ER (barCell (nbr 0 c)) 0 ∗ reached ER (barCell (nbr 1 c)) 0 ∗ reached ER (barCell (nbr 2 c)) 0)
    ∗ (reached ER (recvCell (nbr 0 c) 0) 0 ∗ reached ER (recvCell (nbr 1 c) 1) 0 ∗ reached ER (recvCell (nbr 2 c) 2) 0)
    ∗ (reached ER (sendCell c 0) 0 ∗ reached ER (sendCell c 1) 0 ∗ reached ER (sendCell c 2) 0)
    ∗ (reached ER (recvCell c 0) 0 ∗ reached ER (recvCell c 1) 0 ∗ reached ER (recvCell c 2) 0))

instance marks_persistent (c : Dev nD) : BI.Persistent (marks (F := F) c) := by unfold marks; infer_instance

/-- The tokens of the duties `c` pays: duty `a` of the barrier cell of its neighbour along `a`, that neighbour's
    receive duty of the axis, its own send duty of the axis. -/
def payToks (c : Dev nD) : sProp 𝕄 :=
  iprop((dutyTok ER (barCell (nbr 0 c)) 0 0 ∗ dutyTok ER (barCell (nbr 1 c)) 0 1 ∗ dutyTok ER (barCell (nbr 2 c)) 0 2)
    ∗ (dutyTok ER (recvCell (nbr 0 c) 0) 0 0 ∗ dutyTok ER (recvCell (nbr 1 c) 1) 0 0 ∗ dutyTok ER (recvCell (nbr 2 c) 2) 0 0)
    ∗ (dutyTok ER (sendCell c 0) 0 0 ∗ dutyTok ER (sendCell c 1) 0 0 ∗ dutyTok ER (sendCell c 2) 0 0))

/-- The exchange's ghost state device `c` starts from. -/
def ghost (c : Dev nD) : sProp 𝕄 := iprop(invs m ρ K c ∗ positions c ∗ marks c ∗ payToks c)

end Ghost

/-- The credit dealt at launch for a device's own waits: its barrier's three units, each receive cell's face. -/
def creds (c : Dev nD) : sProp 𝕄 :=
  iprop(cred (tallyAt (barCell c) () 3)
    ∗ cred (tallyAt (recvCell c 0) () Nx) ∗ cred (tallyAt (recvCell c 1) () Nx) ∗ cred (tallyAt (recvCell c 2) () Nx))

/-- What device `c`'s body starts from, beside the buffers. -/
def start (c : Dev nD) : sProp 𝕄 := iprop((∃ K, ghost m ρ K c) ∗ creds c ∗ levAts L lv)

/-- Before the point: that, and the two scratch buffers whole at some contents. -/
def Φ₀ (c : Dev nD) : sProp 𝕄 :=
  iprop(start m ρ c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After the point: the two scratch buffers whole again, the six own cells at zero, closed. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (semVal (sendCell c 0) 0 ∗ semVal (sendCell c 1) 0 ∗ semVal (sendCell c 2) 0)
    ∗ (semVal (recvCell c 0) 0 ∗ semVal (recvCell c 1) 0 ∗ semVal (recvCell c 2) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => ublk m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.Kernel.Halo

end
-- ==== Proof.Kernel.Slots.lean ====
/-
  The two 3×32×32 scratch buffers cut into their three 32×32 slots: the slots' element sets partition the buffer, a
  buffer held whole is its three slots and back, and what a store into a slot leaves is what the slot's view reads.
-/
import proofs.«900534_g7700000000000535_dist_halo3d_v7x_xyz2x2x2_s32_f32_1_alg».proof.Proof.Kernel.Ledger

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A slot's elements are its rectangle's. -/
theorem sSet_eq (a : Fin 3) : (sSlot a : Memref sig .tc .vmem S32x32 .f32).view.set = (slotRect a).set := by
  show (((View.whole cc0_scratch0).slice (slotRect a)).reshape S32x32 _).set = _
  rw [View.set_reshape, View.set_slice_whole]
theorem hSet_eq (a : Fin 3) : (hSlot a : Memref sig .tc .vmem S32x32 .f32).view.set = (slotRect a).set := by
  show (((View.whole cc0_scratch1).slice (slotRect a)).reshape S32x32 _).set = _
  rw [View.set_reshape, View.set_slice_whole]

/-- Every element of the buffer lies in the slot its leading coordinate names. -/
theorem slots_cover : (slotRect 0).set ∪ ((slotRect 1).set ∪ (slotRect 2).set) = (Finset.univ : Finset S3x32x32.Idx) := by
  ext i
  simp only [Finset.mem_union, Rect.mem_set_unit, Finset.mem_univ, iff_true]
  have h0 : (i 0).val < 3 := (i 0).isLt
  have h1 : (i 1).val < 32 := (i 1).isLt
  have h2 : (i 2).val < 32 := (i 2).isLt
  have e : (i 0).val = 0 ∨ (i 0).val = 1 ∨ (i 0).val = 2 := by omega
  rcases e with e | e | e
  · left; intro a
    match a with
    | ⟨0, _⟩ => exact ⟨Nat.zero_le _, by show (i 0).val < 0 + 1; omega⟩
    | ⟨1, _⟩ => exact ⟨Nat.zero_le _, by show (i 1).val < 0 + 32; omega⟩
    | ⟨2, _⟩ => exact ⟨Nat.zero_le _, by show (i 2).val < 0 + 32; omega⟩
  · right; left; intro a
    match a with
    | ⟨0, _⟩ => exact ⟨by show 1 ≤ (i 0).val; omega, by show (i 0).val < 1 + 1; omega⟩
    | ⟨1, _⟩ => exact ⟨Nat.zero_le _, by show (i 1).val < 0 + 32; omega⟩
    | ⟨2, _⟩ => exact ⟨Nat.zero_le _, by show (i 2).val < 0 + 32; omega⟩
  · right; right; intro a
    match a with
    | ⟨0, _⟩ => exact ⟨by show 2 ≤ (i 0).val; omega, by show (i 0).val < 2 + 1; omega⟩
    | ⟨1, _⟩ => exact ⟨Nat.zero_le _, by show (i 1).val < 0 + 32; omega⟩
    | ⟨2, _⟩ => exact ⟨Nat.zero_le _, by show (i 2).val < 0 + 32; omega⟩

/-- Different slots share no element. -/
theorem slots_disj {a b : Fin 3} (h : a ≠ b) : Disjoint (slotRect a).set (slotRect b).set :=
  Rect.unit_disjoint (0 : Fin 3) (by
    show a.val + 1 ≤ b.val ∨ b.val + 1 ≤ a.val
    have : a.val ≠ b.val := fun e => h (Fin.ext e)
    omega)

theorem slot12_disj0 : Disjoint (slotRect 0).set ((slotRect 1).set ∪ (slotRect 2).set) :=
  Finset.disjoint_union_right.mpr ⟨slots_disj (by decide), slots_disj (by decide)⟩

section Pts
variable (c : Dev nD)

omit [FloatOps F] in
/-- The send buffer held whole is its three slots, -/
theorem split_s (f : Buf (Elt F) ((c : Thread nD τ).loc cc0_scratch0)) :
    ((((c : Thread nD τ).loc cc0_scratch0) ↦{fullShare} f : sProp 𝕄)) ⊢ iprop(sPts c 0 f ∗ sPts c 1 f ∗ sPts c 2 f) := by
  unfold sPts
  rw [sSet_eq, sSet_eq, sSet_eq]
  refine (Entails.of_eq ?_).trans ((pointsTo_union slot12_disj0).1.trans (sep_mono_right (pointsTo_union (slots_disj (by decide))).1))
  rw [slots_cover]
omit [FloatOps F] in
/-- and three slots held at any contents are the buffer whole at some contents. -/
theorem join_s (f0 f1 f2 : Buf (Elt F) ((c : Thread nD τ).loc cc0_scratch0)) :
    iprop(sPts c 0 f0 ∗ sPts c 1 f1 ∗ sPts c 2 f2) ⊢ (∃ f : Buf (Elt F) ((c : Thread nD τ).loc cc0_scratch0), ((c : Thread nD τ).loc cc0_scratch0) ↦{fullShare} f : sProp 𝕄) := by
  unfold sPts
  rw [sSet_eq, sSet_eq, sSet_eq]
  refine (sep_mono_right (pointsTo_join (slots_disj (a := 1) (b := 2) (by decide)))).trans ((pointsTo_join slot12_disj0).trans ?_)
  rw [slots_cover]
  iintro H; iexists _; iexact H
omit [FloatOps F] in
theorem split_h (f : Buf (Elt F) ((c : Thread nD τ).loc cc0_scratch1)) :
    ((((c : Thread nD τ).loc cc0_scratch1) ↦{fullShare} f : sProp 𝕄)) ⊢ iprop(hPts c 0 f ∗ hPts c 1 f ∗ hPts c 2 f) := by
  unfold hPts
  rw [hSet_eq, hSet_eq, hSet_eq]
  refine (Entails.of_eq ?_).trans ((pointsTo_union slot12_disj0).1.trans (sep_mono_right (pointsTo_union (slots_disj (by decide))).1))
  rw [slots_cover]
omit [FloatOps F] in
theorem join_h (f0 f1 f2 : Buf (Elt F) ((c : Thread nD τ).loc cc0_scratch1)) :
    iprop(hPts c 0 f0 ∗ hPts c 1 f1 ∗ hPts c 2 f2) ⊢ (∃ f : Buf (Elt F) ((c : Thread nD τ).loc cc0_scratch1), ((c : Thread nD τ).loc cc0_scratch1) ↦{fullShare} f : sProp 𝕄) := by
  unfold hPts
  rw [hSet_eq, hSet_eq, hSet_eq]
  refine (sep_mono_right (pointsTo_join (slots_disj (a := 1) (b := 2) (by decide)))).trans ((pointsTo_join slot12_disj0).trans ?_)
  rw [slots_cover]
  iintro H; iexists _; iexact H

end Pts

/-! ## Loads and stores through a slot's rectangle -/

/-- A load or a store through slot `a`'s rectangle touches the slot's elements only. -/
theorem s_load_sub (a : Fin 3) : (sM : Memref sig .tc .vmem S3x32x32 .f32).view.setOn (slotRect a).toLoadRect.set ⊆ (sSlot a : Memref sig .tc .vmem S32x32 .f32).view.set := by
  rw [sSet_eq]; intro i hi
  obtain ⟨j, hj, rfl⟩ := Finset.mem_map.mp hi
  exact hj
theorem h_load_sub (a : Fin 3) : (hM : Memref sig .tc .vmem S3x32x32 .f32).view.setOn (slotRect a).toLoadRect.set ⊆ (hSlot a : Memref sig .tc .vmem S32x32 .f32).view.set := by
  rw [hSet_eq]; intro i hi
  obtain ⟨j, hj, rfl⟩ := Finset.mem_map.mp hi
  exact hj
theorem s_store_sub (a : Fin 3) : ((sM : Memref sig .tc .vmem S3x32x32 .f32).access (slotRect a)).setOn Finset.univ ⊆ (sSlot a : Memref sig .tc .vmem S32x32 .f32).view.set := by
  rw [sSet_eq, View.setOn_univ]
  exact subset_of_eq (View.set_slice_whole _ _)

/-- What slot `a`'s view reads after a store of `w` through the slot's rectangle: `w`, as a 32×32 array. -/
theorem s_read_store (a : Fin 3) (f : (cc0_scratch0 : Ref sig .tc).ty.Contents (Elt F)) (w : S1x32x32.Idx → Elt F .f32) :
    (sSlot a : Memref sig .tc .vmem S32x32 .f32).view.read (Elt F) (((sM : Memref sig .tc .vmem S3x32x32 .f32).access (slotRect a)).write (Elt F) f w Finset.univ)
      = shapeCast S32x32 w Facts₀.shapeCasts_S1x32x32_S32x32 := by
  show shapeCast S32x32 (((sM : Memref sig .tc .vmem S3x32x32 .f32).access (slotRect a)).read (Elt F) (((sM : Memref sig .tc .vmem S3x32x32 .f32).access (slotRect a)).write (Elt F) f w Finset.univ)) _ = _
  rw [View.read_write_univ]

/-- What a load through slot `a`'s rectangle of the landing buffer reads, as a 32×32 array, is what the slot's view reads. -/
theorem h_read_load (a : Fin 3) (f : (cc0_scratch1 : Ref sig .tc).ty.Contents (Elt F)) :
    shapeCast S32x32 ((hM : Memref sig .tc .vmem S3x32x32 .f32).view.readAt (Elt F) (slotRect a).toLoadRect f) Facts₀.shapeCasts_S1x32x32_S32x32
      = (hSlot a : Memref sig .tc .vmem S32x32 .f32).view.read (Elt F) f := rfl

/-- The result block depends on the received faces only through their 32×32 readings. -/
theorem outOf_congr (c : Dev nD) (u : Vec F S32x32x32 .f32) {h0 h1 h2 h0' h1' h2' : Vec F S1x32x32 .f32}
    (e0 : shapeCast S32x32 h0 Facts₀.shapeCasts_S1x32x32_S32x32 = shapeCast S32x32 h0' Facts₀.shapeCasts_S1x32x32_S32x32)
    (e1 : shapeCast S32x32 h1 Facts₀.shapeCasts_S1x32x32_S32x32 = shapeCast S32x32 h1' Facts₀.shapeCasts_S1x32x32_S32x32)
    (e2 : shapeCast S32x32 h2 Facts₀.shapeCasts_S1x32x32_S32x32 = shapeCast S32x32 h2' Facts₀.shapeCasts_S1x32x32_S32x32) :
    outOf c u h0 h1 h2 = outOf c u h0' h1' h2' := by
  unfold outOf k0_pay1 k0_pay18 k0_pay19
  rw [e0, e1, e2]

end Cert.Kernel.Halo

end
-- ==== Proof.Kernel.Body.lean ====
/-
  One device's body, stepped from the exchange's ghost state: three barrier signals (each handing a landing slot to
  the neighbour that fills it), the three faces stored into the send slots, the barrier wait (the neighbours' landing
  slots arrive), the three transfers, the six waits (send slots back, landing slots holding the neighbours' faces),
  and the stencil stored into the result block.
-/
import proofs.«900534_g7700000000000535_dist_halo3d_v7x_xyz2x2x2_s32_f32_1_alg».proof.Proof.Kernel.Slots

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The transfer along one axis, at the exchange's cells -/

section Rules
variable (c : Dev nD)

/-- The transfer of `c`'s face along axis `a` into slot `a` of the neighbour `n = nbr a c` (substituted, not
    rewritten): it pays `c`'s send duty with the send slot and the neighbour's receive duty with the neighbour's
    landing slot reading `c`'s face. -/
theorem wp_send_face (n : Dev nD) (a : Fin 3) (hn : n = nbr a c)
    (fs : Buf (Elt F) ((sSlot a : Memref sig .tc .vmem S32x32 .f32).view.loc (c : Thread nD τ)))
    (hfs : (sSlot a : Memref sig .tc .vmem S32x32 .f32).view.read (Elt F) fs = faceS m ρ c a)
    (fn : Buf (Elt F) ((hSlot a : Memref sig .tc .vmem S32x32 .f32).view.loc (nbr a c : Thread nD τ)))
    (O₀ O : CellTallies nD τ sig Unit) (hO : O₀ = O + tallyAt (recvCell (nbr a c) a) () Nx) {κ₁ κ₂ : ℕ} {W : Waits sig Unit}
    {hsc : (hSlot a : Memref sig (Dev.tc n : Thread nD τ).2.kind .vmem S32x32 .f32).view.ref.isScScratch = false}
    {hsrc : (sSlot a : Memref sig .tc .vmem S32x32 .f32).view.WordExact} {hdst : (hSlot a : Memref sig .tc .vmem S32x32 .f32).view.WordExact}
    {hsem : DmaTarget.Typed .vmem (.dma (recvSem a)) (.remote (Dev.tc n : Thread nD τ) (hSlot a : Memref sig .tc .vmem S32x32 .f32) (.dma (sendSem a)) hsc)}
    {α : Type} {Q : α → sProp 𝕄} {k : PUnit → Prog (TpuEff nD τ sig (Elt F) Λ₀ .tc) α} :
    iprop(cellInv ER (xrd m ρ) κ₁ (sendCell c a) ∗ cellInv ER (xrd m ρ) κ₂ (recvCell (nbr a c) a)
        ∗ ((sSlot a : Memref sig .tc .vmem S32x32 .f32).view.loc (c : Thread nD τ) ↦[(sSlot a : Memref sig .tc .vmem S32x32 .f32).view.set]{fullShare} fs)
        ∗ hPts (nbr a c) a fn
        ∗ owes (c : Thread nD τ) O₀ W
        ∗ dutyTok ER (sendCell c a) 0 0 ∗ reached ER (sendCell c a) 0
        ∗ dutyTok ER (recvCell (nbr a c) a) 0 0 ∗ reached ER (recvCell (nbr a c) a) 0)
      ⊢ iprop(((cred (tallyAt (sendCell c a) () Nx) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot a) (.remote (Dev.tc n : Thread nD τ) (hSlot a) (.dma (sendSem a)) hsc) (.dma (recvSem a)) hsrc hdst hsem) k) Q) := by
  subst hn
  unfold hPts
  exact Rounds.wp_send_pointsTo 𝒱₀ ER (xrd m ρ) (c : Thread nD τ) none (κ₁ := κ₁) (κ₂ := κ₂)
    (r₁ := 0) (r₂ := 0) (d₁ := 0) (d₂ := 0) (fd := fn)
    (by rw [duties_send]; exact Finset.mem_singleton_self _) (by rw [duties_recv]; exact Finset.mem_singleton_self _)
    () () Nx (amount_slot a) (amount_send m ρ c a 0) (amount_recv m ρ (nbr a c) a 0) O hO (W := W)
    (by rw [payload_send]; unfold sendPay sPts; iintro H; iexists fs; iexact H)
    (by
      rw [payload_recv]; unfold recvPay hPts
      iintro H; iexists _
      isplitl [H]; · iexact H
      ipureintro; rw [View.read_write_univ, hfs, nbr_nbr])

omit [FloatOps F] in
theorem sNx (a : Fin 3) : (sSlot a : Memref sig .tc .vmem S32x32 .f32).view.dmaCredit = Nx := by revert a; decide
omit [FloatOps F] in
theorem hNx (a : Fin 3) : (hSlot a : Memref sig .tc .vmem S32x32 .f32).view.dmaCredit = Nx := by revert a; decide

omit [FloatOps F] in
theorem whole_pts (b : Ref sig .tc) (f : Buf (Elt F) ((c : Thread nD τ).loc b)) :
    ((((c : Thread nD τ).loc b) ↦{fullShare} f : sProp 𝕄))
      = ((Memref.whole b : Memref sig .tc _ _ _).view.loc (c : Thread nD τ) ↦[(Memref.whole b : Memref sig .tc _ _ _).view.set]{fullShare} f) := by
  rw [View.set_whole]

omit [FloatOps F] in
/-- The barrier duty `d` of the neighbour along `d`, spelt out: `c`'s own landing slot `d` and its receive cell's mark. -/
theorem payload_bar_spelt (d : Fin 3) : (xrd (F := F) m ρ).payload (barCell (nbr d c)) 0 d
    = iprop((∃ f, ((hSlot d : Memref sig .tc .vmem S32x32 .f32).view.loc (c : Thread nD τ) ↦[(hSlot d : Memref sig .tc .vmem S32x32 .f32).view.set]{fullShare} f : sProp 𝕄)) ∗ reached ER (recvCell c d) 0) := by
  rw [payload_bar]; unfold barPay hPts; rw [nbr_nbr]

omit [FloatOps F] in
/-- A barrier cell's whole round: the three neighbours' payloads. -/
theorem bar_round : bigSep Finset.univ (fun d => (xrd (F := F) m ρ).payload (barCell c) 0 d) = iprop(barPay c 0 ∗ barPay c 1 ∗ barPay c 2) := by
  rw [bigSep_fin3, payload_bar, payload_bar, payload_bar]

/-- What a slot's view reads after the three faces were stored, each through its slot's rectangle. -/
theorem slot_read_writes (f : (cc0_scratch0 : Ref sig .tc).ty.Contents (Elt F)) (w0 w1 w2 : S1x32x32.Idx → Elt F .f32) (a : Fin 3) :
    (sSlot a : Memref sig .tc .vmem S32x32 .f32).view.read (Elt F)
        ((sM : Memref sig .tc .vmem S3x32x32 .f32).view.writes (Elt F) f [⟨slotRect 2, w2⟩, ⟨slotRect 1, w1⟩, ⟨slotRect 0, w0⟩])
      = shapeCast S32x32 (![w0, w1, w2] a) Facts₀.shapeCasts_S1x32x32_S32x32 := by
  have hd : ∀ {a b : Fin 3}, a ≠ b → ∀ (g : (cc0_scratch0 : Ref sig .tc).ty.Contents (Elt F)) (w : S1x32x32.Idx → Elt F .f32),
      ((sM : Memref sig .tc .vmem S3x32x32 .f32).access (slotRect a)).read (Elt F) (((sM : Memref sig .tc .vmem S3x32x32 .f32).access (slotRect b)).write (Elt F) g w Finset.univ)
        = ((sM : Memref sig .tc .vmem S3x32x32 .f32).access (slotRect a)).read (Elt F) g := fun {a b} hab g w =>
    View.read_slice_write_slice_of_disjoint (v := (sM : Memref sig .tc .vmem S3x32x32 .f32).view) (slotRect a) (slotRect b) g w Finset.univ (by
      rw [View.setOn_univ, View.set_slice_whole, View.set_slice_whole]; exact slots_disj hab)
  show shapeCast S32x32 (((sM : Memref sig .tc .vmem S3x32x32 .f32).access (slotRect a)).read (Elt F) _) _ = _
  congr 1
  simp only [View.writes_cons, View.writes_nil]
  fin_cases a
  · rw [hd (by decide), hd (by decide)]; exact View.read_write_univ _ _
  · rw [hd (by decide)]; exact View.read_write_univ _ _
  · exact View.read_write_univ _ _

end Rules

section Body

variable (K : Dev nD × Fin 7 → ℕ)

def bodyPre (c : Dev nD) : sProp 𝕄 :=
  iprop((ghost m ρ K c ∗ creds c ∗ levAts L lv
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (ublk m ρ c) ∗ stg c cc0_stg1_0 (outAt m ρ c))

abbrev r0 : Rect S32x32x32 := Rect.unit (s := S32x32x32) ![0, 0, 0] S32x32x32.size Facts₀.inb_S32x32x32_S32x32x32_0_0_0

omit [FloatOps F] in
theorem hz : (![0, 0, 0] : Fin 3 → Nat) = fun _ => 0 := funext fun a => by fin_cases a <;> rfl
omit [FloatOps F] in
theorem read_x (f : (cc0_stg0_0 : Ref sig .tc).ty.Contents (Elt F)) : (xM : Memref sig .tc .vmem S32x32x32 .f32).view.readAt (Elt F) r0.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S32x32x32 .f32).access r0 : View sig .tc _ _ _).write (Elt F) f w Finset.univ = w :=
  Memref.write_access_unit_zero_univ (Elt F) cc0_stg1_0 hz _ f w

open Idealize.ShloMosaic.Tactic in
attribute [local sl_rounds] duties_bar duties_send duties_recv amount_bar amount_send amount_recv payload_bar_spelt payload_send payload_recv expect_bar expect_send expect_recv

open Idealize.ShloMosaic.Tactic in
set_option maxHeartbeats 1600000 in
/-- The body, from `bodyPre` to `bodyPost`, one effect after the other in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre ghost invs positions marks payToks creds
  iintro ⟨⟨⟨⟨⟨#HIb, ⟨#HIs0, #HIs1, #HIs2⟩, ⟨#HIr0, #HIr1, #HIr2⟩, ⟨#HIbN0, #HIbN1, #HIbN2⟩, #HIrN0, #HIrN1, #HIrN2⟩,
      ⟨HatB, ⟨HatS0, HatS1, HatS2⟩, HatR0, HatR1, HatR2⟩,
      ⟨⟨#HrBN0, #HrBN1, #HrBN2⟩, ⟨#HrRN0, #HrRN1, #HrRN2⟩, ⟨#HrS0, #HrS1, #HrS2⟩, #HrR0, #HrR1, #HrR2⟩,
      ⟨HtB0, HtB1, HtB2⟩, ⟨HtR0, HtR1, HtR2⟩, HtS0, HtS1, HtS2⟩,
      ⟨HcB, HcR0, HcR1, HcR2⟩, #Hlev, ⟨%fs0, Hs⟩, ⟨%fh0, Hh⟩⟩,
    Ho, ⟨%d0, %g0, %hg0, Hx⟩, ⟨%d1, %g1, %hg1, Hout⟩⟩, Hk⟩
  have hx : g0 = ublk m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- the landing buffer by slots: one goes to each neighbour with the barrier signal along its axis
  ihave Hh3 := (split_h c fh0) $$ Hh
  icases Hh3 with ⟨Hh0, Hh1, Hh2⟩
  unfold hPts
  unfold O₀ O₁ O₂ R₀
  ihave Hx := (Entails.of_eq (whole_pts (F := F) c cc0_stg0_0 _)) $$ Hx
  ihave Hout := (Entails.of_eq (whole_pts (F := F) c cc0_stg1_0 _)) $$ Hout
  ihave Hs := (Entails.of_eq (whole_pts (F := F) c cc0_scratch0 _)) $$ Hs
  have hmw : (levAts L lv : sProp 𝕄) ⊢ MayWait (c : Thread nD τ) (.reg barS) ()
      (tallyAt (recvCell (nbr 2 c) 2) () Nx + tallyAt (recvCell (nbr 1 c) 1) () Nx + tallyAt (recvCell (nbr 0 c) 0) () Nx) := mayWait_bar c
  -- the three signals, the block's load, the three faces stored, the wait for the three neighbours
  sl_exec
  rw [read_x]
  ihave Hp := (Entails.of_eq (bar_round m ρ c)) $$ HatB_pay1
  unfold barPay
  icases Hp with ⟨⟨⟨%fn0, Hn0⟩, #HrN0'⟩, ⟨⟨%fn1, Hn1⟩, #HrN1'⟩, ⟨%fn2, Hn2⟩, #HrN2'⟩
  -- the send buffer by slots, each reading its face
  ihave Hs := (Entails.of_eq (whole_pts (F := F) c cc0_scratch0 _).symm) $$ Hs
  ihave Hs3 := (split_s c _) $$ Hs
  icases Hs3 with ⟨Hs0, Hs1, Hs2⟩
  unfold sPts
  -- the three transfers
  iapply (wp_send_face m ρ c _ 0 (dev4_eq c) _ (slot_read_writes fs0 _ _ _ 0) fn0 _ (tallyAt (recvCell (nbr 2 c) 2) () Nx + tallyAt (recvCell (nbr 1 c) 1) () Nx) rfl (κ₁ := K (c, 1)) (κ₂ := K (nbr 0 c, 4)))
    $$ [Hs0 Hn0 HO HtS0 HtR0]
  · isplitr; · iexact HIs0
    isplitr; · iexact HIrN0
    isplitl [Hs0]; · iexact Hs0
    isplitl [Hn0]; · iexact Hn0
    isplitl [HO]; · iexact HO
    isplitl [HtS0]; · iexact HtS0
    isplitr; · iexact HrS0
    isplitl [HtR0]; · iexact HtR0
    iexact HrN0'
  iintro ⟨HcS0, HO⟩
  iapply (wp_send_face m ρ c _ 1 (dev5_eq c) _ (slot_read_writes fs0 _ _ _ 1) fn1 _ (tallyAt (recvCell (nbr 2 c) 2) () Nx) rfl (κ₁ := K (c, 2)) (κ₂ := K (nbr 1 c, 5)))
    $$ [Hs1 Hn1 HO HtS1 HtR1]
  · isplitr; · iexact HIs1
    isplitr; · iexact HIrN1
    isplitl [Hs1]; · iexact Hs1
    isplitl [Hn1]; · iexact Hn1
    isplitl [HO]; · iexact HO
    isplitl [HtS1]; · iexact HtS1
    isplitr; · iexact HrS1
    isplitl [HtR1]; · iexact HtR1
    iexact HrN1'
  iintro ⟨HcS1, HO⟩
  iapply (wp_send_face m ρ c _ 2 (dev6_eq c) _ (slot_read_writes fs0 _ _ _ 2) fn2 _ 0 (zero_add _).symm (κ₁ := K (c, 3)) (κ₂ := K (nbr 2 c, 6)))
    $$ [Hs2 Hn2 HO HtS2 HtR2]
  · isplitr; · iexact HIs2
    isplitr; · iexact HIrN2
    isplitl [Hs2]; · iexact Hs2
    isplitl [Hn2]; · iexact Hn2
    isplitl [HO]; · iexact HO
    isplitl [HtS2]; · iexact HtS2
    isplitr; · iexact HrS2
    isplitl [HtR2]; · iexact HtR2
    iexact HrN2'
  iintro ⟨HcS2, HO⟩
  -- the six waits: the send slots back, the landing slots holding the neighbours' faces
  sl_exec
  unfold sendPay recvPay
  icases HatS0_pay1 with ⟨%gs0, Hs0⟩
  icases HatS1_pay1 with ⟨%gs1, Hs1⟩
  icases HatS2_pay1 with ⟨%gs2, Hs2⟩
  icases HatR0_pay1 with ⟨%gr0, Hr0, %hq0⟩
  icases HatR1_pay1 with ⟨%gr1, Hr1, %hq1⟩
  icases HatR2_pay1 with ⟨%gr2, Hr2, %hq2⟩
  -- the six own cells close
  imod (Rounds.cell_close ER (xrd m ρ) (Set.mem_univ (K (c, 1))) (fun h => h) (R := 0 + 1) (duties_later m ρ (sendCell c 0))) $$ [HatS0] with HzS0
  · isplitr; · iexact HIs0
    iexact HatS0
  imod (Rounds.cell_close ER (xrd m ρ) (Set.mem_univ (K (c, 2))) (fun h => h) (R := 0 + 1) (duties_later m ρ (sendCell c 1))) $$ [HatS1] with HzS1
  · isplitr; · iexact HIs1
    iexact HatS1
  imod (Rounds.cell_close ER (xrd m ρ) (Set.mem_univ (K (c, 3))) (fun h => h) (R := 0 + 1) (duties_later m ρ (sendCell c 2))) $$ [HatS2] with HzS2
  · isplitr; · iexact HIs2
    iexact HatS2
  imod (Rounds.cell_close ER (xrd m ρ) (Set.mem_univ (K (c, 4))) (fun h => h) (R := 0 + 1) (duties_later m ρ (recvCell c 0))) $$ [HatR0] with HzR0
  · isplitr; · iexact HIr0
    iexact HatR0
  imod (Rounds.cell_close ER (xrd m ρ) (Set.mem_univ (K (c, 5))) (fun h => h) (R := 0 + 1) (duties_later m ρ (recvCell c 1))) $$ [HatR1] with HzR1
  · isplitr; · iexact HIr1
    iexact HatR1
  imod (Rounds.cell_close ER (xrd m ρ) (Set.mem_univ (K (c, 6))) (fun h => h) (R := 0 + 1) (duties_later m ρ (recvCell c 2))) $$ [HatR2] with HzR2
  · isplitr; · iexact HIr2
    iexact HatR2
  -- the received faces, and the stencil into the result block
  unfold hPts
  iapply (wp_load 𝒱₀ (c : Thread nD τ) none Set.univ (m := hM) (h_load_sub 0)) $$ Hr0; iintro Hr0
  iapply (wp_load 𝒱₀ (c : Thread nD τ) none Set.univ (m := hM) (h_load_sub 1)) $$ Hr1; iintro Hr1
  iapply (wp_load 𝒱₀ (c : Thread nD τ) none Set.univ (m := hM) (h_load_sub 2)) $$ Hr2; iintro Hr2
  ihave Hout := (Entails.of_eq (whole_pts (F := F) c cc0_stg1_0 _).symm) $$ Hout
  ihave Hx := (Entails.of_eq (whole_pts (F := F) c cc0_stg0_0 _).symm) $$ Hx
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  isplitl [Hs0 Hs1 Hs2 Hr0 Hr1 Hr2 HzS0 HzS1 HzS2 HzR0 HzR1 HzR2]
  · isplitl [Hs0 Hs1 Hs2]
    · iapply (join_s c gs0 gs1 gs2)
      isplitl [Hs0]; · iexact Hs0
      isplitl [Hs1]; · iexact Hs1
      iexact Hs2
    isplitl [Hr0 Hr1 Hr2]
    · iapply (join_h c gr0 gr1 gr2)
      unfold hPts
      isplitl [Hr0]; · iexact Hr0
      isplitl [Hr1]; · iexact Hr1
      iexact Hr2
    isplitl [HzS0 HzS1 HzS2]
    · isplitl [HzS0]; · iexact HzS0
      isplitl [HzS1]; · iexact HzS1
      iexact HzS2
    · isplitl [HzR0]; · iexact HzR0
      isplitl [HzR1]; · iexact HzR1
      iexact HzR2
  isplitl [HO]
  · iexists (insert (SemLoc.dma (recvSem 2), ()) (insert (SemLoc.dma (sendSem 2), ()) (insert (SemLoc.dma (recvSem 1), ()) (insert (SemLoc.dma (sendSem 1), ())
      (insert (SemLoc.dma (recvSem 0), ()) (insert (SemLoc.dma (sendSem 0), ()) (insert (SemLoc.reg barS, ()) W)))))))
    isplitr; · ipureintro; exact fun _ _ => Or.inl trivial
    iexact HO
  isplitl [Hx]
  · iexists _; isplitr; · (ipureintro; rfl)
    iexact Hx
  iexists _; isplitr
  · ipureintro
    exact outOf_congr c (ublk m ρ c) ((h_read_load 0 gr0).trans hq0) ((h_read_load 1 gr1).trans hq1) ((h_read_load 2 gr2).trans hq2)
  iexact Hout

end Body

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hc, Hlev⟩, Hs, Hh⟩, Ho, Hx, Hout⟩
  iapply (sound_body m ρ K c fun _ => bodyPost m ρ c)
  unfold bodyPre
  isplitr []
  · isplitl [Hg Hc Hlev Hs Hh]
    · isplitl [Hg]; · iexact Hg
      isplitl [Hc]; · iexact Hc
      isplitl [Hlev]; · iexact Hlev
      isplitl [Hs]; · iexact Hs
      iexact Hh
    isplitl [Ho]; · iexact Ho
    isplitl [Hx] <;> iassumption
  · iintro H; iexact H

end Cert.Kernel.Halo

end
-- ==== Proof.Kernel.Launch.lean ====
/-
  The launch: the exchange's ghost state allocated for all eight devices at once, each device's body obligation,
  and the run of @main on the mesh with every device's final arrays named.
-/
import proofs.«900534_g7700000000000535_dist_halo3d_v7x_xyz2x2x2_s32_f32_1_alg».proof.Proof.Kernel.Body

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens the launch element holds -/

/-- The kernel's own six semaphores: send 0, 1, 2; receive 0, 1, 2. -/
abbrev osem : Fin 6 → SemLoc sig := fun
  | 0 => .dma (sendSem 0) | 1 => .dma (sendSem 1) | 2 => .dma (sendSem 2)
  | 3 => .dma (recvSem 0) | 4 => .dma (recvSem 1) | 5 => .dma (recvSem 2)

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 7 → SemLoc sig) := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- The fifty-six cells of the exchange. -/
def haloCells : Finset (GSem nD τ sig) := Finset.univ.map ⟨kcell, kcell_injective⟩

/-- A device's own cells' duty tokens as minted: its barrier's three duties, each send cell's and each receive cell's
    one duty. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell cj.1 0, 0, 0) | 4 => (sendCell cj.1 1, 0, 0) | 5 => (sendCell cj.1 2, 0, 0)
  | 6 => (recvCell cj.1 0, 0, 0) | 7 => (recvCell cj.1 1, 0, 0) | 8 => (recvCell cj.1 2, 0, 0)

/-- The token's semaphore and duty, without the device. -/
abbrev tokKey : Fin 9 → SemLoc sig × Fin 3 := fun
  | 0 => (.reg barS, 0) | 1 => (.reg barS, 1) | 2 => (.reg barS, 2)
  | 3 => (.dma (sendSem 0), 0) | 4 => (.dma (sendSem 1), 0) | 5 => (.dma (sendSem 2), 0)
  | 6 => (.dma (recvSem 0), 0) | 7 => (.dma (recvSem 1), 0) | 8 => (.dma (recvSem 2), 0)

theorem tokKey_injective : Function.Injective tokKey := by decide

theorem tokOf_key (c : Dev nD) (j : Fin 9) : ((tokOf (c, j)).1.2, (tokOf (c, j)).2.2) = tokKey j := by
  fin_cases j <;> rfl

theorem tokOf_dev (c : Dev nD) (j : Fin 9) : (tokOf (c, j)).1.1.1 = c := by
  fin_cases j <;> rfl

theorem tokOf_injective : Function.Injective (tokOf : Dev nD × Fin 9 → GSem nD τ sig × ℕ × Fin 3) := by
  rintro ⟨c, j⟩ ⟨c', j'⟩ h
  have h1 : c = c' := by
    have := congrArg (fun x : GSem nD τ sig × ℕ × Fin 3 => x.1.1.1) h
    rw [tokOf_dev, tokOf_dev] at this; exact this
  subst h1
  have : j = j' := by
    have := congrArg (fun x : GSem nD τ sig × ℕ × Fin 3 => (x.1.2, x.2.2)) h
    rw [tokOf_key, tokOf_key] at this; exact tokKey_injective this
  subst this; rfl

def haloToks : Finset (GSem nD τ sig × ℕ × Fin 3) := Finset.univ.map ⟨tokOf, tokOf_injective⟩

/-- The launch element: the pipeline's staging cells and tokens beside the exchange's. -/
def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop((dutyTok ER (barCell c) 0 0 ∗ dutyTok ER (barCell c) 0 1 ∗ dutyTok ER (barCell c) 0 2)
    ∗ (dutyTok ER (sendCell c 0) 0 0 ∗ dutyTok ER (sendCell c 1) 0 0 ∗ dutyTok ER (sendCell c 2) 0 0)
    ∗ (dutyTok ER (recvCell c 0) 0 0 ∗ dutyTok ER (recvCell c 1) 0 0 ∗ dutyTok ER (recvCell c 2) 0 0))

/-- What the launch element deals device `c`: its seven cells' round states, positions and marks, its nine tokens. -/
def G (c : Dev nD) : sProp 𝕄 :=
  iprop((bigSep Finset.univ fun k : Fin 7 => roundState ER (xrd m ρ) (kcell (c, k)) 0)
    ∗ (bigSep Finset.univ fun k : Fin 7 => iprop(atPos ER (kcell (c, k)) 0 ∅ 0 ∗ reached ER (kcell (c, k)) 0)) ∗ toks c)

/-- What the global step makes of it: the ghost state the body starts from, under some names of the invariants. -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
/-- The launch element of the exchange, dealt device by device. -/
theorem fund_halo : BI.own (ER (initOf haloCells haloToks)) ⊢ (|==> bigSep Finset.univ (G m ρ) : sProp 𝕄) := by
  have hX (Φ : GSem nD τ sig → sProp 𝕄) : bigSep haloCells Φ = bigSep Finset.univ fun c : Dev nD => bigSep Finset.univ fun k : Fin 7 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    refine bigSep_congr fun c _ => ?_
    unfold toks; rw [bigSep_fin9]
    refine BI.Entails.antisymm (show _ ⊢ (_ : sProp 𝕄) from ?_) (show _ ⊢ (_ : sProp 𝕄) from ?_)
    · iintro ⟨H0, H1, H2, H3, H4, H5, H6, H7, H8⟩
      isplitl [H0 H1 H2]
      · isplitl [H0]; · iexact H0
        isplitl [H1] <;> iassumption
      isplitl [H3 H4 H5]
      · isplitl [H3]; · iexact H3
        isplitl [H4] <;> iassumption
      isplitl [H6]; · iexact H6
      isplitl [H7] <;> iassumption
    · iintro ⟨⟨H0, H1, H2⟩, ⟨H3, H4, H5⟩, H6, H7, H8⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7] <;> iassumption
  iintro HX
  imod (Rounds.fund ER (xrd m ρ) haloCells haloToks) $$ HX with ⟨Hst, Hr, Hat, Htok⟩
  imodintro
  ihave Hst' := (Entails.of_eq (hX fun g => roundState ER (xrd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the records shared, the tokens dealt along the axes -/

omit [FloatOps F] in
/-- The send and receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5] <;> iassumption

omit [FloatOps F] in
/-- One device's seven cells closed into invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xrd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (xrd m ρ) (kcell (c, k)) 0)
      ⊢ (|={Set.univ}=> bigSep Finset.univ fun k => iprop(∃ κ : ℕ, cellInv ER (xrd m ρ) κ (kcell (c, k))) : sProp 𝕄) from by
        rw [← bigSep_sep']
        exact (bigSep_mono fun k _ => (Rounds.body_intro ER (xrd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may read of every cell: its invariant under the name it was allocated at, and that its round 0
    is reached. -/
def records (K : Dev nD × Fin 7 → ℕ) : sProp 𝕄 :=
  iprop((bigSep Finset.univ fun ck : Dev nD × Fin 7 => cellInv ER (xrd m ρ) (K ck) (kcell ck))
    ∗ bigSep Finset.univ fun ck : Dev nD × Fin 7 => reached ER (kcell ck) 0)

instance records_persistent (K : Dev nD × Fin 7 → ℕ) : BI.Persistent (records m ρ K) := by unfold records; infer_instance

omit [FloatOps F] in
theorem inv_at (K : Dev nD × Fin 7 → ℕ) (ck : Dev nD × Fin 7) :
    (bigSep Finset.univ fun ck : Dev nD × Fin 7 => (cellInv ER (xrd m ρ) (K ck) (kcell ck) : sProp 𝕄)) ⊢ cellInv ER (xrd m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(positions c ∗ payToks c)

omit [FloatOps F] in
theorem ghost_intro (K : Dev nD × Fin 7 → ℕ) (c : Dev nD) : iprop(records m ρ K ∗ linear c) ⊢ G' m ρ c := by
  unfold records linear G' ghost invs marks
  iintro ⟨⟨#HI, #HR⟩, Hpos, Htok⟩
  iexists K
  isplitr
  · isplitr; · iapply (inv_at m ρ K (c, 0)); iexact HI
    isplitr
    · isplitr; · iapply (inv_at m ρ K (c, 1)); iexact HI
      isplitr; · iapply (inv_at m ρ K (c, 2)); iexact HI
      iapply (inv_at m ρ K (c, 3)); iexact HI
    isplitr
    · isplitr; · iapply (inv_at m ρ K (c, 4)); iexact HI
      isplitr; · iapply (inv_at m ρ K (c, 5)); iexact HI
      iapply (inv_at m ρ K (c, 6)); iexact HI
    isplitr
    · isplitr; · iapply (inv_at m ρ K (nbr 0 c, 0)); iexact HI
      isplitr; · iapply (inv_at m ρ K (nbr 1 c, 0)); iexact HI
      iapply (inv_at m ρ K (nbr 2 c, 0)); iexact HI
    · isplitr; · iapply (inv_at m ρ K (nbr 0 c, 4)); iexact HI
      isplitr; · iapply (inv_at m ρ K (nbr 1 c, 5)); iexact HI
      iapply (inv_at m ρ K (nbr 2 c, 6)); iexact HI
  isplitl [Hpos]; · iexact Hpos
  isplitr
  · isplitr
    · isplitr; · iapply (reached_at (F := F) (nbr 0 c, 0)); iexact HR
      isplitr; · iapply (reached_at (F := F) (nbr 1 c, 0)); iexact HR
      iapply (reached_at (F := F) (nbr 2 c, 0)); iexact HR
    isplitr
    · isplitr; · iapply (reached_at (F := F) (nbr 0 c, 4)); iexact HR
      isplitr; · iapply (reached_at (F := F) (nbr 1 c, 5)); iexact HR
      iapply (reached_at (F := F) (nbr 2 c, 6)); iexact HR
    isplitr
    · isplitr; · iapply (reached_at (F := F) (c, 1)); iexact HR
      isplitr; · iapply (reached_at (F := F) (c, 2)); iexact HR
      iapply (reached_at (F := F) (c, 3)); iexact HR
    · isplitr; · iapply (reached_at (F := F) (c, 4)); iexact HR
      isplitr; · iapply (reached_at (F := F) (c, 5)); iexact HR
      iapply (reached_at (F := F) (c, 6)); iexact HR
  iexact Htok

omit [FloatOps F] in
/-- The tokens dealt along the mesh axes: duty `a` of a barrier cell and the duty of the receive cell of axis `a` go to
    the neighbour along `a`; the send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (flip 0) (fun c : Dev nD => (dutyTok ER (barCell c) 0 0 : sProp 𝕄)),
    bigSep_univ_equiv (flip 1) (fun c : Dev nD => (dutyTok ER (barCell c) 0 1 : sProp 𝕄)),
    bigSep_univ_equiv (flip 2) (fun c : Dev nD => (dutyTok ER (barCell c) 0 2 : sProp 𝕄)),
    bigSep_univ_equiv (flip 0) (fun c : Dev nD => (dutyTok ER (recvCell c 0) 0 0 : sProp 𝕄)),
    bigSep_univ_equiv (flip 1) (fun c : Dev nD => (dutyTok ER (recvCell c 1) 0 0 : sProp 𝕄)),
    bigSep_univ_equiv (flip 2) (fun c : Dev nD => (dutyTok ER (recvCell c 2) 0 0 : sProp 𝕄))]
  iintro ⟨HB, HS, HR⟩
  isplitl [HB]; · iexact HB
  isplitl [HR]; · iexact HR
  iexact HS

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem positions_eq (c : Dev nD) : (bigSep Finset.univ fun k : Fin 7 => (atPos ER (kcell (c, k)) 0 ∅ 0 : sProp 𝕄)) ⊢ positions c := by
  rw [bigSep_fin7]; unfold positions
  iintro ⟨H0, H1, H2, H3, H4, H5, H6⟩
  isplitl [H0]; · iexact H0
  isplitl [H1 H2 H3]
  · isplitl [H1]; · iexact H1
    isplitl [H2] <;> iassumption
  isplitl [H4]; · iexact H4
  isplitl [H5] <;> iassumption

omit [FloatOps F] in
theorem regroup :
    (bigSep Finset.univ fun c : Dev nD => iprop((bigSep Finset.univ fun k => iprop(∃ κ : ℕ, cellInv ER (xrd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (xrd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (xrd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from by unfold linear; exact sep_mono_left (positions_eq c)))
    isplitl [Hat]; · iexact Hat
    iexact Htk

omit [FloatOps F] in
/-- The global step: the own and the barrier semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- What each device owes, summand by summand: a face to the receive cell of each neighbour, a unit to its barrier cell. -/
theorem O₀_eq : (O₀ : Dev nD → CellTallies nD τ sig Unit) = fun d =>
    tallyAt (recvCell (nbr 2 d) 2) () Nx + tallyAt (recvCell (nbr 1 d) 1) () Nx + tallyAt (recvCell (nbr 0 d) 0) () Nx
      + tallyAt (barCell (nbr 2 d)) () 1 + tallyAt (barCell (nbr 1 d)) () 1 + tallyAt (barCell (nbr 0 d)) () 1 := rfl

omit [FloatOps F] in
/-- Three unit credits on one cell are its credit of three. -/
theorem cred_three (g : GSem nD τ sig) :
    iprop(cred (tallyAt g () 1) ∗ cred (tallyAt g () 1) ∗ cred (tallyAt g () 1)) ⊢ (cred (tallyAt g () 3) : sProp 𝕄) := by
  have h : (tallyAt g () 3 : CellTallies nD τ sig Unit) = tallyAt g () 1 + (tallyAt g () 1 + tallyAt g () 1) := by
    rw [tallyAt_add, tallyAt_add]
  rw [h]
  exact (sep_mono_right (cred_add _ _).2).trans (cred_add _ _).2

omit [FloatOps F] in
/-- The neighbours' dues, summed over the mesh, are each device's own waits' credit: every axis is an involution. -/
theorem creds_intro (c : Dev nD) : (Pipeline.launchCred O₀ c : sProp 𝕄) ⊢ creds c := by
  rw [O₀_eq, Pipeline.launchCred_add, Pipeline.launchCred_add, Pipeline.launchCred_add, Pipeline.launchCred_add, Pipeline.launchCred_add]
  unfold creds
  iintro ⟨⟨⟨⟨⟨HR2, HR1⟩, HR0⟩, HB2⟩, HB1⟩, HB0⟩
  ihave HR2' := (Pipeline.launchCred_tallyAt (.dma (recvSem 2)) (nbr 2) (nbr 2) (nbr_nbr 2) (nbr_nbr 2) () Nx c) $$ HR2
  ihave HR1' := (Pipeline.launchCred_tallyAt (.dma (recvSem 1)) (nbr 1) (nbr 1) (nbr_nbr 1) (nbr_nbr 1) () Nx c) $$ HR1
  ihave HR0' := (Pipeline.launchCred_tallyAt (.dma (recvSem 0)) (nbr 0) (nbr 0) (nbr_nbr 0) (nbr_nbr 0) () Nx c) $$ HR0
  ihave HB2' := (Pipeline.launchCred_tallyAt (.reg barS) (nbr 2) (nbr 2) (nbr_nbr 2) (nbr_nbr 2) () 1 c) $$ HB2
  ihave HB1' := (Pipeline.launchCred_tallyAt (.reg barS) (nbr 1) (nbr 1) (nbr_nbr 1) (nbr_nbr 1) () 1 c) $$ HB1
  ihave HB0' := (Pipeline.launchCred_tallyAt (.reg barS) (nbr 0) (nbr 0) (nbr_nbr 0) (nbr_nbr 0) () 1 c) $$ HB0
  isplitl [HB0' HB1' HB2']
  · iapply (cred_three (F := F) (barCell c))
    isplitl [HB0']; · iexact HB0'
    isplitl [HB1'] <;> iassumption
  isplitl [HR0']; · iexact HR0'
  isplitl [HR1'] <;> iassumption

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H0, H1⟩
  isplitl [Hs]; · iexact Hs
  isplitl [H0] <;> iassumption

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨H0, H1, ⟨S0, S1, S2⟩, R0, R1, R2⟩
  isplitr; · iempintro
  isplitl [S0 S1 S2 R0 R1 R2]
  · isplitl [S0]; · iexact S0
    isplitl [S1]; · iexact S1
    isplitl [S2]; · iexact S2
    isplitl [R0]; · iexact R0
    isplitl [R1] <;> iassumption
  isplitl [H0] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each windowed array after the run, as the proof data compute it. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main terminates, and every final state has each device's two windowed arrays at the computed contents. -/
theorem run_main : θ_run defs (onTc (τ := τ) (main (F := F))) (s₀ m ρ) (QC m ρ) := by
  exact
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_halo m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the device's result block: its one window is the whole array, written back
    at the one point with what the body left in the staging buffer. -/
theorem finalA_out (c : Dev nD) : finalA m ρ c (1 : Fin 2) = outAt m ρ c := by
  unfold finalA
  rw [show cfg0.N = (t₀ : Fin cfg0.N).val + 1 from rfl, (dats m ρ 0 c).arrAt_succ (1 : Fin 2) t₀,
    if_pos (show (cfg0.win 1).flush t₀ = true from rfl)]
  exact ((Memref.read_access_unit_zero (Elt F) main_v1 (off := fun a => (cfg0.win 1).index t₀ a * (cfg0.win 1).size a)
      (funext fun a => Nat.zero_mul _) _ _).symm.trans (View.read_write_univ _ _))

/-- info: 'Cert.Kernel.Halo.run_main' depends on axioms: [propext, Classical.choice, Quot.sound] -/
#guard_msgs in #print axioms run_main

end Cert.Kernel.Halo

end
-- ==== Proof.KernelIdeal.Mesh.lean ====
/-
  The 2×2×2 mesh seen from one device: its three neighbours (the devices that differ from it in exactly one mesh
  coordinate), the three coordinate words the body computes from its device id, and which devices the body's
  six addressed operations name.
-/
import proofs.«900534_g7700000000000535_dist_halo3d_v7x_xyz2x2x2_s32_f32_1_alg».proof.Proof.Gen.KernelIdeal

noncomputable section

namespace Cert.KernelIdeal.Halo

open Cert.KernelIdeal Cert.KernelIdeal.Gen
open Idealize.ShloMosaic

/-- The weight of mesh axis `a` in the row-major device numbering: 4, 2, 1. -/
def axisBit : Fin 3 → Nat := ![4, 2, 1]

/-- The neighbour of `c` along mesh axis `a`: the other device on that axis (the coordinate flipped). -/
def nbr (a : Fin 3) (c : Dev nD) : Dev nD := ⟨c.val ^^^ axisBit a, by revert a c; decide⟩

/-- Flipping a coordinate twice is the identity. -/
theorem nbr_nbr (a : Fin 3) (c : Dev nD) : nbr a (nbr a c) = c := by revert a c; decide

theorem nbr_ne (a : Fin 3) (c : Dev nD) : nbr a c ≠ c := by revert a c; decide

theorem nbr_inj (a : Fin 3) {c c' : Dev nD} (h : nbr a c = nbr a c') : c = c' := by
  rw [← nbr_nbr a c, h, nbr_nbr]

/-- Neighbours along different axes are different devices. -/
theorem nbr_ne_nbr {a b : Fin 3} (h : a ≠ b) (c : Dev nD) : nbr a c ≠ nbr b c := by revert a b c; decide

/-- The mesh as a permutation along axis `a`. -/
def flip (a : Fin 3) : Dev nD ≃ Dev nD := ⟨nbr a, nbr a, nbr_nbr a, nbr_nbr a⟩

/-- The three signals and the three transfers name the neighbours along axes 0, 1, 2 in that order. -/
theorem dev1_eq (c : Dev nD) : (⟨k0_dev1 c, k0_dev1_lt c⟩ : Dev nD) = nbr 0 c := by
  apply Fin.ext; show k0_dev1 c = _; rw [k0_dev1_eq]; revert c; decide
theorem dev2_eq (c : Dev nD) : (⟨k0_dev2 c, k0_dev2_lt c⟩ : Dev nD) = nbr 1 c := by
  apply Fin.ext; show k0_dev2 c = _; rw [k0_dev2_eq]; revert c; decide
theorem dev3_eq (c : Dev nD) : (⟨k0_dev3 c, k0_dev3_lt c⟩ : Dev nD) = nbr 2 c := by
  apply Fin.ext; show k0_dev3 c = _; rw [k0_dev3_eq]; revert c; decide
theorem dev4_eq (c : Dev nD) : (⟨k0_dev4 c, k0_dev4_lt c⟩ : Dev nD) = nbr 0 c := by
  apply Fin.ext; show k0_dev4 c = _; rw [k0_dev4_eq]; revert c; decide
theorem dev5_eq (c : Dev nD) : (⟨k0_dev5 c, k0_dev5_lt c⟩ : Dev nD) = nbr 1 c := by
  apply Fin.ext; show k0_dev5 c = _; rw [k0_dev5_eq]; revert c; decide
theorem dev6_eq (c : Dev nD) : (⟨k0_dev6 c, k0_dev6_lt c⟩ : Dev nD) = nbr 2 c := by
  apply Fin.ext; show k0_dev6 c = _; rw [k0_dev6_eq]; revert c; decide

/-- The device's mesh coordinates as the words the body computes: `(id / 4) % 2`, `(id / 2) % 2`, `id % 2`. -/
def wx (c : Dev nD) : BitVec 32 := Scalar.remsi (Scalar.divsi (Dev.word c) 4#32) 2#32
def wy (c : Dev nD) : BitVec 32 := Scalar.remsi (Scalar.divsi (Dev.word c) 2#32) 2#32
def wz (c : Dev nD) : BitVec 32 := Scalar.remsi (Scalar.divsi (Dev.word c) 1#32) 2#32

end Cert.KernelIdeal.Halo

end
-- ==== Proof.KernelIdeal.Result.lean ====
/-
  What one device computes, as pure functions of array contents: the three faces of its block it sends to its
  neighbours (the face next to the neighbour), and its result block from its own block and the three faces it
  receives — the local 7-point stencil with zeros beyond the block, plus each received face on the one layer that
  touches that neighbour, masked to the interior of the whole 64³ array.
-/
import proofs.«900534_g7700000000000535_dist_halo3d_v7x_xyz2x2x2_s32_f32_1_alg».proof.Proof.Gen.KernelIdeal.Skeleton
import proofs.«900534_g7700000000000535_dist_halo3d_v7x_xyz2x2x2_s32_f32_1_alg».proof.Proof.KernelIdeal.Mesh

noncomputable section

namespace Cert.KernelIdeal.Halo

open Cert.KernelIdeal Cert.KernelIdeal.Gen
open Idealize.ShloMosaic

variable {F : FTy → Type} [FloatOps F]

/-- The face of the block `u` device `c` sends along axis `a`: layer 31 of that axis if `c`'s coordinate there
    is 0, layer 0 if it is 1, as a 1×32×32 array. -/
def face (c : Dev nD) : (a : Fin 3) → Vec F S32x32x32 .f32 → Vec F S1x32x32 .f32
  | 0, u => k0_pay3 (wx c) u
  | 1, u => k0_pay4 (wy c) u
  | 2, u => k0_pay5 (wz c) u

/-- Device `c`'s result block from its own block `u` and the faces `h0`, `h1`, `h2` received along the three axes. -/
def outOf (c : Dev nD) (u : Vec F S32x32x32 .f32) (h0 h1 h2 : Vec F S1x32x32 .f32) : Vec F S32x32x32 .f32 :=
  k0_pay1 (k0_pay14 (wx c) (wy c) (wz c))
    (k0_pay16 (F := F) (wy c) (iota .tc S32x32x32 32 [1] Facts₀.iota_S32x32x32_d1_w32))
    (k0_pay17 (F := F) (wz c) (iota .tc S32x32x32 32 [2] Facts₀.iota_S32x32x32_d2_w32))
    (k0_pay18 (k0_pay13 (k0_pay2 u) (k0_pay8 (F := F)) (k0_pay9 u) (k0_pay10 u) (k0_pay11 u) (k0_pay12 u)) (k0_pay15 (F := F) (wx c)) h0)
    (k0_pay19 h1) h2

/-- The whole mesh's results from every device's block: each device receives, along each axis, the face its
    neighbour on that axis sends along it. -/
def meshOut (u : Dev nD → Vec F S32x32x32 .f32) (c : Dev nD) : Vec F S32x32x32 .f32 :=
  outOf c (u c) (face (nbr 0 c) 0 (u (nbr 0 c))) (face (nbr 1 c) 1 (u (nbr 1 c))) (face (nbr 2 c) 2 (u (nbr 2 c)))

end Cert.KernelIdeal.Halo

end
-- ==== Proof.KernelIdeal.Protocol.lean ====
/-
  The halo exchange as a protocol of rounds. Every device has one barrier cell (three unit duties, one per mesh
  axis, paid by the neighbour along that axis), three send cells and three receive cells (one duty each: the
  credit of one 32×32 face). A neighbour's barrier signal hands the device the neighbour's landing slot for the
  axis; the device's transfer along the axis fills that slot with its own face and pays the neighbour's receive
  cell, whose payload is the slot holding that face.
-/
import proofs.«900534_g7700000000000535_dist_halo3d_v7x_xyz2x2x2_s32_f32_1_alg».proof.Proof.KernelIdeal.Result
import proofs.«900534_g7700000000000535_dist_halo3d_v7x_xyz2x2x2_s32_f32_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (duties named by a mesh axis) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Buffers, slots, semaphores, cells -/

abbrev xM : Memref sig .tc .vmem S32x32x32 .f32 := Memref.whole cc0_stg0_0
abbrev oM : Memref sig .tc .vmem S32x32x32 .f32 := Memref.whole cc0_stg1_0
abbrev sM : Memref sig .tc .vmem S3x32x32 .f32 := Memref.whole cc0_scratch0
abbrev hM : Memref sig .tc .vmem S3x32x32 .f32 := Memref.whole cc0_scratch1

theorem slot_inb (a : Fin 3) : ∀ i, (![a.val, 0, 0] : Fin 3 → Nat) i + S1x32x32.size i ≤ S3x32x32.size i := by
  revert a; decide

/-- Slot `a` of a 3×32×32 scratch buffer: its `a`-th 32×32 layer. -/
abbrev slotRect (a : Fin 3) : Rect S3x32x32 := Rect.unit (s := S3x32x32) ![a.val, 0, 0] S1x32x32.size (slot_inb a)

/-- Slot `a` of the send buffer and of the landing buffer, as the 32×32 views the transfers go through. -/
abbrev sSlot (a : Fin 3) : Memref sig .tc .vmem S32x32 .f32 :=
  ((sM.slice (slotRect a) (fun _ => rfl)).squeeze S32x32 Facts₀.squeezes_S1x32x32_S32x32)
abbrev hSlot (a : Fin 3) : Memref sig .tc .vmem S32x32 .f32 :=
  ((hM.slice (slotRect a) (fun _ => rfl)).squeeze S32x32 Facts₀.squeezes_S1x32x32_S32x32)

theorem sem_inb (a : Fin 3) : ∀ i, (![a.val] : Fin 1 → Nat) i + S1.size i ≤ S3.size i := by revert a; decide

/-- The runtime's barrier semaphore; the send and receive DMA semaphores of axis `a`. -/
abbrev barS : Sem sig := (SemArray.scalar (sig.barrier 0 rfl) : Sems sig S_).sem
abbrev sendSem (a : Fin 3) : DmaSem sig :=
  ((cc0_scratch2.slice (Rect.unit (s := S3) ![a.val] S1.size (sem_inb a))).squeeze S_ Facts₀.squeezes_S1_S_).sem
abbrev recvSem (a : Fin 3) : DmaSem sig :=
  ((cc0_scratch3.slice (Rect.unit (s := S3) ![a.val] S1.size (sem_inb a))).squeeze S_ Facts₀.squeezes_S1_S_).sem

theorem sendSem_val (a : Fin 3) : (sendSem a).val = 2 + a.val := by revert a; decide
theorem recvSem_val (a : Fin 3) : (recvSem a).val = 5 + a.val := by revert a; decide

abbrev barCell (c : Dev nD) : GSem nD τ sig := ((c : Thread nD τ), .reg barS)
abbrev sendCell (c : Dev nD) (a : Fin 3) : GSem nD τ sig := ((c : Thread nD τ), .dma (sendSem a))
abbrev recvCell (c : Dev nD) (a : Fin 3) : GSem nD τ sig := ((c : Thread nD τ), .dma (recvSem a))

/-- The credit of one face. -/
abbrev Nx : ℕ := (hSlot 0 : Memref sig .tc .vmem S32x32 .f32).view.dmaCredit
theorem Nx_pos : 0 < Nx := View.dmaCredit_pos _ (by decide)
theorem amount_slot (a : Fin 3) : (hSlot a : Memref sig .tc .vmem S32x32 .f32).view.amount (.dma (recvSem a)) = Nx := by
  revert a; decide

/-! ## Contents -/

/-- Device `c`'s block of the input, as its staging buffer holds it. -/
def ublk (c : Dev nD) : (cc0_stg0_0 : Ref sig .tc).ty.Contents (Elt F) :=
  (win0_0.blk (0 : Fin 1)).view.read (Elt F) ((s₀ m ρ).mem ((c : Thread nD τ).loc main_arg0))

/-- The face device `c` sends along axis `a`, as the 32×32 array a slot's view reads. -/
def faceS (c : Dev nD) (a : Fin 3) : S32x32.Idx → Elt F .f32 :=
  shapeCast S32x32 (face c a (ublk m ρ c)) Facts₀.shapeCasts_S1x32x32_S32x32

/-- Slot `a` of device `c`'s send buffer, and of its landing buffer, at contents `f` of the whole buffer. -/
def sPts (c : Dev nD) (a : Fin 3) (f : Buf (Elt F) ((sSlot a : Memref sig .tc .vmem S32x32 .f32).view.loc (c : Thread nD τ))) : sProp 𝕄 :=
  (sSlot a : Memref sig .tc .vmem S32x32 .f32).view.loc (c : Thread nD τ) ↦[(sSlot a : Memref sig .tc .vmem S32x32 .f32).view.set]{fullShare} f
def hPts (c : Dev nD) (a : Fin 3) (f : Buf (Elt F) ((hSlot a : Memref sig .tc .vmem S32x32 .f32).view.loc (c : Thread nD τ))) : sProp 𝕄 :=
  (hSlot a : Memref sig .tc .vmem S32x32 .f32).view.loc (c : Thread nD τ) ↦[(hSlot a : Memref sig .tc .vmem S32x32 .f32).view.set]{fullShare} f

omit [FloatOps F] in
instance sPts_storable (c : Dev nD) (a : Fin 3) (f) : BI.Storable (upEmb : UEmb _ 𝕄) (sPts (F := F) c a f) := by unfold sPts; infer_instance
omit [FloatOps F] in
instance hPts_storable (c : Dev nD) (a : Fin 3) (f) : BI.Storable (upEmb : UEmb _ 𝕄) (hPts (F := F) c a f) := by unfold hPts; infer_instance

/-! ## The schedule -/

/-- What the neighbour along axis `a` hands `c` with its barrier signal: its landing slot `a`, and that it stands at
    round 0 of its receive cell `a` — what `c`'s transfer along `a` needs. -/
def barPay (c : Dev nD) (a : Fin 3) : sProp 𝕄 := iprop((∃ f, hPts (nbr a c) a f) ∗ reached ER (recvCell (nbr a c) a) 0)
/-- What the landing of the neighbour's face hands `c`: its landing slot `a` reading the neighbour's face. -/
def recvPay (c : Dev nD) (a : Fin 3) : sProp 𝕄 :=
  iprop(∃ f, hPts c a f ∗ ⌜(hSlot a : Memref sig .tc .vmem S32x32 .f32).view.read (Elt F) f = faceS m ρ (nbr a c) a⌝)
/-- What the departure of its own face hands `c` back: its send slot. -/
def sendPay (c : Dev nD) (a : Fin 3) : sProp 𝕄 := iprop(∃ f, sPts c a f)

abbrev IsBar (g : GSem nD τ sig) : Prop := g.1.2 = .tc ∧ g.2 = .reg barS
abbrev IsXfer (g : GSem nD τ sig) : Prop := g.1.2 = .tc ∧ ∃ a : Fin 3, (g.2 = .dma (sendSem a) ∨ g.2 = .dma (recvSem a))

/-- One round: a barrier cell has the three unit duties (one per axis); a send or receive cell the one duty `0` of a
    face's credit. -/
def xrd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else Nx
  payload g _ d :=
    if g.2 = .reg barS then barPay g.1.1 d
    else if g.2 = .dma (recvSem 0) then recvPay m ρ g.1.1 0
    else if g.2 = .dma (recvSem 1) then recvPay m ρ g.1.1 1
    else if g.2 = .dma (recvSem 2) then recvPay m ρ g.1.1 2
    else if g.2 = .dma (sendSem 0) then sendPay g.1.1 0
    else if g.2 = .dma (sendSem 1) then sendPay g.1.1 1
    else if g.2 = .dma (sendSem 2) then sendPay g.1.1 2
    else iprop(emp)
  amount_pos g _ _ _ := by
    by_cases h : g.2 = .reg barS
    · rw [if_pos h]; exact Nat.one_pos
    · rw [if_neg h]; exact Nx_pos

instance xrd_payload_storable (g : GSem nD τ sig) (r : ℕ) (d : Fin 3) :
    BI.Storable (upEmb : UEmb _ 𝕄) ((xrd (F := F) m ρ).payload g r d) := by
  show BI.Storable upEmb (if g.2 = .reg barS then barPay g.1.1 d
    else if g.2 = .dma (recvSem 0) then recvPay m ρ g.1.1 0
    else if g.2 = .dma (recvSem 1) then recvPay m ρ g.1.1 1
    else if g.2 = .dma (recvSem 2) then recvPay m ρ g.1.1 2
    else if g.2 = .dma (sendSem 0) then sendPay g.1.1 0
    else if g.2 = .dma (sendSem 1) then sendPay g.1.1 1
    else if g.2 = .dma (sendSem 2) then sendPay g.1.1 2
    else iprop(emp))
  unfold barPay recvPay sendPay
  (repeat' split) <;> infer_instance

section Sched
variable (c : Dev nD) (a : Fin 3)

theorem send_ne_bar : (SemLoc.dma (sendSem a) : SemLoc sig) ≠ .reg barS := fun h => by cases h
theorem recv_ne_bar : (SemLoc.dma (recvSem a) : SemLoc sig) ≠ .reg barS := fun h => by cases h
theorem send_ne_recv (b : Fin 3) : (SemLoc.dma (sendSem a) : SemLoc sig) ≠ .dma (recvSem b) := by revert a b; decide
theorem recv_inj {a b : Fin 3} (h : (SemLoc.dma (recvSem a) : SemLoc sig) = .dma (recvSem b)) : a = b := by revert a b; decide
theorem send_inj {a b : Fin 3} (h : (SemLoc.dma (sendSem a) : SemLoc sig) = .dma (sendSem b)) : a = b := by revert a b; decide

omit [FloatOps F] in
theorem duties_bar : (xrd (F := F) m ρ).duties (barCell c) 0 = Finset.univ := by dsimp only [xrd]; exact if_pos ⟨rfl, rfl, rfl⟩
omit [FloatOps F] in
theorem duties_send : (xrd (F := F) m ρ).duties (sendCell c a) 0 = {0} := by
  dsimp only [xrd]; rw [if_neg (fun h => send_ne_bar a h.2.2)]; exact if_pos ⟨rfl, rfl, a, .inl rfl⟩
omit [FloatOps F] in
theorem duties_recv : (xrd (F := F) m ρ).duties (recvCell c a) 0 = {0} := by
  dsimp only [xrd]; rw [if_neg (fun h => recv_ne_bar a h.2.2)]; exact if_pos ⟨rfl, rfl, a, .inr rfl⟩
omit [FloatOps F] in
theorem duties_later (g : GSem nD τ sig) : ∀ r, 1 ≤ r → (xrd (F := F) m ρ).duties g r = ∅ :=
  fun r hr => by dsimp only [xrd]; rw [if_neg fun h => by omega, if_neg fun h => by omega]

omit [FloatOps F] in
theorem amount_bar (d : Fin 3) : (xrd (F := F) m ρ).amount (barCell c) 0 d = 1 := by dsimp only [xrd]; exact if_pos rfl
omit [FloatOps F] in
theorem amount_send (d : Fin 3) : (xrd (F := F) m ρ).amount (sendCell c a) 0 d = Nx := by dsimp only [xrd]; exact if_neg (send_ne_bar a)
omit [FloatOps F] in
theorem amount_recv (d : Fin 3) : (xrd (F := F) m ρ).amount (recvCell c a) 0 d = Nx := by dsimp only [xrd]; exact if_neg (recv_ne_bar a)

omit [FloatOps F] in
theorem expect_bar : (xrd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
omit [FloatOps F] in
theorem expect_send : (xrd (F := F) m ρ).expect (sendCell c a) 0 = Nx := by
  unfold Schedule.expect Schedule.amountOf; rw [duties_send, Finset.sum_singleton, amount_send]
omit [FloatOps F] in
theorem expect_recv : (xrd (F := F) m ρ).expect (recvCell c a) 0 = Nx := by
  unfold Schedule.expect Schedule.amountOf; rw [duties_recv, Finset.sum_singleton, amount_recv]

omit [FloatOps F] in
theorem payload_bar (d : Fin 3) : (xrd (F := F) m ρ).payload (barCell c) 0 d = barPay c d := by dsimp only [xrd]; rw [if_pos rfl]
theorem payload_recv (d : Fin 3) : (xrd (F := F) m ρ).payload (recvCell c a) 0 d = recvPay m ρ c a := by
  dsimp only [xrd]; rw [if_neg (recv_ne_bar a)]
  fin_cases a
  · exact if_pos rfl
  · rw [if_neg (fun h => absurd (recv_inj h) (by decide))]; exact if_pos rfl
  · rw [if_neg (fun h => absurd (recv_inj h) (by decide)), if_neg (fun h => absurd (recv_inj h) (by decide))]; exact if_pos rfl
omit [FloatOps F] in
theorem payload_send (d : Fin 3) : (xrd (F := F) m ρ).payload (sendCell c a) 0 d = sendPay c a := by
  dsimp only [xrd]; rw [if_neg (send_ne_bar a), if_neg (send_ne_recv a 0), if_neg (send_ne_recv a 1), if_neg (send_ne_recv a 2)]
  fin_cases a
  · exact if_pos rfl
  · rw [if_neg (fun h => absurd (send_inj h) (by decide))]; exact if_pos rfl
  · rw [if_neg (fun h => absurd (send_inj h) (by decide)), if_neg (fun h => absurd (send_inj h) (by decide))]; exact if_pos rfl

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- The whole round of a barrier cell: the three neighbours' payloads. -/
theorem rest_bar : bigSep ((xrd (F := F) m ρ).duties (barCell c) 0 \ ∅) (fun d => (xrd (F := F) m ρ).payload (barCell c) 0 d)
    = iprop(barPay c 0 ∗ barPay c 1 ∗ barPay c 2) := by
  rw [Finset.sdiff_empty, duties_bar, bigSep_fin3, payload_bar, payload_bar, payload_bar]
omit [FloatOps F] in
theorem rest_send : bigSep ((xrd (F := F) m ρ).duties (sendCell c a) 0 \ ∅) (fun d => (xrd (F := F) m ρ).payload (sendCell c a) 0 d) = sendPay c a := by
  rw [Finset.sdiff_empty, duties_send, bigSep_singleton, payload_send]
theorem rest_recv : bigSep ((xrd (F := F) m ρ).duties (recvCell c a) 0 \ ∅) (fun d => (xrd (F := F) m ρ).payload (recvCell c a) 0 d) = recvPay m ρ c a := by
  rw [Finset.sdiff_empty, duties_recv, bigSep_singleton, payload_recv]

end Sched

end Cert.KernelIdeal.Halo

end
-- ==== Proof.KernelIdeal.Ledger.lean ====
/-
  What each device owes at launch, the levels that order the waits, the ghost state a device's body starts from,
  and the pipeline's proof data: the staged input block, the result block, the body's invariant before and after
  its one grid point.
-/
import proofs.«900534_g7700000000000535_dist_halo3d_v7x_xyz2x2x2_s32_f32_1_alg».proof.Proof.KernelIdeal.Protocol

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch; the levels -/

/-- The three receive credits a device owes its neighbours (one face each), summed so that the transfer along axis 0
    peels the last summand, the one along axis 1 the middle one. -/
def R₀ (c : Dev nD) : CellTallies nD τ sig Unit :=
  tallyAt (recvCell (nbr 2 c) 2) () Nx + tallyAt (recvCell (nbr 1 c) 1) () Nx + tallyAt (recvCell (nbr 0 c) 0) () Nx
/-- With the three barrier units, the signal along axis 0 peeling the last summand. -/
def O₂ (c : Dev nD) : CellTallies nD τ sig Unit := R₀ c + tallyAt (barCell (nbr 2 c)) () 1
def O₁ (c : Dev nD) : CellTallies nD τ sig Unit := O₂ c + tallyAt (barCell (nbr 1 c)) () 1
def O₀ (c : Dev nD) : CellTallies nD τ sig Unit := O₁ c + tallyAt (barCell (nbr 0 c)) () 1

def L (g : GSem nD τ sig) : Finset Unit := if g.1.2 = .tc then {()} else ∅
/-- Barrier cells at level 1, receive cells at 2, everything else (staging, send) at 0. -/
def lv (g : GSem nD τ sig) (_ : Unit) : ℕ :=
  if g.2 = .reg barS then 1 else if ∃ a : Fin 3, g.2 = .dma (recvSem a) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (a : Fin 3) : lv (recvCell c a) () = 2 := by
  dsimp only [lv]; rw [if_neg (recv_ne_bar a), if_pos ⟨a, rfl⟩]

theorem R₀_pos {c : Dev nD} {g : GSem nD τ sig} {u : Unit} (h : 0 < R₀ c g u) : ∃ a, g = recvCell (nbr a c) a := by
  unfold R₀ at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    (∃ a, g = recvCell (nbr a c) a) ∨ ∃ a, g = barCell (nbr a c) := by
  unfold O₀ O₁ O₂ at h
  rw [Pi.add_apply, Finsupp.add_apply, Pi.add_apply, Finsupp.add_apply, Pi.add_apply, Finsupp.add_apply, tallyAt_apply, tallyAt_apply, tallyAt_apply] at h
  by_contra hn
  rw [not_or, not_exists, not_exists] at hn
  rw [if_neg (fun h' => hn.2 2 h'.1), if_neg (fun h' => hn.2 1 h'.1), if_neg (fun h' => hn.2 0 h'.1)] at h
  obtain ⟨a, ha⟩ := R₀_pos h
  exact hn.1 a ha

omit [FloatOps F] in
/-- A wait on a staging or send cell (level 0) is below everything a device owes at launch. -/
theorem mayWait_stage (c : Dev nD) (q : DmaSem sig) (hq : ∀ a : Fin 3, SemLoc.dma q ≠ .dma (recvSem a)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨a, rfl⟩ | ⟨a, rfl⟩ <;> exact Finset.mem_singleton_self _)
      (fun p hp => by
        rw [Finset.mem_singleton.mp hp]; dsimp only [lv]
        rw [if_neg (fun h => by cases h), if_neg (fun ⟨a, h⟩ => hq a h)])
      (fun g u hg => by
        rcases O₀_pos hg with ⟨a, rfl⟩ | ⟨a, rfl⟩
        · rw [lv_recv]; decide
        · rw [lv_bar]; decide)
  · rw [MayWait_zero]; iintro -; iempintro

omit [FloatOps F] in
/-- At its barrier wait a device owes the three receive credits only: receive cells, above its barrier cell. -/
theorem mayWait_bar (c : Dev nD) :
    (levAts L lv : sProp 𝕄) ⊢ MayWait (c : Thread nD τ) (.reg barS) () (R₀ c) :=
  MayOwe.of_cut (L := L) (lev := lv) 1 (fun p hp => by rw [Finset.mem_singleton.mp hp, L_tc]; exact Finset.mem_singleton_self _)
    (fun g u hg => by obtain ⟨a, rfl⟩ := R₀_pos hg; exact Finset.mem_singleton_self _)
    (fun p hp => by rw [Finset.mem_singleton.mp hp]; exact le_of_eq (lv_bar c))
    (fun g u hg => by obtain ⟨a, rfl⟩ := R₀_pos hg; rw [lv_recv]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: the stencil of its own block and the three faces its neighbours send it. -/
def outAt (c : Dev nD) : (cc0_stg1_0 : Ref sig .tc).ty.Contents (Elt F) := meshOut (ublk m ρ) c

section Ghost
variable (K : Dev nD × Fin 7 → ℕ)

/-- The seven cells of a device, as this proof indexes them: barrier; send 0, 1, 2; receive 0, 1, 2. -/
abbrev csem : Fin 7 → SemLoc sig := fun
  | 0 => .reg barS | 1 => .dma (sendSem 0) | 2 => .dma (sendSem 1) | 3 => .dma (sendSem 2)
  | 4 => .dma (recvSem 0) | 5 => .dma (recvSem 1) | 6 => .dma (recvSem 2)
abbrev kcell (ck : Dev nD × Fin 7) : GSem nD τ sig := ((ck.1 : Thread nD τ), csem ck.2)
abbrev sIx (a : Fin 3) : Fin 7 := ⟨1 + a.val, by omega⟩
abbrev rIx (a : Fin 3) : Fin 7 := ⟨4 + a.val, by omega⟩

/-- The cells' invariants device `c`'s body opens, under the names `K` the launch allocated them at: its own seven,
    each neighbour's barrier cell (its signals) and each neighbour's receive cell of the axis (its transfers). -/
def invs (c : Dev nD) : sProp 𝕄 :=
  iprop(cellInv ER (xrd m ρ) (K (c, 0)) (barCell c)
    ∗ (cellInv ER (xrd m ρ) (K (c, 1)) (sendCell c 0) ∗ cellInv ER (xrd m ρ) (K (c, 2)) (sendCell c 1) ∗ cellInv ER (xrd m ρ) (K (c, 3)) (sendCell c 2))
    ∗ (cellInv ER (xrd m ρ) (K (c, 4)) (recvCell c 0) ∗ cellInv ER (xrd m ρ) (K (c, 5)) (recvCell c 1) ∗ cellInv ER (xrd m ρ) (K (c, 6)) (recvCell c 2))
    ∗ (cellInv ER (xrd m ρ) (K (nbr 0 c, 0)) (barCell (nbr 0 c)) ∗ cellInv ER (xrd m ρ) (K (nbr 1 c, 0)) (barCell (nbr 1 c)) ∗ cellInv ER (xrd m ρ) (K (nbr 2 c, 0)) (barCell (nbr 2 c)))
    ∗ (cellInv ER (xrd m ρ) (K (nbr 0 c, 4)) (recvCell (nbr 0 c) 0) ∗ cellInv ER (xrd m ρ) (K (nbr 1 c, 5)) (recvCell (nbr 1 c) 1) ∗ cellInv ER (xrd m ρ) (K (nbr 2 c, 6)) (recvCell (nbr 2 c) 2)))

instance invs_persistent (c : Dev nD) : BI.Persistent (invs m ρ K c) := by unfold invs; infer_instance

/-- Device `c`'s positions: round 0 of each of its seven cells. -/
def positions (c : Dev nD) : sProp 𝕄 :=
  iprop(atPos ER (barCell c) 0 ∅ 0
    ∗ (atPos ER (sendCell c 0) 0 ∅ 0 ∗ atPos ER (sendCell c 1) 0 ∅ 0 ∗ atPos ER (sendCell c 2) 0 ∅ 0)
    ∗ (atPos ER (recvCell c 0) 0 ∅ 0 ∗ atPos ER (recvCell c 1) 0 ∅ 0 ∗ atPos ER (recvCell c 2) 0 ∅ 0))

/-- That round 0 is reached: of the cells `c` pays (neighbours' barrier and receive cells, its own send cells) and of
    its own receive cells (handed to the neighbours with its barrier signals). -/
def marks (c : Dev nD) : sProp 𝕄 :=
  iprop((reached ER (barCell (nbr 0 c)) 0 ∗ reached ER (barCell (nbr 1 c)) 0 ∗ reached ER (barCell (nbr 2 c)) 0)
    ∗ (reached ER (recvCell (nbr 0 c) 0) 0 ∗ reached ER (recvCell (nbr 1 c) 1) 0 ∗ reached ER (recvCell (nbr 2 c) 2) 0)
    ∗ (reached ER (sendCell c 0) 0 ∗ reached ER (sendCell c 1) 0 ∗ reached ER (sendCell c 2) 0)
    ∗ (reached ER (recvCell c 0) 0 ∗ reached ER (recvCell c 1) 0 ∗ reached ER (recvCell c 2) 0))

instance marks_persistent (c : Dev nD) : BI.Persistent (marks (F := F) c) := by unfold marks; infer_instance

/-- The tokens of the duties `c` pays: duty `a` of the barrier cell of its neighbour along `a`, that neighbour's
    receive duty of the axis, its own send duty of the axis. -/
def payToks (c : Dev nD) : sProp 𝕄 :=
  iprop((dutyTok ER (barCell (nbr 0 c)) 0 0 ∗ dutyTok ER (barCell (nbr 1 c)) 0 1 ∗ dutyTok ER (barCell (nbr 2 c)) 0 2)
    ∗ (dutyTok ER (recvCell (nbr 0 c) 0) 0 0 ∗ dutyTok ER (recvCell (nbr 1 c) 1) 0 0 ∗ dutyTok ER (recvCell (nbr 2 c) 2) 0 0)
    ∗ (dutyTok ER (sendCell c 0) 0 0 ∗ dutyTok ER (sendCell c 1) 0 0 ∗ dutyTok ER (sendCell c 2) 0 0))

/-- The exchange's ghost state device `c` starts from. -/
def ghost (c : Dev nD) : sProp 𝕄 := iprop(invs m ρ K c ∗ positions c ∗ marks c ∗ payToks c)

end Ghost

/-- The credit dealt at launch for a device's own waits: its barrier's three units, each receive cell's face. -/
def creds (c : Dev nD) : sProp 𝕄 :=
  iprop(cred (tallyAt (barCell c) () 3)
    ∗ cred (tallyAt (recvCell c 0) () Nx) ∗ cred (tallyAt (recvCell c 1) () Nx) ∗ cred (tallyAt (recvCell c 2) () Nx))

/-- What device `c`'s body starts from, beside the buffers. -/
def start (c : Dev nD) : sProp 𝕄 := iprop((∃ K, ghost m ρ K c) ∗ creds c ∗ levAts L lv)

/-- Before the point: that, and the two scratch buffers whole at some contents. -/
def Φ₀ (c : Dev nD) : sProp 𝕄 :=
  iprop(start m ρ c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After the point: the two scratch buffers whole again, the six own cells at zero, closed. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (semVal (sendCell c 0) 0 ∗ semVal (sendCell c 1) 0 ∗ semVal (sendCell c 2) 0)
    ∗ (semVal (recvCell c 0) 0 ∗ semVal (recvCell c 1) 0 ∗ semVal (recvCell c 2) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => ublk m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdeal.Halo

end
-- ==== Proof.KernelIdeal.Slots.lean ====
/-
  The two 3×32×32 scratch buffers cut into their three 32×32 slots: the slots' element sets partition the buffer, a
  buffer held whole is its three slots and back, and what a store into a slot leaves is what the slot's view reads.
-/
import proofs.«900534_g7700000000000535_dist_halo3d_v7x_xyz2x2x2_s32_f32_1_alg».proof.Proof.KernelIdeal.Ledger

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A slot's elements are its rectangle's. -/
theorem sSet_eq (a : Fin 3) : (sSlot a : Memref sig .tc .vmem S32x32 .f32).view.set = (slotRect a).set := by
  show (((View.whole cc0_scratch0).slice (slotRect a)).reshape S32x32 _).set = _
  rw [View.set_reshape, View.set_slice_whole]
theorem hSet_eq (a : Fin 3) : (hSlot a : Memref sig .tc .vmem S32x32 .f32).view.set = (slotRect a).set := by
  show (((View.whole cc0_scratch1).slice (slotRect a)).reshape S32x32 _).set = _
  rw [View.set_reshape, View.set_slice_whole]

/-- Every element of the buffer lies in the slot its leading coordinate names. -/
theorem slots_cover : (slotRect 0).set ∪ ((slotRect 1).set ∪ (slotRect 2).set) = (Finset.univ : Finset S3x32x32.Idx) := by
  ext i
  simp only [Finset.mem_union, Rect.mem_set_unit, Finset.mem_univ, iff_true]
  have h0 : (i 0).val < 3 := (i 0).isLt
  have h1 : (i 1).val < 32 := (i 1).isLt
  have h2 : (i 2).val < 32 := (i 2).isLt
  have e : (i 0).val = 0 ∨ (i 0).val = 1 ∨ (i 0).val = 2 := by omega
  rcases e with e | e | e
  · left; intro a
    match a with
    | ⟨0, _⟩ => exact ⟨Nat.zero_le _, by show (i 0).val < 0 + 1; omega⟩
    | ⟨1, _⟩ => exact ⟨Nat.zero_le _, by show (i 1).val < 0 + 32; omega⟩
    | ⟨2, _⟩ => exact ⟨Nat.zero_le _, by show (i 2).val < 0 + 32; omega⟩
  · right; left; intro a
    match a with
    | ⟨0, _⟩ => exact ⟨by show 1 ≤ (i 0).val; omega, by show (i 0).val < 1 + 1; omega⟩
    | ⟨1, _⟩ => exact ⟨Nat.zero_le _, by show (i 1).val < 0 + 32; omega⟩
    | ⟨2, _⟩ => exact ⟨Nat.zero_le _, by show (i 2).val < 0 + 32; omega⟩
  · right; right; intro a
    match a with
    | ⟨0, _⟩ => exact ⟨by show 2 ≤ (i 0).val; omega, by show (i 0).val < 2 + 1; omega⟩
    | ⟨1, _⟩ => exact ⟨Nat.zero_le _, by show (i 1).val < 0 + 32; omega⟩
    | ⟨2, _⟩ => exact ⟨Nat.zero_le _, by show (i 2).val < 0 + 32; omega⟩

/-- Different slots share no element. -/
theorem slots_disj {a b : Fin 3} (h : a ≠ b) : Disjoint (slotRect a).set (slotRect b).set :=
  Rect.unit_disjoint (0 : Fin 3) (by
    show a.val + 1 ≤ b.val ∨ b.val + 1 ≤ a.val
    have : a.val ≠ b.val := fun e => h (Fin.ext e)
    omega)

theorem slot12_disj0 : Disjoint (slotRect 0).set ((slotRect 1).set ∪ (slotRect 2).set) :=
  Finset.disjoint_union_right.mpr ⟨slots_disj (by decide), slots_disj (by decide)⟩

section Pts
variable (c : Dev nD)

omit [FloatOps F] in
/-- The send buffer held whole is its three slots, -/
theorem split_s (f : Buf (Elt F) ((c : Thread nD τ).loc cc0_scratch0)) :
    ((((c : Thread nD τ).loc cc0_scratch0) ↦{fullShare} f : sProp 𝕄)) ⊢ iprop(sPts c 0 f ∗ sPts c 1 f ∗ sPts c 2 f) := by
  unfold sPts
  rw [sSet_eq, sSet_eq, sSet_eq]
  refine (Entails.of_eq ?_).trans ((pointsTo_union slot12_disj0).1.trans (sep_mono_right (pointsTo_union (slots_disj (by decide))).1))
  rw [slots_cover]
omit [FloatOps F] in
/-- and three slots held at any contents are the buffer whole at some contents. -/
theorem join_s (f0 f1 f2 : Buf (Elt F) ((c : Thread nD τ).loc cc0_scratch0)) :
    iprop(sPts c 0 f0 ∗ sPts c 1 f1 ∗ sPts c 2 f2) ⊢ (∃ f : Buf (Elt F) ((c : Thread nD τ).loc cc0_scratch0), ((c : Thread nD τ).loc cc0_scratch0) ↦{fullShare} f : sProp 𝕄) := by
  unfold sPts
  rw [sSet_eq, sSet_eq, sSet_eq]
  refine (sep_mono_right (pointsTo_join (slots_disj (a := 1) (b := 2) (by decide)))).trans ((pointsTo_join slot12_disj0).trans ?_)
  rw [slots_cover]
  iintro H; iexists _; iexact H
omit [FloatOps F] in
theorem split_h (f : Buf (Elt F) ((c : Thread nD τ).loc cc0_scratch1)) :
    ((((c : Thread nD τ).loc cc0_scratch1) ↦{fullShare} f : sProp 𝕄)) ⊢ iprop(hPts c 0 f ∗ hPts c 1 f ∗ hPts c 2 f) := by
  unfold hPts
  rw [hSet_eq, hSet_eq, hSet_eq]
  refine (Entails.of_eq ?_).trans ((pointsTo_union slot12_disj0).1.trans (sep_mono_right (pointsTo_union (slots_disj (by decide))).1))
  rw [slots_cover]
omit [FloatOps F] in
theorem join_h (f0 f1 f2 : Buf (Elt F) ((c : Thread nD τ).loc cc0_scratch1)) :
    iprop(hPts c 0 f0 ∗ hPts c 1 f1 ∗ hPts c 2 f2) ⊢ (∃ f : Buf (Elt F) ((c : Thread nD τ).loc cc0_scratch1), ((c : Thread nD τ).loc cc0_scratch1) ↦{fullShare} f : sProp 𝕄) := by
  unfold hPts
  rw [hSet_eq, hSet_eq, hSet_eq]
  refine (sep_mono_right (pointsTo_join (slots_disj (a := 1) (b := 2) (by decide)))).trans ((pointsTo_join slot12_disj0).trans ?_)
  rw [slots_cover]
  iintro H; iexists _; iexact H

end Pts

/-! ## Loads and stores through a slot's rectangle -/

/-- A load or a store through slot `a`'s rectangle touches the slot's elements only. -/
theorem s_load_sub (a : Fin 3) : (sM : Memref sig .tc .vmem S3x32x32 .f32).view.setOn (slotRect a).toLoadRect.set ⊆ (sSlot a : Memref sig .tc .vmem S32x32 .f32).view.set := by
  rw [sSet_eq]; intro i hi
  obtain ⟨j, hj, rfl⟩ := Finset.mem_map.mp hi
  exact hj
theorem h_load_sub (a : Fin 3) : (hM : Memref sig .tc .vmem S3x32x32 .f32).view.setOn (slotRect a).toLoadRect.set ⊆ (hSlot a : Memref sig .tc .vmem S32x32 .f32).view.set := by
  rw [hSet_eq]; intro i hi
  obtain ⟨j, hj, rfl⟩ := Finset.mem_map.mp hi
  exact hj
theorem s_store_sub (a : Fin 3) : ((sM : Memref sig .tc .vmem S3x32x32 .f32).access (slotRect a)).setOn Finset.univ ⊆ (sSlot a : Memref sig .tc .vmem S32x32 .f32).view.set := by
  rw [sSet_eq, View.setOn_univ]
  exact subset_of_eq (View.set_slice_whole _ _)

/-- What slot `a`'s view reads after a store of `w` through the slot's rectangle: `w`, as a 32×32 array. -/
theorem s_read_store (a : Fin 3) (f : (cc0_scratch0 : Ref sig .tc).ty.Contents (Elt F)) (w : S1x32x32.Idx → Elt F .f32) :
    (sSlot a : Memref sig .tc .vmem S32x32 .f32).view.read (Elt F) (((sM : Memref sig .tc .vmem S3x32x32 .f32).access (slotRect a)).write (Elt F) f w Finset.univ)
      = shapeCast S32x32 w Facts₀.shapeCasts_S1x32x32_S32x32 := by
  show shapeCast S32x32 (((sM : Memref sig .tc .vmem S3x32x32 .f32).access (slotRect a)).read (Elt F) (((sM : Memref sig .tc .vmem S3x32x32 .f32).access (slotRect a)).write (Elt F) f w Finset.univ)) _ = _
  rw [View.read_write_univ]

/-- What a load through slot `a`'s rectangle of the landing buffer reads, as a 32×32 array, is what the slot's view reads. -/
theorem h_read_load (a : Fin 3) (f : (cc0_scratch1 : Ref sig .tc).ty.Contents (Elt F)) :
    shapeCast S32x32 ((hM : Memref sig .tc .vmem S3x32x32 .f32).view.readAt (Elt F) (slotRect a).toLoadRect f) Facts₀.shapeCasts_S1x32x32_S32x32
      = (hSlot a : Memref sig .tc .vmem S32x32 .f32).view.read (Elt F) f := rfl

/-- The result block depends on the received faces only through their 32×32 readings. -/
theorem outOf_congr (c : Dev nD) (u : Vec F S32x32x32 .f32) {h0 h1 h2 h0' h1' h2' : Vec F S1x32x32 .f32}
    (e0 : shapeCast S32x32 h0 Facts₀.shapeCasts_S1x32x32_S32x32 = shapeCast S32x32 h0' Facts₀.shapeCasts_S1x32x32_S32x32)
    (e1 : shapeCast S32x32 h1 Facts₀.shapeCasts_S1x32x32_S32x32 = shapeCast S32x32 h1' Facts₀.shapeCasts_S1x32x32_S32x32)
    (e2 : shapeCast S32x32 h2 Facts₀.shapeCasts_S1x32x32_S32x32 = shapeCast S32x32 h2' Facts₀.shapeCasts_S1x32x32_S32x32) :
    outOf c u h0 h1 h2 = outOf c u h0' h1' h2' := by
  unfold outOf k0_pay1 k0_pay18 k0_pay19
  rw [e0, e1, e2]

end Cert.KernelIdeal.Halo

end
-- ==== Proof.KernelIdeal.Body.lean ====
/-
  One device's body, stepped from the exchange's ghost state: three barrier signals (each handing a landing slot to
  the neighbour that fills it), the three faces stored into the send slots, the barrier wait (the neighbours' landing
  slots arrive), the three transfers, the six waits (send slots back, landing slots holding the neighbours' faces),
  and the stencil stored into the result block.
-/
import proofs.«900534_g7700000000000535_dist_halo3d_v7x_xyz2x2x2_s32_f32_1_alg».proof.Proof.KernelIdeal.Slots

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The transfer along one axis, at the exchange's cells -/

section Rules
variable (c : Dev nD)

/-- The transfer of `c`'s face along axis `a` into slot `a` of the neighbour `n = nbr a c` (substituted, not
    rewritten): it pays `c`'s send duty with the send slot and the neighbour's receive duty with the neighbour's
    landing slot reading `c`'s face. -/
theorem wp_send_face (n : Dev nD) (a : Fin 3) (hn : n = nbr a c)
    (fs : Buf (Elt F) ((sSlot a : Memref sig .tc .vmem S32x32 .f32).view.loc (c : Thread nD τ)))
    (hfs : (sSlot a : Memref sig .tc .vmem S32x32 .f32).view.read (Elt F) fs = faceS m ρ c a)
    (fn : Buf (Elt F) ((hSlot a : Memref sig .tc .vmem S32x32 .f32).view.loc (nbr a c : Thread nD τ)))
    (O₀ O : CellTallies nD τ sig Unit) (hO : O₀ = O + tallyAt (recvCell (nbr a c) a) () Nx) {κ₁ κ₂ : ℕ} {W : Waits sig Unit}
    {hsc : (hSlot a : Memref sig (Dev.tc n : Thread nD τ).2.kind .vmem S32x32 .f32).view.ref.isScScratch = false}
    {hsrc : (sSlot a : Memref sig .tc .vmem S32x32 .f32).view.WordExact} {hdst : (hSlot a : Memref sig .tc .vmem S32x32 .f32).view.WordExact}
    {hsem : DmaTarget.Typed .vmem (.dma (recvSem a)) (.remote (Dev.tc n : Thread nD τ) (hSlot a : Memref sig .tc .vmem S32x32 .f32) (.dma (sendSem a)) hsc)}
    {α : Type} {Q : α → sProp 𝕄} {k : PUnit → Prog (TpuEff nD τ sig (Elt F) Λ₀ .tc) α} :
    iprop(cellInv ER (xrd m ρ) κ₁ (sendCell c a) ∗ cellInv ER (xrd m ρ) κ₂ (recvCell (nbr a c) a)
        ∗ ((sSlot a : Memref sig .tc .vmem S32x32 .f32).view.loc (c : Thread nD τ) ↦[(sSlot a : Memref sig .tc .vmem S32x32 .f32).view.set]{fullShare} fs)
        ∗ hPts (nbr a c) a fn
        ∗ owes (c : Thread nD τ) O₀ W
        ∗ dutyTok ER (sendCell c a) 0 0 ∗ reached ER (sendCell c a) 0
        ∗ dutyTok ER (recvCell (nbr a c) a) 0 0 ∗ reached ER (recvCell (nbr a c) a) 0)
      ⊢ iprop(((cred (tallyAt (sendCell c a) () Nx) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot a) (.remote (Dev.tc n : Thread nD τ) (hSlot a) (.dma (sendSem a)) hsc) (.dma (recvSem a)) hsrc hdst hsem) k) Q) := by
  subst hn
  unfold hPts
  exact Rounds.wp_send_pointsTo 𝒱₀ ER (xrd m ρ) (c : Thread nD τ) none (κ₁ := κ₁) (κ₂ := κ₂)
    (r₁ := 0) (r₂ := 0) (d₁ := 0) (d₂ := 0) (fd := fn)
    (by rw [duties_send]; exact Finset.mem_singleton_self _) (by rw [duties_recv]; exact Finset.mem_singleton_self _)
    () () Nx (amount_slot a) (amount_send m ρ c a 0) (amount_recv m ρ (nbr a c) a 0) O hO (W := W)
    (by rw [payload_send]; unfold sendPay sPts; iintro H; iexists fs; iexact H)
    (by
      rw [payload_recv]; unfold recvPay hPts
      iintro H; iexists _
      isplitl [H]; · iexact H
      ipureintro; rw [View.read_write_univ, hfs, nbr_nbr])

omit [FloatOps F] in
theorem sNx (a : Fin 3) : (sSlot a : Memref sig .tc .vmem S32x32 .f32).view.dmaCredit = Nx := by revert a; decide
omit [FloatOps F] in
theorem hNx (a : Fin 3) : (hSlot a : Memref sig .tc .vmem S32x32 .f32).view.dmaCredit = Nx := by revert a; decide

omit [FloatOps F] in
theorem whole_pts (b : Ref sig .tc) (f : Buf (Elt F) ((c : Thread nD τ).loc b)) :
    ((((c : Thread nD τ).loc b) ↦{fullShare} f : sProp 𝕄))
      = ((Memref.whole b : Memref sig .tc _ _ _).view.loc (c : Thread nD τ) ↦[(Memref.whole b : Memref sig .tc _ _ _).view.set]{fullShare} f) := by
  rw [View.set_whole]

omit [FloatOps F] in
/-- The barrier duty `d` of the neighbour along `d`, spelt out: `c`'s own landing slot `d` and its receive cell's mark. -/
theorem payload_bar_spelt (d : Fin 3) : (xrd (F := F) m ρ).payload (barCell (nbr d c)) 0 d
    = iprop((∃ f, ((hSlot d : Memref sig .tc .vmem S32x32 .f32).view.loc (c : Thread nD τ) ↦[(hSlot d : Memref sig .tc .vmem S32x32 .f32).view.set]{fullShare} f : sProp 𝕄)) ∗ reached ER (recvCell c d) 0) := by
  rw [payload_bar]; unfold barPay hPts; rw [nbr_nbr]

omit [FloatOps F] in
/-- A barrier cell's whole round: the three neighbours' payloads. -/
theorem bar_round : bigSep Finset.univ (fun d => (xrd (F := F) m ρ).payload (barCell c) 0 d) = iprop(barPay c 0 ∗ barPay c 1 ∗ barPay c 2) := by
  rw [bigSep_fin3, payload_bar, payload_bar, payload_bar]

/-- What a slot's view reads after the three faces were stored, each through its slot's rectangle. -/
theorem slot_read_writes (f : (cc0_scratch0 : Ref sig .tc).ty.Contents (Elt F)) (w0 w1 w2 : S1x32x32.Idx → Elt F .f32) (a : Fin 3) :
    (sSlot a : Memref sig .tc .vmem S32x32 .f32).view.read (Elt F)
        ((sM : Memref sig .tc .vmem S3x32x32 .f32).view.writes (Elt F) f [⟨slotRect 2, w2⟩, ⟨slotRect 1, w1⟩, ⟨slotRect 0, w0⟩])
      = shapeCast S32x32 (![w0, w1, w2] a) Facts₀.shapeCasts_S1x32x32_S32x32 := by
  have hd : ∀ {a b : Fin 3}, a ≠ b → ∀ (g : (cc0_scratch0 : Ref sig .tc).ty.Contents (Elt F)) (w : S1x32x32.Idx → Elt F .f32),
      ((sM : Memref sig .tc .vmem S3x32x32 .f32).access (slotRect a)).read (Elt F) (((sM : Memref sig .tc .vmem S3x32x32 .f32).access (slotRect b)).write (Elt F) g w Finset.univ)
        = ((sM : Memref sig .tc .vmem S3x32x32 .f32).access (slotRect a)).read (Elt F) g := fun {a b} hab g w =>
    View.read_slice_write_slice_of_disjoint (v := (sM : Memref sig .tc .vmem S3x32x32 .f32).view) (slotRect a) (slotRect b) g w Finset.univ (by
      rw [View.setOn_univ, View.set_slice_whole, View.set_slice_whole]; exact slots_disj hab)
  show shapeCast S32x32 (((sM : Memref sig .tc .vmem S3x32x32 .f32).access (slotRect a)).read (Elt F) _) _ = _
  congr 1
  simp only [View.writes_cons, View.writes_nil]
  fin_cases a
  · rw [hd (by decide), hd (by decide)]; exact View.read_write_univ _ _
  · rw [hd (by decide)]; exact View.read_write_univ _ _
  · exact View.read_write_univ _ _

end Rules

section Body

variable (K : Dev nD × Fin 7 → ℕ)

def bodyPre (c : Dev nD) : sProp 𝕄 :=
  iprop((ghost m ρ K c ∗ creds c ∗ levAts L lv
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (ublk m ρ c) ∗ stg c cc0_stg1_0 (outAt m ρ c))

abbrev r0 : Rect S32x32x32 := Rect.unit (s := S32x32x32) ![0, 0, 0] S32x32x32.size Facts₀.inb_S32x32x32_S32x32x32_0_0_0

omit [FloatOps F] in
theorem hz : (![0, 0, 0] : Fin 3 → Nat) = fun _ => 0 := funext fun a => by fin_cases a <;> rfl
omit [FloatOps F] in
theorem read_x (f : (cc0_stg0_0 : Ref sig .tc).ty.Contents (Elt F)) : (xM : Memref sig .tc .vmem S32x32x32 .f32).view.readAt (Elt F) r0.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S32x32x32 .f32).access r0 : View sig .tc _ _ _).write (Elt F) f w Finset.univ = w :=
  Memref.write_access_unit_zero_univ (Elt F) cc0_stg1_0 hz _ f w

open Idealize.ShloMosaic.Tactic in
attribute [local sl_rounds] duties_bar duties_send duties_recv amount_bar amount_send amount_recv payload_bar_spelt payload_send payload_recv expect_bar expect_send expect_recv

open Idealize.ShloMosaic.Tactic in
set_option maxHeartbeats 1600000 in
/-- The body, from `bodyPre` to `bodyPost`, one effect after the other in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre ghost invs positions marks payToks creds
  iintro ⟨⟨⟨⟨⟨#HIb, ⟨#HIs0, #HIs1, #HIs2⟩, ⟨#HIr0, #HIr1, #HIr2⟩, ⟨#HIbN0, #HIbN1, #HIbN2⟩, #HIrN0, #HIrN1, #HIrN2⟩,
      ⟨HatB, ⟨HatS0, HatS1, HatS2⟩, HatR0, HatR1, HatR2⟩,
      ⟨⟨#HrBN0, #HrBN1, #HrBN2⟩, ⟨#HrRN0, #HrRN1, #HrRN2⟩, ⟨#HrS0, #HrS1, #HrS2⟩, #HrR0, #HrR1, #HrR2⟩,
      ⟨HtB0, HtB1, HtB2⟩, ⟨HtR0, HtR1, HtR2⟩, HtS0, HtS1, HtS2⟩,
      ⟨HcB, HcR0, HcR1, HcR2⟩, #Hlev, ⟨%fs0, Hs⟩, ⟨%fh0, Hh⟩⟩,
    Ho, ⟨%d0, %g0, %hg0, Hx⟩, ⟨%d1, %g1, %hg1, Hout⟩⟩, Hk⟩
  have hx : g0 = ublk m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- the landing buffer by slots: one goes to each neighbour with the barrier signal along its axis
  ihave Hh3 := (split_h c fh0) $$ Hh
  icases Hh3 with ⟨Hh0, Hh1, Hh2⟩
  unfold hPts
  unfold O₀ O₁ O₂ R₀
  ihave Hx := (Entails.of_eq (whole_pts (F := F) c cc0_stg0_0 _)) $$ Hx
  ihave Hout := (Entails.of_eq (whole_pts (F := F) c cc0_stg1_0 _)) $$ Hout
  ihave Hs := (Entails.of_eq (whole_pts (F := F) c cc0_scratch0 _)) $$ Hs
  have hmw : (levAts L lv : sProp 𝕄) ⊢ MayWait (c : Thread nD τ) (.reg barS) ()
      (tallyAt (recvCell (nbr 2 c) 2) () Nx + tallyAt (recvCell (nbr 1 c) 1) () Nx + tallyAt (recvCell (nbr 0 c) 0) () Nx) := mayWait_bar c
  -- the three signals, the block's load, the three faces stored, the wait for the three neighbours
  sl_exec
  rw [read_x]
  ihave Hp := (Entails.of_eq (bar_round m ρ c)) $$ HatB_pay1
  unfold barPay
  icases Hp with ⟨⟨⟨%fn0, Hn0⟩, #HrN0'⟩, ⟨⟨%fn1, Hn1⟩, #HrN1'⟩, ⟨%fn2, Hn2⟩, #HrN2'⟩
  -- the send buffer by slots, each reading its face
  ihave Hs := (Entails.of_eq (whole_pts (F := F) c cc0_scratch0 _).symm) $$ Hs
  ihave Hs3 := (split_s c _) $$ Hs
  icases Hs3 with ⟨Hs0, Hs1, Hs2⟩
  unfold sPts
  -- the three transfers
  iapply (wp_send_face m ρ c _ 0 (dev4_eq c) _ (slot_read_writes fs0 _ _ _ 0) fn0 _ (tallyAt (recvCell (nbr 2 c) 2) () Nx + tallyAt (recvCell (nbr 1 c) 1) () Nx) rfl (κ₁ := K (c, 1)) (κ₂ := K (nbr 0 c, 4)))
    $$ [Hs0 Hn0 HO HtS0 HtR0]
  · isplitr; · iexact HIs0
    isplitr; · iexact HIrN0
    isplitl [Hs0]; · iexact Hs0
    isplitl [Hn0]; · iexact Hn0
    isplitl [HO]; · iexact HO
    isplitl [HtS0]; · iexact HtS0
    isplitr; · iexact HrS0
    isplitl [HtR0]; · iexact HtR0
    iexact HrN0'
  iintro ⟨HcS0, HO⟩
  iapply (wp_send_face m ρ c _ 1 (dev5_eq c) _ (slot_read_writes fs0 _ _ _ 1) fn1 _ (tallyAt (recvCell (nbr 2 c) 2) () Nx) rfl (κ₁ := K (c, 2)) (κ₂ := K (nbr 1 c, 5)))
    $$ [Hs1 Hn1 HO HtS1 HtR1]
  · isplitr; · iexact HIs1
    isplitr; · iexact HIrN1
    isplitl [Hs1]; · iexact Hs1
    isplitl [Hn1]; · iexact Hn1
    isplitl [HO]; · iexact HO
    isplitl [HtS1]; · iexact HtS1
    isplitr; · iexact HrS1
    isplitl [HtR1]; · iexact HtR1
    iexact HrN1'
  iintro ⟨HcS1, HO⟩
  iapply (wp_send_face m ρ c _ 2 (dev6_eq c) _ (slot_read_writes fs0 _ _ _ 2) fn2 _ 0 (zero_add _).symm (κ₁ := K (c, 3)) (κ₂ := K (nbr 2 c, 6)))
    $$ [Hs2 Hn2 HO HtS2 HtR2]
  · isplitr; · iexact HIs2
    isplitr; · iexact HIrN2
    isplitl [Hs2]; · iexact Hs2
    isplitl [Hn2]; · iexact Hn2
    isplitl [HO]; · iexact HO
    isplitl [HtS2]; · iexact HtS2
    isplitr; · iexact HrS2
    isplitl [HtR2]; · iexact HtR2
    iexact HrN2'
  iintro ⟨HcS2, HO⟩
  -- the six waits: the send slots back, the landing slots holding the neighbours' faces
  sl_exec
  unfold sendPay recvPay
  icases HatS0_pay1 with ⟨%gs0, Hs0⟩
  icases HatS1_pay1 with ⟨%gs1, Hs1⟩
  icases HatS2_pay1 with ⟨%gs2, Hs2⟩
  icases HatR0_pay1 with ⟨%gr0, Hr0, %hq0⟩
  icases HatR1_pay1 with ⟨%gr1, Hr1, %hq1⟩
  icases HatR2_pay1 with ⟨%gr2, Hr2, %hq2⟩
  -- the six own cells close
  imod (Rounds.cell_close ER (xrd m ρ) (Set.mem_univ (K (c, 1))) (fun h => h) (R := 0 + 1) (duties_later m ρ (sendCell c 0))) $$ [HatS0] with HzS0
  · isplitr; · iexact HIs0
    iexact HatS0
  imod (Rounds.cell_close ER (xrd m ρ) (Set.mem_univ (K (c, 2))) (fun h => h) (R := 0 + 1) (duties_later m ρ (sendCell c 1))) $$ [HatS1] with HzS1
  · isplitr; · iexact HIs1
    iexact HatS1
  imod (Rounds.cell_close ER (xrd m ρ) (Set.mem_univ (K (c, 3))) (fun h => h) (R := 0 + 1) (duties_later m ρ (sendCell c 2))) $$ [HatS2] with HzS2
  · isplitr; · iexact HIs2
    iexact HatS2
  imod (Rounds.cell_close ER (xrd m ρ) (Set.mem_univ (K (c, 4))) (fun h => h) (R := 0 + 1) (duties_later m ρ (recvCell c 0))) $$ [HatR0] with HzR0
  · isplitr; · iexact HIr0
    iexact HatR0
  imod (Rounds.cell_close ER (xrd m ρ) (Set.mem_univ (K (c, 5))) (fun h => h) (R := 0 + 1) (duties_later m ρ (recvCell c 1))) $$ [HatR1] with HzR1
  · isplitr; · iexact HIr1
    iexact HatR1
  imod (Rounds.cell_close ER (xrd m ρ) (Set.mem_univ (K (c, 6))) (fun h => h) (R := 0 + 1) (duties_later m ρ (recvCell c 2))) $$ [HatR2] with HzR2
  · isplitr; · iexact HIr2
    iexact HatR2
  -- the received faces, and the stencil into the result block
  unfold hPts
  iapply (wp_load 𝒱₀ (c : Thread nD τ) none Set.univ (m := hM) (h_load_sub 0)) $$ Hr0; iintro Hr0
  iapply (wp_load 𝒱₀ (c : Thread nD τ) none Set.univ (m := hM) (h_load_sub 1)) $$ Hr1; iintro Hr1
  iapply (wp_load 𝒱₀ (c : Thread nD τ) none Set.univ (m := hM) (h_load_sub 2)) $$ Hr2; iintro Hr2
  ihave Hout := (Entails.of_eq (whole_pts (F := F) c cc0_stg1_0 _).symm) $$ Hout
  ihave Hx := (Entails.of_eq (whole_pts (F := F) c cc0_stg0_0 _).symm) $$ Hx
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  isplitl [Hs0 Hs1 Hs2 Hr0 Hr1 Hr2 HzS0 HzS1 HzS2 HzR0 HzR1 HzR2]
  · isplitl [Hs0 Hs1 Hs2]
    · iapply (join_s c gs0 gs1 gs2)
      isplitl [Hs0]; · iexact Hs0
      isplitl [Hs1]; · iexact Hs1
      iexact Hs2
    isplitl [Hr0 Hr1 Hr2]
    · iapply (join_h c gr0 gr1 gr2)
      unfold hPts
      isplitl [Hr0]; · iexact Hr0
      isplitl [Hr1]; · iexact Hr1
      iexact Hr2
    isplitl [HzS0 HzS1 HzS2]
    · isplitl [HzS0]; · iexact HzS0
      isplitl [HzS1]; · iexact HzS1
      iexact HzS2
    · isplitl [HzR0]; · iexact HzR0
      isplitl [HzR1]; · iexact HzR1
      iexact HzR2
  isplitl [HO]
  · iexists (insert (SemLoc.dma (recvSem 2), ()) (insert (SemLoc.dma (sendSem 2), ()) (insert (SemLoc.dma (recvSem 1), ()) (insert (SemLoc.dma (sendSem 1), ())
      (insert (SemLoc.dma (recvSem 0), ()) (insert (SemLoc.dma (sendSem 0), ()) (insert (SemLoc.reg barS, ()) W)))))))
    isplitr; · ipureintro; exact fun _ _ => Or.inl trivial
    iexact HO
  isplitl [Hx]
  · iexists _; isplitr; · (ipureintro; rfl)
    iexact Hx
  iexists _; isplitr
  · ipureintro
    exact outOf_congr c (ublk m ρ c) ((h_read_load 0 gr0).trans hq0) ((h_read_load 1 gr1).trans hq1) ((h_read_load 2 gr2).trans hq2)
  iexact Hout

end Body

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hc, Hlev⟩, Hs, Hh⟩, Ho, Hx, Hout⟩
  iapply (sound_body m ρ K c fun _ => bodyPost m ρ c)
  unfold bodyPre
  isplitr []
  · isplitl [Hg Hc Hlev Hs Hh]
    · isplitl [Hg]; · iexact Hg
      isplitl [Hc]; · iexact Hc
      isplitl [Hlev]; · iexact Hlev
      isplitl [Hs]; · iexact Hs
      iexact Hh
    isplitl [Ho]; · iexact Ho
    isplitl [Hx] <;> iassumption
  · iintro H; iexact H

end Cert.KernelIdeal.Halo

end
-- ==== Proof.KernelIdeal.Launch.lean ====
/-
  The launch: the exchange's ghost state allocated for all eight devices at once, each device's body obligation,
  and the run of @main on the mesh with every device's final arrays named.
-/
import proofs.«900534_g7700000000000535_dist_halo3d_v7x_xyz2x2x2_s32_f32_1_alg».proof.Proof.KernelIdeal.Body

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens the launch element holds -/

/-- The kernel's own six semaphores: send 0, 1, 2; receive 0, 1, 2. -/
abbrev osem : Fin 6 → SemLoc sig := fun
  | 0 => .dma (sendSem 0) | 1 => .dma (sendSem 1) | 2 => .dma (sendSem 2)
  | 3 => .dma (recvSem 0) | 4 => .dma (recvSem 1) | 5 => .dma (recvSem 2)

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 7 → SemLoc sig) := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- The fifty-six cells of the exchange. -/
def haloCells : Finset (GSem nD τ sig) := Finset.univ.map ⟨kcell, kcell_injective⟩

/-- A device's own cells' duty tokens as minted: its barrier's three duties, each send cell's and each receive cell's
    one duty. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell cj.1 0, 0, 0) | 4 => (sendCell cj.1 1, 0, 0) | 5 => (sendCell cj.1 2, 0, 0)
  | 6 => (recvCell cj.1 0, 0, 0) | 7 => (recvCell cj.1 1, 0, 0) | 8 => (recvCell cj.1 2, 0, 0)

/-- The token's semaphore and duty, without the device. -/
abbrev tokKey : Fin 9 → SemLoc sig × Fin 3 := fun
  | 0 => (.reg barS, 0) | 1 => (.reg barS, 1) | 2 => (.reg barS, 2)
  | 3 => (.dma (sendSem 0), 0) | 4 => (.dma (sendSem 1), 0) | 5 => (.dma (sendSem 2), 0)
  | 6 => (.dma (recvSem 0), 0) | 7 => (.dma (recvSem 1), 0) | 8 => (.dma (recvSem 2), 0)

theorem tokKey_injective : Function.Injective tokKey := by decide

theorem tokOf_key (c : Dev nD) (j : Fin 9) : ((tokOf (c, j)).1.2, (tokOf (c, j)).2.2) = tokKey j := by
  fin_cases j <;> rfl

theorem tokOf_dev (c : Dev nD) (j : Fin 9) : (tokOf (c, j)).1.1.1 = c := by
  fin_cases j <;> rfl

theorem tokOf_injective : Function.Injective (tokOf : Dev nD × Fin 9 → GSem nD τ sig × ℕ × Fin 3) := by
  rintro ⟨c, j⟩ ⟨c', j'⟩ h
  have h1 : c = c' := by
    have := congrArg (fun x : GSem nD τ sig × ℕ × Fin 3 => x.1.1.1) h
    rw [tokOf_dev, tokOf_dev] at this; exact this
  subst h1
  have : j = j' := by
    have := congrArg (fun x : GSem nD τ sig × ℕ × Fin 3 => (x.1.2, x.2.2)) h
    rw [tokOf_key, tokOf_key] at this; exact tokKey_injective this
  subst this; rfl

def haloToks : Finset (GSem nD τ sig × ℕ × Fin 3) := Finset.univ.map ⟨tokOf, tokOf_injective⟩

/-- The launch element: the pipeline's staging cells and tokens beside the exchange's. -/
def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop((dutyTok ER (barCell c) 0 0 ∗ dutyTok ER (barCell c) 0 1 ∗ dutyTok ER (barCell c) 0 2)
    ∗ (dutyTok ER (sendCell c 0) 0 0 ∗ dutyTok ER (sendCell c 1) 0 0 ∗ dutyTok ER (sendCell c 2) 0 0)
    ∗ (dutyTok ER (recvCell c 0) 0 0 ∗ dutyTok ER (recvCell c 1) 0 0 ∗ dutyTok ER (recvCell c 2) 0 0))

/-- What the launch element deals device `c`: its seven cells' round states, positions and marks, its nine tokens. -/
def G (c : Dev nD) : sProp 𝕄 :=
  iprop((bigSep Finset.univ fun k : Fin 7 => roundState ER (xrd m ρ) (kcell (c, k)) 0)
    ∗ (bigSep Finset.univ fun k : Fin 7 => iprop(atPos ER (kcell (c, k)) 0 ∅ 0 ∗ reached ER (kcell (c, k)) 0)) ∗ toks c)

/-- What the global step makes of it: the ghost state the body starts from, under some names of the invariants. -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
/-- The launch element of the exchange, dealt device by device. -/
theorem fund_halo : BI.own (ER (initOf haloCells haloToks)) ⊢ (|==> bigSep Finset.univ (G m ρ) : sProp 𝕄) := by
  have hX (Φ : GSem nD τ sig → sProp 𝕄) : bigSep haloCells Φ = bigSep Finset.univ fun c : Dev nD => bigSep Finset.univ fun k : Fin 7 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    refine bigSep_congr fun c _ => ?_
    unfold toks; rw [bigSep_fin9]
    refine BI.Entails.antisymm (show _ ⊢ (_ : sProp 𝕄) from ?_) (show _ ⊢ (_ : sProp 𝕄) from ?_)
    · iintro ⟨H0, H1, H2, H3, H4, H5, H6, H7, H8⟩
      isplitl [H0 H1 H2]
      · isplitl [H0]; · iexact H0
        isplitl [H1] <;> iassumption
      isplitl [H3 H4 H5]
      · isplitl [H3]; · iexact H3
        isplitl [H4] <;> iassumption
      isplitl [H6]; · iexact H6
      isplitl [H7] <;> iassumption
    · iintro ⟨⟨H0, H1, H2⟩, ⟨H3, H4, H5⟩, H6, H7, H8⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7] <;> iassumption
  iintro HX
  imod (Rounds.fund ER (xrd m ρ) haloCells haloToks) $$ HX with ⟨Hst, Hr, Hat, Htok⟩
  imodintro
  ihave Hst' := (Entails.of_eq (hX fun g => roundState ER (xrd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the records shared, the tokens dealt along the axes -/

omit [FloatOps F] in
/-- The send and receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5] <;> iassumption

omit [FloatOps F] in
/-- One device's seven cells closed into invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xrd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (xrd m ρ) (kcell (c, k)) 0)
      ⊢ (|={Set.univ}=> bigSep Finset.univ fun k => iprop(∃ κ : ℕ, cellInv ER (xrd m ρ) κ (kcell (c, k))) : sProp 𝕄) from by
        rw [← bigSep_sep']
        exact (bigSep_mono fun k _ => (Rounds.body_intro ER (xrd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may read of every cell: its invariant under the name it was allocated at, and that its round 0
    is reached. -/
def records (K : Dev nD × Fin 7 → ℕ) : sProp 𝕄 :=
  iprop((bigSep Finset.univ fun ck : Dev nD × Fin 7 => cellInv ER (xrd m ρ) (K ck) (kcell ck))
    ∗ bigSep Finset.univ fun ck : Dev nD × Fin 7 => reached ER (kcell ck) 0)

instance records_persistent (K : Dev nD × Fin 7 → ℕ) : BI.Persistent (records m ρ K) := by unfold records; infer_instance

omit [FloatOps F] in
theorem inv_at (K : Dev nD × Fin 7 → ℕ) (ck : Dev nD × Fin 7) :
    (bigSep Finset.univ fun ck : Dev nD × Fin 7 => (cellInv ER (xrd m ρ) (K ck) (kcell ck) : sProp 𝕄)) ⊢ cellInv ER (xrd m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(positions c ∗ payToks c)

omit [FloatOps F] in
theorem ghost_intro (K : Dev nD × Fin 7 → ℕ) (c : Dev nD) : iprop(records m ρ K ∗ linear c) ⊢ G' m ρ c := by
  unfold records linear G' ghost invs marks
  iintro ⟨⟨#HI, #HR⟩, Hpos, Htok⟩
  iexists K
  isplitr
  · isplitr; · iapply (inv_at m ρ K (c, 0)); iexact HI
    isplitr
    · isplitr; · iapply (inv_at m ρ K (c, 1)); iexact HI
      isplitr; · iapply (inv_at m ρ K (c, 2)); iexact HI
      iapply (inv_at m ρ K (c, 3)); iexact HI
    isplitr
    · isplitr; · iapply (inv_at m ρ K (c, 4)); iexact HI
      isplitr; · iapply (inv_at m ρ K (c, 5)); iexact HI
      iapply (inv_at m ρ K (c, 6)); iexact HI
    isplitr
    · isplitr; · iapply (inv_at m ρ K (nbr 0 c, 0)); iexact HI
      isplitr; · iapply (inv_at m ρ K (nbr 1 c, 0)); iexact HI
      iapply (inv_at m ρ K (nbr 2 c, 0)); iexact HI
    · isplitr; · iapply (inv_at m ρ K (nbr 0 c, 4)); iexact HI
      isplitr; · iapply (inv_at m ρ K (nbr 1 c, 5)); iexact HI
      iapply (inv_at m ρ K (nbr 2 c, 6)); iexact HI
  isplitl [Hpos]; · iexact Hpos
  isplitr
  · isplitr
    · isplitr; · iapply (reached_at (F := F) (nbr 0 c, 0)); iexact HR
      isplitr; · iapply (reached_at (F := F) (nbr 1 c, 0)); iexact HR
      iapply (reached_at (F := F) (nbr 2 c, 0)); iexact HR
    isplitr
    · isplitr; · iapply (reached_at (F := F) (nbr 0 c, 4)); iexact HR
      isplitr; · iapply (reached_at (F := F) (nbr 1 c, 5)); iexact HR
      iapply (reached_at (F := F) (nbr 2 c, 6)); iexact HR
    isplitr
    · isplitr; · iapply (reached_at (F := F) (c, 1)); iexact HR
      isplitr; · iapply (reached_at (F := F) (c, 2)); iexact HR
      iapply (reached_at (F := F) (c, 3)); iexact HR
    · isplitr; · iapply (reached_at (F := F) (c, 4)); iexact HR
      isplitr; · iapply (reached_at (F := F) (c, 5)); iexact HR
      iapply (reached_at (F := F) (c, 6)); iexact HR
  iexact Htok

omit [FloatOps F] in
/-- The tokens dealt along the mesh axes: duty `a` of a barrier cell and the duty of the receive cell of axis `a` go to
    the neighbour along `a`; the send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (flip 0) (fun c : Dev nD => (dutyTok ER (barCell c) 0 0 : sProp 𝕄)),
    bigSep_univ_equiv (flip 1) (fun c : Dev nD => (dutyTok ER (barCell c) 0 1 : sProp 𝕄)),
    bigSep_univ_equiv (flip 2) (fun c : Dev nD => (dutyTok ER (barCell c) 0 2 : sProp 𝕄)),
    bigSep_univ_equiv (flip 0) (fun c : Dev nD => (dutyTok ER (recvCell c 0) 0 0 : sProp 𝕄)),
    bigSep_univ_equiv (flip 1) (fun c : Dev nD => (dutyTok ER (recvCell c 1) 0 0 : sProp 𝕄)),
    bigSep_univ_equiv (flip 2) (fun c : Dev nD => (dutyTok ER (recvCell c 2) 0 0 : sProp 𝕄))]
  iintro ⟨HB, HS, HR⟩
  isplitl [HB]; · iexact HB
  isplitl [HR]; · iexact HR
  iexact HS

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem positions_eq (c : Dev nD) : (bigSep Finset.univ fun k : Fin 7 => (atPos ER (kcell (c, k)) 0 ∅ 0 : sProp 𝕄)) ⊢ positions c := by
  rw [bigSep_fin7]; unfold positions
  iintro ⟨H0, H1, H2, H3, H4, H5, H6⟩
  isplitl [H0]; · iexact H0
  isplitl [H1 H2 H3]
  · isplitl [H1]; · iexact H1
    isplitl [H2] <;> iassumption
  isplitl [H4]; · iexact H4
  isplitl [H5] <;> iassumption

omit [FloatOps F] in
theorem regroup :
    (bigSep Finset.univ fun c : Dev nD => iprop((bigSep Finset.univ fun k => iprop(∃ κ : ℕ, cellInv ER (xrd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (xrd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (xrd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from by unfold linear; exact sep_mono_left (positions_eq c)))
    isplitl [Hat]; · iexact Hat
    iexact Htk

omit [FloatOps F] in
/-- The global step: the own and the barrier semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- What each device owes, summand by summand: a face to the receive cell of each neighbour, a unit to its barrier cell. -/
theorem O₀_eq : (O₀ : Dev nD → CellTallies nD τ sig Unit) = fun d =>
    tallyAt (recvCell (nbr 2 d) 2) () Nx + tallyAt (recvCell (nbr 1 d) 1) () Nx + tallyAt (recvCell (nbr 0 d) 0) () Nx
      + tallyAt (barCell (nbr 2 d)) () 1 + tallyAt (barCell (nbr 1 d)) () 1 + tallyAt (barCell (nbr 0 d)) () 1 := rfl

omit [FloatOps F] in
/-- Three unit credits on one cell are its credit of three. -/
theorem cred_three (g : GSem nD τ sig) :
    iprop(cred (tallyAt g () 1) ∗ cred (tallyAt g () 1) ∗ cred (tallyAt g () 1)) ⊢ (cred (tallyAt g () 3) : sProp 𝕄) := by
  have h : (tallyAt g () 3 : CellTallies nD τ sig Unit) = tallyAt g () 1 + (tallyAt g () 1 + tallyAt g () 1) := by
    rw [tallyAt_add, tallyAt_add]
  rw [h]
  exact (sep_mono_right (cred_add _ _).2).trans (cred_add _ _).2

omit [FloatOps F] in
/-- The neighbours' dues, summed over the mesh, are each device's own waits' credit: every axis is an involution. -/
theorem creds_intro (c : Dev nD) : (Pipeline.launchCred O₀ c : sProp 𝕄) ⊢ creds c := by
  rw [O₀_eq, Pipeline.launchCred_add, Pipeline.launchCred_add, Pipeline.launchCred_add, Pipeline.launchCred_add, Pipeline.launchCred_add]
  unfold creds
  iintro ⟨⟨⟨⟨⟨HR2, HR1⟩, HR0⟩, HB2⟩, HB1⟩, HB0⟩
  ihave HR2' := (Pipeline.launchCred_tallyAt (.dma (recvSem 2)) (nbr 2) (nbr 2) (nbr_nbr 2) (nbr_nbr 2) () Nx c) $$ HR2
  ihave HR1' := (Pipeline.launchCred_tallyAt (.dma (recvSem 1)) (nbr 1) (nbr 1) (nbr_nbr 1) (nbr_nbr 1) () Nx c) $$ HR1
  ihave HR0' := (Pipeline.launchCred_tallyAt (.dma (recvSem 0)) (nbr 0) (nbr 0) (nbr_nbr 0) (nbr_nbr 0) () Nx c) $$ HR0
  ihave HB2' := (Pipeline.launchCred_tallyAt (.reg barS) (nbr 2) (nbr 2) (nbr_nbr 2) (nbr_nbr 2) () 1 c) $$ HB2
  ihave HB1' := (Pipeline.launchCred_tallyAt (.reg barS) (nbr 1) (nbr 1) (nbr_nbr 1) (nbr_nbr 1) () 1 c) $$ HB1
  ihave HB0' := (Pipeline.launchCred_tallyAt (.reg barS) (nbr 0) (nbr 0) (nbr_nbr 0) (nbr_nbr 0) () 1 c) $$ HB0
  isplitl [HB0' HB1' HB2']
  · iapply (cred_three (F := F) (barCell c))
    isplitl [HB0']; · iexact HB0'
    isplitl [HB1'] <;> iassumption
  isplitl [HR0']; · iexact HR0'
  isplitl [HR1'] <;> iassumption

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H0, H1⟩
  isplitl [Hs]; · iexact Hs
  isplitl [H0] <;> iassumption

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨H0, H1, ⟨S0, S1, S2⟩, R0, R1, R2⟩
  isplitr; · iempintro
  isplitl [S0 S1 S2 R0 R1 R2]
  · isplitl [S0]; · iexact S0
    isplitl [S1]; · iexact S1
    isplitl [S2]; · iexact S2
    isplitl [R0]; · iexact R0
    isplitl [R1] <;> iassumption
  isplitl [H0] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each windowed array after the run, as the proof data compute it. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main terminates, and every final state has each device's two windowed arrays at the computed contents. -/
theorem run_main : θ_run defs (onTc (τ := τ) (main (F := F))) (s₀ m ρ) (QC m ρ) := by
  exact
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_halo m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the device's result block: its one window is the whole array, written back
    at the one point with what the body left in the staging buffer. -/
theorem finalA_out (c : Dev nD) : finalA m ρ c (1 : Fin 2) = outAt m ρ c := by
  unfold finalA
  rw [show cfg0.N = (t₀ : Fin cfg0.N).val + 1 from rfl, (dats m ρ 0 c).arrAt_succ (1 : Fin 2) t₀,
    if_pos (show (cfg0.win 1).flush t₀ = true from rfl)]
  exact ((Memref.read_access_unit_zero (Elt F) main_v1 (off := fun a => (cfg0.win 1).index t₀ a * (cfg0.win 1).size a)
      (funext fun a => Nat.zero_mul _) _ _).symm.trans (View.read_write_univ _ _))

/-- info: 'Cert.KernelIdeal.Halo.run_main' depends on axioms: [propext, Classical.choice, Quot.sound] -/
#guard_msgs in #print axioms run_main

end Cert.KernelIdeal.Halo

end
-- ==== Proof.Value.lean ====
/-
  The value of the whole mesh: every device's result block is its block of the reference's result.
-/
import proofs.«900534_g7700000000000535_dist_halo3d_v7x_xyz2x2x2_s32_f32_1_alg».proof.Proof.KernelIdeal.Result
import proofs.«900534_g7700000000000535_dist_halo3d_v7x_xyz2x2x2_s32_f32_1_alg».proof.Proof.Gen.ReferenceIdeal.Read
import Idealize.ShloMosaic.Lib.Layout
import Idealize.ShloMosaic.Lib.Pipeline.Value
import Idealize.ShloMosaic.Lib.ValueIdx
import Idealize.ShloMosaic.PureOps.Ideal.Laws

noncomputable section

namespace Cert.HaloValue

open Idealize.ShloMosaic Cert.KernelIdeal Cert.KernelIdeal.Halo

/-- Device `c'`'s block of the whole 64³ array `U`. -/
abbrev blockOf (U : (⟨Cert.ReferenceIdeal.S64x64x64, .f32⟩ : BufTy).Contents (Elt Ideal)) (c' : Dev nD) :
    Vec Ideal S32x32x32 .f32 :=
  Layout.blockN ⟨3, ![32, 32, 32]⟩ ⟨3, ![64, 64, 64]⟩ (Layout.meshBlock [2, 2, 2] ![[0], [1], [2]] c') U

/-! ## The stencil over a function of three natural coordinates -/

/-- The constant the stencil multiplies the centre by. -/
abbrev six : EReal := Ideal.ofBits .f32 0x40C00000#32

/-- The 7-point stencil of `g` at `(x, y, z)`, summed in the reference's order. -/
def stencil (g : ℕ → ℕ → ℕ → EReal) (x y z : ℕ) : EReal :=
  (((((g (x - 1) y z + g (x + 1) y z) + g x (y - 1) z) + g x (y + 1) z) + g x y (z - 1)) + g x y (z + 1)) - six * g x y z

/-! ## A left fold of updates, read at one place -/

section Fold
variable {ι I α : Type}

/-- A fold of steps none of which touches the place `i'` leaves the value there. -/
theorem foldl_at_of_none (step : (I → α) → ι → (I → α)) (hit : ι → Prop) (i' : I)
    (h_none : ∀ r n, ¬ hit n → step r n i' = r i') :
    ∀ (l : List ι) (x : I → α), (∀ n ∈ l, ¬ hit n) → (l.foldl step x) i' = x i'
  | [], _, _ => rfl
  | a :: l, x, h => by
    rw [List.foldl_cons, foldl_at_of_none step hit i' h_none l (step x a) (fun n hn => h n (List.mem_cons_of_mem _ hn)),
      h_none x a (h a (List.mem_cons_self ..))]

/-- A fold of steps, some of which write the place `i'`, every such step writing the value `w` there and the
    others leaving it, ends with `w` there. -/
theorem foldl_at_of_some (step : (I → α) → ι → (I → α)) (hit : ι → Prop) (i' : I) (w : α)
    (h_none : ∀ r n, ¬ hit n → step r n i' = r i') (h_some : ∀ r n, hit n → step r n i' = w) :
    ∀ (l : List ι) (x : I → α), (∃ n ∈ l, hit n) → (l.foldl step x) i' = w
  | [], _, h => by obtain ⟨n, hn, _⟩ := h; cases hn
  | a :: l, x, h => by
    rw [List.foldl_cons]
    by_cases hl : ∃ n ∈ l, hit n
    · exact foldl_at_of_some step hit i' w h_none h_some l (step x a) hl
    · have hl' : ∀ n ∈ l, ¬ hit n := fun n hn hh => hl ⟨n, hn, hh⟩
      rw [foldl_at_of_none step hit i' h_none l (step x a) hl']
      obtain ⟨n, hn, hh⟩ := h
      rcases List.mem_cons.1 hn with rfl | hn'
      · exact h_some x n hh
      · exact absurd hh (hl' n hn')

end Fold

/-! ## A scatter whose body returns the update, read at an index -/

section Scatter
variable {α : Type} {s si u : Shape} {w : Nat}

/-- An index no update lands at keeps the operand's element. -/
theorem scatter_set_apply_of_miss (d : ScatterDims s si u) (x : s.Idx → α) (idx : IVec si w) (upd : u.Idx → α)
    (i' : s.Idx) (hmiss : ∀ j, d.resultIdx? j idx ≠ some i') :
    Host.scatter d (fun _ b => b) x idx upd i' = x i' := by
  unfold Host.scatter
  refine foldl_at_of_none _ (fun n => d.resultIdx? (u.rowMajor.symm n) idx = some i') i' ?_ _ x
    (fun n _ => hmiss _)
  intro r n hn
  dsimp only
  generalize d.resultIdx? (u.rowMajor.symm n) idx = o at hn
  cases o with
  | none => rfl
  | some i =>
    have hne : ¬ i' = i := fun e => hn (by rw [e])
    show (if i' = i then _ else _) = _
    rw [if_neg hne]

/-- An index the updates land at, all of them with the value `v`, holds `v`. -/
theorem scatter_set_apply_of_hit (d : ScatterDims s si u) (x : s.Idx → α) (idx : IVec si w) (upd : u.Idx → α)
    (i' : s.Idx) (v : α) (j : u.Idx) (hj : d.resultIdx? j idx = some i')
    (hv : ∀ j', d.resultIdx? j' idx = some i' → upd j' = v) :
    Host.scatter d (fun _ b => b) x idx upd i' = v := by
  unfold Host.scatter
  refine foldl_at_of_some _ (fun n => d.resultIdx? (u.rowMajor.symm n) idx = some i') i' v ?_ ?_ _ x
    ⟨u.rowMajor j, List.mem_finRange _, by rw [Equiv.symm_apply_apply]; exact hj⟩
  · intro r n hn
    dsimp only
    generalize d.resultIdx? (u.rowMajor.symm n) idx = o at hn
    cases o with
    | none => rfl
    | some i =>
      have hne : ¬ i' = i := fun e => hn (by rw [e])
      show (if i' = i then _ else _) = _
      rw [if_neg hne]
  · intro r n hn
    have hv' := hv _ hn
    dsimp only at hn ⊢
    generalize d.resultIdx? (u.rowMajor.symm n) idx = o at hn
    subst hn
    show (if i' = i' then _ else _) = _
    rw [if_pos rfl]
    exact hv'

end Scatter

/-! ## The reference's scatter: where each update lands -/

section RefScatter
open Cert.ReferenceIdeal Cert.ReferenceIdeal.Read

/-- Every component of the reference's one scatter index is the word `1`. -/
theorem ref_v19_apply (k : Cert.ReferenceIdeal.S3.Idx) : val_main_v19 (F := Ideal) k = 1#32 := by
  have hk : (k 0).val < 3 := (k 0).isLt
  unfold val_main_v19
  rcases (show (k 0).val = 0 ∨ (k 0).val = 1 ∨ (k 0).val = 2 by omega) with h | h | h
  · refine (concatenate_apply_piece (α := BitVec 32) (t := Cert.ReferenceIdeal.S3) (0 : Fin 1)
      [⟨Cert.ReferenceIdeal.S1, val_main_v16 (F := Ideal)⟩, ⟨Cert.ReferenceIdeal.S1, val_main_v17 (F := Ideal)⟩, ⟨Cert.ReferenceIdeal.S1, val_main_v18 (F := Ideal)⟩]
      Cert.ReferenceIdeal.Gen.concatenates_S1_S1_S1_S3_d0 k 0 (by decide) Cert.ReferenceIdeal.S1 (val_main_v16 (F := Ideal)) rfl rfl 0 rfl
      (ValueIdx.ix1 (0 : Fin 1)) (fun b hb => absurd (Subsingleton.elim _ _) hb) (by show 0 + 0 = (k 0).val; omega)).trans ?_
    rw [val_main_v16_apply]; rfl
  · refine (concatenate_apply_piece (α := BitVec 32) (t := Cert.ReferenceIdeal.S3) (0 : Fin 1)
      [⟨Cert.ReferenceIdeal.S1, val_main_v16 (F := Ideal)⟩, ⟨Cert.ReferenceIdeal.S1, val_main_v17 (F := Ideal)⟩, ⟨Cert.ReferenceIdeal.S1, val_main_v18 (F := Ideal)⟩]
      Cert.ReferenceIdeal.Gen.concatenates_S1_S1_S1_S3_d0 k 1 (by decide) Cert.ReferenceIdeal.S1 (val_main_v17 (F := Ideal)) rfl rfl 1 rfl
      (ValueIdx.ix1 (0 : Fin 1)) (fun b hb => absurd (Subsingleton.elim _ _) hb) (by show 1 + 0 = (k 0).val; omega)).trans ?_
    rw [val_main_v17_apply]; rfl
  · refine (concatenate_apply_piece (α := BitVec 32) (t := Cert.ReferenceIdeal.S3) (0 : Fin 1)
      [⟨Cert.ReferenceIdeal.S1, val_main_v16 (F := Ideal)⟩, ⟨Cert.ReferenceIdeal.S1, val_main_v17 (F := Ideal)⟩, ⟨Cert.ReferenceIdeal.S1, val_main_v18 (F := Ideal)⟩]
      Cert.ReferenceIdeal.Gen.concatenates_S1_S1_S1_S3_d0 k 2 (by decide) Cert.ReferenceIdeal.S1 (val_main_v18 (F := Ideal)) rfl rfl 2 rfl
      (ValueIdx.ix1 (0 : Fin 1)) (fun b hb => absurd (Subsingleton.elim _ _) hb) (by show 2 + 0 = (k 0).val; omega)).trans ?_
    rw [val_main_v18_apply]; rfl

/-- The window of update index `j` starts at `1` on every axis of the operand. -/
theorem ref_start (j : Cert.ReferenceIdeal.S62x62x62.Idx) (a : Fin 3) :
    scatter_S64x64x64_S3_S62x62x62_012_n_012_0.start j (val_main_v19 (F := Ideal)) a = 1 := by
  unfold ScatterDims.start
  have ha : a ∈ scatter_S64x64x64_S3_S62x62x62_012_n_012_0.scatterDimsToOperandDims := by
    show a ∈ ([0, 1, 2] : List (Fin 3))
    revert a; decide
  rw [dif_pos ha, ref_v19_apply]
  rfl

/-- The window coordinate of update index `j` on operand axis `a` is `j`'s coordinate there. -/
theorem ref_window (j : Cert.ReferenceIdeal.S62x62x62.Idx) (a : Fin 3) :
    scatter_S64x64x64_S3_S62x62x62_012_n_012_0.window j a = (j a).val := by
  match a with
  | ⟨0, _⟩ => rfl
  | ⟨1, _⟩ => rfl
  | ⟨2, _⟩ => rfl

end RefScatter

/-! ## The whole array by natural coordinates, and the reference's result read at an index -/

section RefRead
open Cert.ReferenceIdeal Cert.ReferenceIdeal.Read ValueIdx

/-- The whole array as a function of three natural coordinates (`0` past the array's end, where nothing reads it). -/
def ext (U : (⟨Cert.ReferenceIdeal.S64x64x64, .f32⟩ : BufTy).Contents (Elt Ideal)) (a b c : ℕ) : EReal :=
  if h : a < 64 ∧ b < 64 ∧ c < 64 then U (ix3 ⟨a, h.1⟩ ⟨b, h.2.1⟩ ⟨c, h.2.2⟩) else 0

theorem ext_idx (U : (⟨Cert.ReferenceIdeal.S64x64x64, .f32⟩ : BufTy).Contents (Elt Ideal)) (i : Cert.ReferenceIdeal.S64x64x64.Idx) :
    U i = ext U (i 0).val (i 1).val (i 2).val := by
  unfold ext
  rw [dif_pos ⟨(i 0).isLt, (i 1).isLt, (i 2).isLt⟩]
  exact congrArg U (eq_ix3 i)

theorem ext_congr (U : (⟨Cert.ReferenceIdeal.S64x64x64, .f32⟩ : BufTy).Contents (Elt Ideal)) {a b c a' b' c' : ℕ}
    (ha : a = a') (hb : b = b') (hc : c = c') : ext U a b c = ext U a' b' c' := by
  subst ha hb hc; rfl

/-- Every update index lands inside the operand, one further along each axis. -/
theorem ref_resultIdx (j : Cert.ReferenceIdeal.S62x62x62.Idx) :
    ∃ i, scatter_S64x64x64_S3_S62x62x62_012_n_012_0.resultIdx? j (val_main_v19 (F := Ideal)) = some i ∧
      ∀ a, (i a).val = 1 + (j a).val := by
  have hj : ∀ a : Fin 3, (j a).val < 62 := fun a => by
    match a with
    | ⟨0, _⟩ => exact (j 0).isLt
    | ⟨1, _⟩ => exact (j 1).isLt
    | ⟨2, _⟩ => exact (j 2).isLt
  have hs : ∀ a : Fin 3, Cert.ReferenceIdeal.S64x64x64.size a = 64 := fun a => by
    match a with
    | ⟨0, _⟩ => rfl
    | ⟨1, _⟩ => rfl
    | ⟨2, _⟩ => rfl
  have H : ∀ a, 0 ≤ scatter_S64x64x64_S3_S62x62x62_012_n_012_0.start j (val_main_v19 (F := Ideal)) a
        + scatter_S64x64x64_S3_S62x62x62_012_n_012_0.window j a ∧
      scatter_S64x64x64_S3_S62x62x62_012_n_012_0.start j (val_main_v19 (F := Ideal)) a
        + scatter_S64x64x64_S3_S62x62x62_012_n_012_0.window j a < Cert.ReferenceIdeal.S64x64x64.size a := by
    intro a
    rw [ref_start, ref_window, hs]
    have := hj a
    omega
  unfold ScatterDims.resultIdx?
  rw [dif_pos H]
  refine ⟨_, rfl, fun a => ?_⟩
  show (scatter_S64x64x64_S3_S62x62x62_012_n_012_0.start j (val_main_v19 (F := Ideal)) a
        + scatter_S64x64x64_S3_S62x62x62_012_n_012_0.window j a).toNat = _
  rw [ref_start, ref_window]
  omega

end RefRead

section RefApply
open Cert.ReferenceIdeal Cert.ReferenceIdeal.Read ValueIdx

/-- The update at index `j` is the stencil one further along each axis. -/
theorem ref_update (U : (⟨Cert.ReferenceIdeal.S64x64x64, .f32⟩ : BufTy).Contents (Elt Ideal)) (j : Cert.ReferenceIdeal.S62x62x62.Idx)
    (x y z : ℕ) (hx : 1 + (j 0).val = x) (hy : 1 + (j 1).val = y) (hz : 1 + (j 2).val = z) :
    val_main_v15 (F := Ideal) U j = stencil (ext U) x y z := by
  have t1 : U (idx_main_v1 j) = ext U (x - 1) y z :=
    (ext_idx U (idx_main_v1 j)).trans (ext_congr U (by show (j 0).val = _; omega) (by show 1 + (j 1).val = _; omega) (by show 1 + (j 2).val = _; omega))
  have t2 : U (idx_main_v2 j) = ext U (x + 1) y z :=
    (ext_idx U (idx_main_v2 j)).trans (ext_congr U (by show 2 + (j 0).val = _; omega) (by show 1 + (j 1).val = _; omega) (by show 1 + (j 2).val = _; omega))
  have t4 : U (idx_main_v4 j) = ext U x (y - 1) z :=
    (ext_idx U (idx_main_v4 j)).trans (ext_congr U (by show 1 + (j 0).val = _; omega) (by show (j 1).val = _; omega) (by show 1 + (j 2).val = _; omega))
  have t6 : U (idx_main_v6 j) = ext U x (y + 1) z :=
    (ext_idx U (idx_main_v6 j)).trans (ext_congr U (by show 1 + (j 0).val = _; omega) (by show 2 + (j 1).val = _; omega) (by show 1 + (j 2).val = _; omega))
  have t8 : U (idx_main_v8 j) = ext U x y (z - 1) :=
    (ext_idx U (idx_main_v8 j)).trans (ext_congr U (by show 1 + (j 0).val = _; omega) (by show 1 + (j 1).val = _; omega) (by show (j 2).val = _; omega))
  have t10 : U (idx_main_v10 j) = ext U x y (z + 1) :=
    (ext_idx U (idx_main_v10 j)).trans (ext_congr U (by show 1 + (j 0).val = _; omega) (by show 1 + (j 1).val = _; omega) (by show 2 + (j 2).val = _; omega))
  have t12 : U (idx_main_v12 j) = ext U x y z :=
    (ext_idx U (idx_main_v12 j)).trans (ext_congr U (by show 1 + (j 0).val = _; omega) (by show 1 + (j 1).val = _; omega) (by show 1 + (j 2).val = _; omega))
  rw [val_main_v15_apply, val_main_v11_apply, val_main_v9_apply, val_main_v7_apply, val_main_v5_apply, val_main_v3_apply,
    val_main_v14_apply, val_main_v13_apply, val_main_cst_0_apply,
    val_main_v1_apply, val_main_v2_apply, val_main_v4_apply, val_main_v6_apply, val_main_v8_apply, val_main_v10_apply,
    val_main_v12_apply, t1, t2, t4, t6, t8, t10, t12]
  rfl

/-- The reference's result at the index `(x, y, z)` of the whole array: the stencil strictly inside, `0` on the boundary. -/
theorem ref_apply (U : (⟨Cert.ReferenceIdeal.S64x64x64, .f32⟩ : BufTy).Contents (Elt Ideal)) (x y z : Fin 64) :
    val_main_v20 (F := Ideal) U (ix3 x y z) =
      if ((((0 < x.val ∧ x.val < 63) ∧ 0 < y.val) ∧ y.val < 63) ∧ 0 < z.val) ∧ z.val < 63 then stencil (ext U) x.val y.val z.val
      else 0 := by
  unfold val_main_v20
  by_cases h : ((((0 < x.val ∧ x.val < 63) ∧ 0 < y.val) ∧ y.val < 63) ∧ 0 < z.val) ∧ z.val < 63
  · rw [if_pos h]
    obtain ⟨⟨⟨⟨⟨hx1, hx2⟩, hy1⟩, hy2⟩, hz1⟩, hz2⟩ := h
    obtain ⟨i, hi, hiv⟩ := ref_resultIdx (ix3 (⟨x.val - 1, by omega⟩ : Fin 62) (⟨y.val - 1, by omega⟩ : Fin 62) (⟨z.val - 1, by omega⟩ : Fin 62))
    have hie : i = ix3 x y z := by
      funext a
      match a with
      | ⟨0, _⟩ => exact Fin.ext (by have := hiv 0; show (i 0).val = x.val; rw [this]; show 1 + (x.val - 1) = _; omega)
      | ⟨1, _⟩ => exact Fin.ext (by have := hiv 1; show (i 1).val = y.val; rw [this]; show 1 + (y.val - 1) = _; omega)
      | ⟨2, _⟩ => exact Fin.ext (by have := hiv 2; show (i 2).val = z.val; rw [this]; show 1 + (z.val - 1) = _; omega)
    rw [hie] at hi
    refine scatter_set_apply_of_hit _ _ _ _ _ _ _ hi (fun j' hj' => ?_)
    obtain ⟨i', hi', hiv'⟩ := ref_resultIdx j'
    rw [hj'] at hi'
    have hii : ix3 x y z = i' := Option.some.inj hi'
    refine ref_update U j' _ _ _ ?_ ?_ ?_
    · rw [← hiv' 0, ← hii]
    · rw [← hiv' 1, ← hii]
    · rw [← hiv' 2, ← hii]
  · rw [if_neg h]
    refine (scatter_set_apply_of_miss _ _ _ _ _ (fun j hj => h ?_)).trans ?_
    · obtain ⟨i', hi', hiv'⟩ := ref_resultIdx j
      rw [hj] at hi'
      have hii : ix3 x y z = i' := Option.some.inj hi'
      have h0 : x.val = 1 + (j 0).val := by rw [← hiv' 0, ← hii]
      have h1 : y.val = 1 + (j 1).val := by rw [← hiv' 1, ← hii]
      have h2 : z.val = 1 + (j 2).val := by rw [← hiv' 2, ← hii]
      have b0 : (j 0).val < 62 := (j 0).isLt
      have b1 : (j 1).val < 62 := (j 1).isLt
      have b2 : (j 2).val < 62 := (j 2).isLt
      omega
    · rw [val_main_v0_apply, val_main_cst_apply]
      exact Ideal.ofBits_zero_f32

end RefApply

/-! ## Words: the device's coordinate words, the face masks and the interior mask at one element -/

section Words

/-- The device's three mesh coordinates as natural numbers. -/
def cx (c : Dev nD) : ℕ := c.val / 4
def cy (c : Dev nD) : ℕ := c.val / 2 % 2
def cz (c : Dev nD) : ℕ := c.val % 2

theorem cx_lt (c : Dev nD) : cx c < 2 := by revert c; decide
theorem cy_lt (c : Dev nD) : cy c < 2 := by revert c; decide
theorem cz_lt (c : Dev nD) : cz c < 2 := by revert c; decide

/-- The coordinate words the body computes are those coordinates. -/
theorem wx_eq (c : Dev nD) : wx c = BitVec.ofNat 32 (cx c) := by revert c; decide
theorem wy_eq (c : Dev nD) : wy c = BitVec.ofNat 32 (cy c) := by revert c; decide
theorem wz_eq (c : Dev nD) : wz c = BitVec.ofNat 32 (cz c) := by revert c; decide

/-- The neighbour along an axis has that coordinate flipped and the other two kept. -/
theorem cx_nbr0 (c : Dev nD) : cx (nbr 0 c) = 1 - cx c := by revert c; decide
theorem cy_nbr0 (c : Dev nD) : cy (nbr 0 c) = cy c := by revert c; decide
theorem cz_nbr0 (c : Dev nD) : cz (nbr 0 c) = cz c := by revert c; decide
theorem cx_nbr1 (c : Dev nD) : cx (nbr 1 c) = cx c := by revert c; decide
theorem cy_nbr1 (c : Dev nD) : cy (nbr 1 c) = 1 - cy c := by revert c; decide
theorem cz_nbr1 (c : Dev nD) : cz (nbr 1 c) = cz c := by revert c; decide
theorem cx_nbr2 (c : Dev nD) : cx (nbr 2 c) = cx c := by revert c; decide
theorem cy_nbr2 (c : Dev nD) : cy (nbr 2 c) = cy c := by revert c; decide
theorem cz_nbr2 (c : Dev nD) : cz (nbr 2 c) = 1 - cz c := by revert c; decide

/-- A select on "the coordinate word is 0" is the `if` on the coordinate. -/
theorem select_coord {α : Type} (k : ℕ) (hk : k < 2) (A B : α) :
    Scalar.select (Scalar.cmpi .eq (BitVec.ofNat 32 k) 0#32) A B = if k = 0 then A else B :=
  ValueIdx.select_eq0 k hk A B

/-- The face mask's word at coordinate `p` of a device with coordinate `k`: `1` on the layer that touches the
    neighbour (31 when `k = 0`, 0 when `k = 1`), else `0`. -/
theorem mask_word : ∀ (k : Fin 2) (p : Fin 32),
    (IntOp.cmpi .eq (BitVec.ofNat 32 p.val) (Scalar.select (Scalar.cmpi .eq (BitVec.ofNat 32 k.val) 0#32) 31#32 0#32)).setWidth 32
      = if p.val = (if k.val = 0 then 31 else 0) then 1#32 else 0#32 := by decide

/-- The two bounds of the interior test at coordinate `p` of a device with coordinate `k`. -/
theorem sgt_word : ∀ (k : Fin 2) (p : Fin 32),
    IntOp.cmpi .sgt (IntOp.addi (BitVec.ofNat 32 p.val) (Scalar.muli (BitVec.ofNat 32 k.val) 32#32)) 0#32
      = if 0 < 32 * k.val + p.val then 1#1 else 0#1 := by decide
theorem slt_word : ∀ (k : Fin 2) (p : Fin 32),
    IntOp.cmpi .slt (IntOp.addi (BitVec.ofNat 32 p.val) (Scalar.muli (BitVec.ofNat 32 k.val) 32#32)) 63#32
      = if 32 * k.val + p.val < 63 then 1#1 else 0#1 := by decide

/-- The conjunction of two decided bits. -/
theorem andi_ite (P Q : Prop) [Decidable P] [Decidable Q] :
    IntOp.andi (if P then 1#1 else 0#1) (if Q then 1#1 else 0#1) = if P ∧ Q then 1#1 else 0#1 := by
  by_cases hP : P <;> by_cases hQ : Q <;> simp [hP, hQ, IntOp.andi]

/-- The signed conversion of the mask's word. -/
theorem sitofp_ite (P : Prop) [Decidable P] :
    FloatOps.sitofp (F := Ideal) .f32 (if P then 1#32 else 0#32) = if P then (1 : EReal) else 0 := by
  by_cases hP : P
  · rw [if_pos hP, if_pos hP]
    show (((1#32 : BitVec 32).toInt : ℝ) : EReal) = 1
    have : (1#32 : BitVec 32).toInt = 1 := by decide
    rw [this]; simp
  · rw [if_neg hP, if_neg hP]
    show (((0#32 : BitVec 32).toInt : ℝ) : EReal) = 0
    have : (0#32 : BitVec 32).toInt = 0 := by decide
    rw [this]; simp

end Words

/-! ## Shape casts that add or drop one unit axis of a 32×32 array, read at an index -/

section Casts
open ValueIdx
variable {α : Type}

theorem cast_drop0 (x : S1x32x32.Idx → α) (h : S1x32x32.ShapeCasts S32x32) (a b : Fin 32) (z : Fin 1) :
    shapeCast S32x32 x h (ix2 a b) = x (ix3 z a b) :=
  shapeCast_apply x h _ _ (by
    rw [Shape.rowMajor_val_three, Shape.rowMajor_val_two]
    show (z.val * 32 + a.val) * 32 + b.val = a.val * 32 + b.val
    have := z.isLt; omega)

theorem cast_drop1 (x : S32x1x32.Idx → α) (h : S32x1x32.ShapeCasts S32x32) (a b : Fin 32) (z : Fin 1) :
    shapeCast S32x32 x h (ix2 a b) = x (ix3 a z b) :=
  shapeCast_apply x h _ _ (by
    rw [Shape.rowMajor_val_three, Shape.rowMajor_val_two]
    show (a.val * 1 + z.val) * 32 + b.val = a.val * 32 + b.val
    have := z.isLt; omega)

theorem cast_drop2 (x : S32x32x1.Idx → α) (h : S32x32x1.ShapeCasts S32x32) (a b : Fin 32) (z : Fin 1) :
    shapeCast S32x32 x h (ix2 a b) = x (ix3 a b z) :=
  shapeCast_apply x h _ _ (by
    rw [Shape.rowMajor_val_three, Shape.rowMajor_val_two]
    show (a.val * 32 + b.val) * 1 + z.val = a.val * 32 + b.val
    have := z.isLt; omega)

theorem cast_add0 (y : S32x32.Idx → α) (h : S32x32.ShapeCasts S1x32x32) (a b : Fin 32) (z : Fin 1) :
    shapeCast S1x32x32 y h (ix3 z a b) = y (ix2 a b) :=
  shapeCast_apply y h _ _ (by
    rw [Shape.rowMajor_val_three, Shape.rowMajor_val_two]
    show a.val * 32 + b.val = (z.val * 32 + a.val) * 32 + b.val
    have := z.isLt; omega)

theorem cast_add1 (y : S32x32.Idx → α) (h : S32x32.ShapeCasts S32x1x32) (a b : Fin 32) (z : Fin 1) :
    shapeCast S32x1x32 y h (ix3 a z b) = y (ix2 a b) :=
  shapeCast_apply y h _ _ (by
    rw [Shape.rowMajor_val_three, Shape.rowMajor_val_two]
    show a.val * 32 + b.val = (a.val * 1 + z.val) * 32 + b.val
    have := z.isLt; omega)

theorem cast_add2 (y : S32x32.Idx → α) (h : S32x32.ShapeCasts S32x32x1) (a b : Fin 32) (z : Fin 1) :
    shapeCast S32x32x1 y h (ix3 a b z) = y (ix2 a b) :=
  shapeCast_apply y h _ _ (by
    rw [Shape.rowMajor_val_three, Shape.rowMajor_val_two]
    show a.val * 32 + b.val = (a.val * 32 + b.val) * 1 + z.val
    have := z.isLt; omega)

end Casts

/-! ## The shifted copies of a block, read at an index: the neighbour along one axis, `0` beyond the block -/

section Shifts
open ValueIdx Cert.KernelIdeal.Gen
variable (u : Vec Ideal S32x32x32 .f32)

theorem pay2_eq : k0_pay2 (F := Ideal) u = u := shapeCast_self u _

theorem zero_S1x32x32 (i : S1x32x32.Idx) : k0_pay6 (F := Ideal) i = 0 := Ideal.ofBits_zero_f32
theorem zero_S32x1x32 (i : S32x1x32.Idx) : k0_pay7 (F := Ideal) i = 0 := Ideal.ofBits_zero_f32
theorem zero_S32x32x1 (i : S32x32x1.Idx) : k0_pay8 (F := Ideal) i = 0 := Ideal.ofBits_zero_f32

/-- The copy shifted down axis 0. -/
theorem pay9_apply (p q r : Fin 32) :
    k0_pay9 (F := Ideal) u (ix3 p q r)
      = if h : p.val = 0 then 0 else u (ix3 (⟨p.val - 1, by omega⟩ : Fin 32) q r) := by
  by_cases h : p.val = 0
  · rw [dif_pos h]
    refine (concatenate_pair_apply_left (α := EReal) (t := S32x32x32) (s₁ := S1x32x32) (s₂ := S31x32x32) 0
      (k0_pay6 (F := Ideal)) _ concatenates_S1x32x32_S31x32x32_S32x32x32_d0 (ix3 p q r) rfl (ix3 (0 : Fin 1) q r) (fun b => ?_)).trans
      (zero_S1x32x32 _)
    match b with
    | ⟨0, _⟩ => show (0 : ℕ) = p.val; omega
    | ⟨1, _⟩ => rfl
    | ⟨2, _⟩ => rfl
  · rw [dif_neg h]
    refine (concatenate_pair_apply_right (α := EReal) (t := S32x32x32) (s₁ := S1x32x32) (s₂ := S31x32x32) 0
      (k0_pay6 (F := Ideal)) _ concatenates_S1x32x32_S31x32x32_S32x32x32_d0 (ix3 p q r) rfl rfl
      (ix3 (⟨p.val - 1, by omega⟩ : Fin 31) q r) (fun b hb => ?_) ?_).trans ?_
    · match b with
      | ⟨0, _⟩ => exact absurd (Fin.ext rfl) hb
      | ⟨1, _⟩ => rfl
      | ⟨2, _⟩ => rfl
    · show (p.val - 1) + 1 = p.val; omega
    · refine (extractStridedSlice_apply ![0, 0, 0] (k0_pay2 (F := Ideal) u) slices_S32x32x32_o0_0_0_S31x32x32 _
        (ix3 (⟨p.val - 1, by omega⟩ : Fin 32) q r) (fun a => ?_)).trans (by rw [pay2_eq])
      match a with
      | ⟨0, _⟩ => show p.val - 1 = 0 + (p.val - 1); omega
      | ⟨1, _⟩ => show q.val = 0 + q.val; omega
      | ⟨2, _⟩ => show r.val = 0 + r.val; omega

/-- The copy shifted up axis 0. -/
theorem pay10_apply (p q r : Fin 32) :
    k0_pay10 (F := Ideal) u (ix3 p q r)
      = if h : p.val = 31 then 0 else u (ix3 (⟨p.val + 1, by omega⟩ : Fin 32) q r) := by
  by_cases h : p.val = 31
  · rw [dif_pos h]
    refine (concatenate_pair_apply_right (α := EReal) (t := S32x32x32) (s₁ := S31x32x32) (s₂ := S1x32x32) 0
      _ (k0_pay6 (F := Ideal)) concatenates_S31x32x32_S1x32x32_S32x32x32_d0 (ix3 p q r) rfl rfl
      (ix3 (0 : Fin 1) q r) (fun b hb => ?_) ?_).trans (zero_S1x32x32 _)
    · match b with
      | ⟨0, _⟩ => exact absurd (Fin.ext rfl) hb
      | ⟨1, _⟩ => rfl
      | ⟨2, _⟩ => rfl
    · show 0 + 31 = p.val; omega
  · rw [dif_neg h]
    have hp : p.val < 32 := p.isLt
    refine (concatenate_pair_apply_left (α := EReal) (t := S32x32x32) (s₁ := S31x32x32) (s₂ := S1x32x32) 0
      _ (k0_pay6 (F := Ideal)) concatenates_S31x32x32_S1x32x32_S32x32x32_d0 (ix3 p q r) rfl
      (ix3 (⟨p.val, by omega⟩ : Fin 31) q r) (fun b => ?_)).trans ?_
    · match b with
      | ⟨0, _⟩ => rfl
      | ⟨1, _⟩ => rfl
      | ⟨2, _⟩ => rfl
    · refine (extractStridedSlice_apply ![1, 0, 0] (k0_pay2 (F := Ideal) u) slices_S32x32x32_o1_0_0_S31x32x32 _
        (ix3 (⟨p.val + 1, by omega⟩ : Fin 32) q r) (fun a => ?_)).trans (by rw [pay2_eq])
      match a with
      | ⟨0, _⟩ => show p.val + 1 = 1 + p.val; omega
      | ⟨1, _⟩ => show q.val = 0 + q.val; omega
      | ⟨2, _⟩ => show r.val = 0 + r.val; omega

/-- The copy shifted down axis 1. -/
theorem pay11_apply (p q r : Fin 32) :
    k0_pay11 (F := Ideal) u (ix3 p q r)
      = if h : q.val = 0 then 0 else u (ix3 p (⟨q.val - 1, by omega⟩ : Fin 32) r) := by
  by_cases h : q.val = 0
  · rw [dif_pos h]
    refine (concatenate_pair_apply_left (α := EReal) (t := S32x32x32) (s₁ := S32x1x32) (s₂ := S32x31x32) 1
      (k0_pay7 (F := Ideal)) _ concatenates_S32x1x32_S32x31x32_S32x32x32_d1 (ix3 p q r) rfl (ix3 p (0 : Fin 1) r) (fun b => ?_)).trans
      (zero_S32x1x32 _)
    match b with
    | ⟨0, _⟩ => rfl
    | ⟨1, _⟩ => show (0 : ℕ) = q.val; omega
    | ⟨2, _⟩ => rfl
  · rw [dif_neg h]
    refine (concatenate_pair_apply_right (α := EReal) (t := S32x32x32) (s₁ := S32x1x32) (s₂ := S32x31x32) 1
      (k0_pay7 (F := Ideal)) _ concatenates_S32x1x32_S32x31x32_S32x32x32_d1 (ix3 p q r) rfl rfl
      (ix3 p (⟨q.val - 1, by omega⟩ : Fin 31) r) (fun b hb => ?_) ?_).trans ?_
    · match b with
      | ⟨0, _⟩ => rfl
      | ⟨1, _⟩ => exact absurd (Fin.ext rfl) hb
      | ⟨2, _⟩ => rfl
    · show (q.val - 1) + 1 = q.val; omega
    · refine (extractStridedSlice_apply ![0, 0, 0] (k0_pay2 (F := Ideal) u) slices_S32x32x32_o0_0_0_S32x31x32 _
        (ix3 p (⟨q.val - 1, by omega⟩ : Fin 32) r) (fun a => ?_)).trans (by rw [pay2_eq])
      match a with
      | ⟨0, _⟩ => show p.val = 0 + p.val; omega
      | ⟨1, _⟩ => show q.val - 1 = 0 + (q.val - 1); omega
      | ⟨2, _⟩ => show r.val = 0 + r.val; omega

/-- The copy shifted up axis 1. -/
theorem pay12_apply (p q r : Fin 32) :
    k0_pay12 (F := Ideal) u (ix3 p q r)
      = if h : q.val = 31 then 0 else u (ix3 p (⟨q.val + 1, by omega⟩ : Fin 32) r) := by
  by_cases h : q.val = 31
  · rw [dif_pos h]
    refine (concatenate_pair_apply_right (α := EReal) (t := S32x32x32) (s₁ := S32x31x32) (s₂ := S32x1x32) 1
      _ (k0_pay7 (F := Ideal)) concatenates_S32x31x32_S32x1x32_S32x32x32_d1 (ix3 p q r) rfl rfl
      (ix3 p (0 : Fin 1) r) (fun b hb => ?_) ?_).trans (zero_S32x1x32 _)
    · match b with
      | ⟨0, _⟩ => rfl
      | ⟨1, _⟩ => exact absurd (Fin.ext rfl) hb
      | ⟨2, _⟩ => rfl
    · show 0 + 31 = q.val; omega
  · rw [dif_neg h]
    have hq : q.val < 32 := q.isLt
    refine (concatenate_pair_apply_left (α := EReal) (t := S32x32x32) (s₁ := S32x31x32) (s₂ := S32x1x32) 1
      _ (k0_pay7 (F := Ideal)) concatenates_S32x31x32_S32x1x32_S32x32x32_d1 (ix3 p q r) rfl
      (ix3 p (⟨q.val, by omega⟩ : Fin 31) r) (fun b => ?_)).trans ?_
    · match b with
      | ⟨0, _⟩ => rfl
      | ⟨1, _⟩ => rfl
      | ⟨2, _⟩ => rfl
    · refine (extractStridedSlice_apply ![0, 1, 0] (k0_pay2 (F := Ideal) u) slices_S32x32x32_o0_1_0_S32x31x32 _
        (ix3 p (⟨q.val + 1, by omega⟩ : Fin 32) r) (fun a => ?_)).trans (by rw [pay2_eq])
      match a with
      | ⟨0, _⟩ => show p.val = 0 + p.val; omega
      | ⟨1, _⟩ => show q.val + 1 = 1 + q.val; omega
      | ⟨2, _⟩ => show r.val = 0 + r.val; omega

/-- The copy shifted down axis 2 (the body makes it inside the sum's payload, from the block itself). -/
theorem zm_apply (h₁ : S32x32x32.Slices ![0, 0, 0] S32x32x31)
    (h₂ : Shape.Concatenates [S32x32x1, S32x32x31] S32x32x32 2) (p q r : Fin 32) :
    concatenate S32x32x32 2 [⟨S32x32x1, k0_pay8 (F := Ideal)⟩, ⟨S32x32x31, extractStridedSlice S32x32x31 ![0, 0, 0] u h₁⟩] h₂ (ix3 p q r)
      = if h : r.val = 0 then 0 else u (ix3 p q (⟨r.val - 1, by omega⟩ : Fin 32)) := by
  by_cases h : r.val = 0
  · rw [dif_pos h]
    refine (concatenate_pair_apply_left (α := EReal) (t := S32x32x32) (s₁ := S32x32x1) (s₂ := S32x32x31) 2
      (k0_pay8 (F := Ideal)) _ h₂ (ix3 p q r) rfl (ix3 p q (0 : Fin 1)) (fun b => ?_)).trans
      (zero_S32x32x1 _)
    match b with
    | ⟨0, _⟩ => rfl
    | ⟨1, _⟩ => rfl
    | ⟨2, _⟩ => show (0 : ℕ) = r.val; omega
  · rw [dif_neg h]
    refine (concatenate_pair_apply_right (α := EReal) (t := S32x32x32) (s₁ := S32x32x1) (s₂ := S32x32x31) 2
      (k0_pay8 (F := Ideal)) _ h₂ (ix3 p q r) rfl rfl
      (ix3 p q (⟨r.val - 1, by omega⟩ : Fin 31)) (fun b hb => ?_) ?_).trans ?_
    · match b with
      | ⟨0, _⟩ => rfl
      | ⟨1, _⟩ => rfl
      | ⟨2, _⟩ => exact absurd (Fin.ext rfl) hb
    · show (r.val - 1) + 1 = r.val; omega
    · refine extractStridedSlice_apply ![0, 0, 0] u h₁ _
        (ix3 p q (⟨r.val - 1, by omega⟩ : Fin 32)) (fun a => ?_)
      match a with
      | ⟨0, _⟩ => show p.val = 0 + p.val; omega
      | ⟨1, _⟩ => show q.val = 0 + q.val; omega
      | ⟨2, _⟩ => show r.val - 1 = 0 + (r.val - 1); omega

/-- The copy shifted up axis 2. -/
theorem zp_apply (h₁ : S32x32x32.Slices ![0, 0, 1] S32x32x31)
    (h₂ : Shape.Concatenates [S32x32x31, S32x32x1] S32x32x32 2) (p q r : Fin 32) :
    concatenate S32x32x32 2 [⟨S32x32x31, extractStridedSlice S32x32x31 ![0, 0, 1] u h₁⟩, ⟨S32x32x1, k0_pay8 (F := Ideal)⟩] h₂ (ix3 p q r)
      = if h : r.val = 31 then 0 else u (ix3 p q (⟨r.val + 1, by omega⟩ : Fin 32)) := by
  by_cases h : r.val = 31
  · rw [dif_pos h]
    refine (concatenate_pair_apply_right (α := EReal) (t := S32x32x32) (s₁ := S32x32x31) (s₂ := S32x32x1) 2
      _ (k0_pay8 (F := Ideal)) h₂ (ix3 p q r) rfl rfl
      (ix3 p q (0 : Fin 1)) (fun b hb => ?_) ?_).trans (zero_S32x32x1 _)
    · match b with
      | ⟨0, _⟩ => rfl
      | ⟨1, _⟩ => rfl
      | ⟨2, _⟩ => exact absurd (Fin.ext rfl) hb
    · show 0 + 31 = r.val; omega
  · rw [dif_neg h]
    have hr : r.val < 32 := r.isLt
    refine (concatenate_pair_apply_left (α := EReal) (t := S32x32x32) (s₁ := S32x32x31) (s₂ := S32x32x1) 2
      _ (k0_pay8 (F := Ideal)) h₂ (ix3 p q r) rfl
      (ix3 p q (⟨r.val, by omega⟩ : Fin 31)) (fun b => ?_)).trans ?_
    · match b with
      | ⟨0, _⟩ => rfl
      | ⟨1, _⟩ => rfl
      | ⟨2, _⟩ => rfl
    · refine extractStridedSlice_apply ![0, 0, 1] u h₁ _
        (ix3 p q (⟨r.val + 1, by omega⟩ : Fin 32)) (fun a => ?_)
      match a with
      | ⟨0, _⟩ => show p.val = 0 + p.val; omega
      | ⟨1, _⟩ => show q.val = 0 + q.val; omega
      | ⟨2, _⟩ => show r.val + 1 = 1 + r.val; omega

end Shifts

/-! ## The sum, the masks, the received faces and the final select, read at an index -/

section Body
open ValueIdx Cert.KernelIdeal.Gen

/-- The local stencil's sum at an index: the six shifted copies added left to right, less six times the centre. -/
theorem pay13_apply (u v64 v66 v68 v70 : FVec Ideal S32x32x32 .f32) (p q r : Fin 32) :
    k0_pay13 (F := Ideal) u (k0_pay8 (F := Ideal)) v64 v66 v68 v70 (ix3 p q r)
      = (((((v64 (ix3 p q r) + v66 (ix3 p q r)) + v68 (ix3 p q r)) + v70 (ix3 p q r))
          + (if h : r.val = 0 then 0 else u (ix3 p q (⟨r.val - 1, by omega⟩ : Fin 32))))
          + (if h : r.val = 31 then 0 else u (ix3 p q (⟨r.val + 1, by omega⟩ : Fin 32))))
        - six * u (ix3 p q r) := by
  rw [← zm_apply u slices_S32x32x32_o0_0_0_S32x32x31 concatenates_S32x32x1_S32x32x31_S32x32x32_d2 p q r,
    ← zp_apply u slices_S32x32x32_o0_0_1_S32x32x31 concatenates_S32x32x31_S32x32x1_S32x32x32_d2 p q r]
  rfl

/-- The face mask along axis 0 at an index. -/
theorem pay15_apply (k : ℕ) (hk : k < 2) (p q r : Fin 32) :
    k0_pay15 (F := Ideal) (BitVec.ofNat 32 k) (ix3 p q r) = if p.val = (if k = 0 then 31 else 0) then (1 : EReal) else 0 := by
  have e : k0_pay15 (F := Ideal) (BitVec.ofNat 32 k) (ix3 p q r)
      = FloatOps.sitofp (F := Ideal) .f32 ((IntOp.cmpi .eq (iota .tc S32x32x32 32 [0] iota_S32x32x32_d0_w32 (ix3 p q r))
          (Scalar.select (Scalar.cmpi .eq (BitVec.ofNat 32 k) 0#32) 31#32 0#32)).setWidth 32) := rfl
  have hw : (IntOp.cmpi .eq (BitVec.ofNat 32 p.val) (Scalar.select (Scalar.cmpi .eq (BitVec.ofNat 32 k) 0#32) 31#32 0#32)).setWidth 32
      = if p.val = (if k = 0 then 31 else 0) then 1#32 else 0#32 := mask_word ⟨k, hk⟩ p
  rw [e, iota_single_apply]
  show FloatOps.sitofp (F := Ideal) .f32 ((IntOp.cmpi .eq (BitVec.ofNat 32 p.val) _).setWidth 32) = _
  rw [hw]
  exact sitofp_ite _

/-- The face mask along axis 1 at an index. -/
theorem pay16_apply (k : ℕ) (hk : k < 2) (h : S32x32x32.Iotas .tc 32 [1]) (p q r : Fin 32) :
    k0_pay16 (F := Ideal) (BitVec.ofNat 32 k) (iota .tc S32x32x32 32 [1] h) (ix3 p q r)
      = if q.val = (if k = 0 then 31 else 0) then (1 : EReal) else 0 := by
  have e : k0_pay16 (F := Ideal) (BitVec.ofNat 32 k) (iota .tc S32x32x32 32 [1] h) (ix3 p q r)
      = FloatOps.sitofp (F := Ideal) .f32 ((IntOp.cmpi .eq (iota .tc S32x32x32 32 [1] h (ix3 p q r))
          (Scalar.select (Scalar.cmpi .eq (BitVec.ofNat 32 k) 0#32) 31#32 0#32)).setWidth 32) := rfl
  have hw : (IntOp.cmpi .eq (BitVec.ofNat 32 q.val) (Scalar.select (Scalar.cmpi .eq (BitVec.ofNat 32 k) 0#32) 31#32 0#32)).setWidth 32
      = if q.val = (if k = 0 then 31 else 0) then 1#32 else 0#32 := mask_word ⟨k, hk⟩ q
  rw [e, iota_single_apply]
  show FloatOps.sitofp (F := Ideal) .f32 ((IntOp.cmpi .eq (BitVec.ofNat 32 q.val) _).setWidth 32) = _
  rw [hw]
  exact sitofp_ite _

/-- The face mask along axis 2 at an index. -/
theorem pay17_apply (k : ℕ) (hk : k < 2) (h : S32x32x32.Iotas .tc 32 [2]) (p q r : Fin 32) :
    k0_pay17 (F := Ideal) (BitVec.ofNat 32 k) (iota .tc S32x32x32 32 [2] h) (ix3 p q r)
      = if r.val = (if k = 0 then 31 else 0) then (1 : EReal) else 0 := by
  have e : k0_pay17 (F := Ideal) (BitVec.ofNat 32 k) (iota .tc S32x32x32 32 [2] h) (ix3 p q r)
      = FloatOps.sitofp (F := Ideal) .f32 ((IntOp.cmpi .eq (iota .tc S32x32x32 32 [2] h (ix3 p q r))
          (Scalar.select (Scalar.cmpi .eq (BitVec.ofNat 32 k) 0#32) 31#32 0#32)).setWidth 32) := rfl
  have hw : (IntOp.cmpi .eq (BitVec.ofNat 32 r.val) (Scalar.select (Scalar.cmpi .eq (BitVec.ofNat 32 k) 0#32) 31#32 0#32)).setWidth 32
      = if r.val = (if k = 0 then 31 else 0) then 1#32 else 0#32 := mask_word ⟨k, hk⟩ r
  rw [e, iota_single_apply]
  show FloatOps.sitofp (F := Ideal) .f32 ((IntOp.cmpi .eq (BitVec.ofNat 32 r.val) _).setWidth 32) = _
  rw [hw]
  exact sitofp_ite _

/-- The interior mask at an index: set where every coordinate in the whole array is strictly between 0 and 63. -/
theorem pay14_apply (kx ky kz : ℕ) (hkx : kx < 2) (hky : ky < 2) (hkz : kz < 2) (p q r : Fin 32) :
    k0_pay14 (BitVec.ofNat 32 kx) (BitVec.ofNat 32 ky) (BitVec.ofNat 32 kz) (ix3 p q r)
      = if ((((0 < 32 * kx + p.val ∧ 32 * kx + p.val < 63) ∧ 0 < 32 * ky + q.val) ∧ 32 * ky + q.val < 63)
          ∧ 0 < 32 * kz + r.val) ∧ 32 * kz + r.val < 63 then 1#1 else 0#1 := by
  have e : k0_pay14 (BitVec.ofNat 32 kx) (BitVec.ofNat 32 ky) (BitVec.ofNat 32 kz) (ix3 p q r)
      = IntOp.andi (IntOp.andi (IntOp.andi (IntOp.andi (IntOp.andi
          (IntOp.cmpi .sgt (IntOp.addi (iota .tc S32x32x32 32 [0] iota_S32x32x32_d0_w32 (ix3 p q r)) (Scalar.muli (BitVec.ofNat 32 kx) 32#32)) 0#32)
          (IntOp.cmpi .slt (IntOp.addi (iota .tc S32x32x32 32 [0] iota_S32x32x32_d0_w32 (ix3 p q r)) (Scalar.muli (BitVec.ofNat 32 kx) 32#32)) 63#32))
          (IntOp.cmpi .sgt (IntOp.addi (iota .tc S32x32x32 32 [1] iota_S32x32x32_d1_w32 (ix3 p q r)) (Scalar.muli (BitVec.ofNat 32 ky) 32#32)) 0#32))
          (IntOp.cmpi .slt (IntOp.addi (iota .tc S32x32x32 32 [1] iota_S32x32x32_d1_w32 (ix3 p q r)) (Scalar.muli (BitVec.ofNat 32 ky) 32#32)) 63#32))
          (IntOp.cmpi .sgt (IntOp.addi (iota .tc S32x32x32 32 [2] iota_S32x32x32_d2_w32 (ix3 p q r)) (Scalar.muli (BitVec.ofNat 32 kz) 32#32)) 0#32))
          (IntOp.cmpi .slt (IntOp.addi (iota .tc S32x32x32 32 [2] iota_S32x32x32_d2_w32 (ix3 p q r)) (Scalar.muli (BitVec.ofNat 32 kz) 32#32)) 63#32) := rfl
  have gx := sgt_word ⟨kx, hkx⟩ p
  have lx := slt_word ⟨kx, hkx⟩ p
  have gy := sgt_word ⟨ky, hky⟩ q
  have ly := slt_word ⟨ky, hky⟩ q
  have gz := sgt_word ⟨kz, hkz⟩ r
  have lz := slt_word ⟨kz, hkz⟩ r
  dsimp only at gx lx gy ly gz lz
  rw [e, iota_single_apply, iota_single_apply, iota_single_apply]
  show IntOp.andi (IntOp.andi (IntOp.andi (IntOp.andi (IntOp.andi
          (IntOp.cmpi .sgt (IntOp.addi (BitVec.ofNat 32 p.val) (Scalar.muli (BitVec.ofNat 32 kx) 32#32)) 0#32)
          (IntOp.cmpi .slt (IntOp.addi (BitVec.ofNat 32 p.val) (Scalar.muli (BitVec.ofNat 32 kx) 32#32)) 63#32))
          (IntOp.cmpi .sgt (IntOp.addi (BitVec.ofNat 32 q.val) (Scalar.muli (BitVec.ofNat 32 ky) 32#32)) 0#32))
          (IntOp.cmpi .slt (IntOp.addi (BitVec.ofNat 32 q.val) (Scalar.muli (BitVec.ofNat 32 ky) 32#32)) 63#32))
          (IntOp.cmpi .sgt (IntOp.addi (BitVec.ofNat 32 r.val) (Scalar.muli (BitVec.ofNat 32 kz) 32#32)) 0#32))
          (IntOp.cmpi .slt (IntOp.addi (BitVec.ofNat 32 r.val) (Scalar.muli (BitVec.ofNat 32 kz) 32#32)) 63#32) = _
  rw [gx, lx, gy, ly, gz, lz, andi_ite, andi_ite, andi_ite, andi_ite, andi_ite]

end Body

/-! ## The received faces spread over the block, the final select, and the faces sent -/

section Halo
open ValueIdx Cert.KernelIdeal.Gen

/-- Adding the face received along axis 0: at `(p, q, r)` the mask times the face's `(q, r)`. -/
theorem pay18_apply (v82 v117 : FVec Ideal S32x32x32 .f32) (h0 : Vec Ideal S1x32x32 .f32) (p q r : Fin 32) :
    k0_pay18 (F := Ideal) v82 v117 h0 (ix3 p q r)
      = v82 (ix3 p q r) + v117 (ix3 p q r) * h0 (ix3 (0 : Fin 1) q r) := by
  have e : k0_pay18 (F := Ideal) v82 v117 h0 (ix3 p q r)
      = v82 (ix3 p q r) + v117 (ix3 p q r) *
          broadcastTo S32x32x32 (shapeCast S1x32x32 (shapeCast S32x32 h0 shapeCasts_S1x32x32_S32x32) shapeCasts_S32x32_S1x32x32)
            broadcasts_S1x32x32_S32x32x32 (ix3 p q r) := rfl
  rw [e, shapeCast_shapeCast]
  congr 2
  refine broadcastTo_apply h0 broadcasts_S1x32x32_S32x32x32 (ix3 p q r) (ix3 (0 : Fin 1) q r) (fun a => ?_)
  match a with
  | ⟨0, _⟩ => rfl
  | ⟨1, _⟩ => rfl
  | ⟨2, _⟩ => rfl

/-- The face received along axis 1, as the 32×1×32 array the body spreads: its `(p, ·, r)` is the face's `(p, r)`. -/
theorem pay19_apply (h1 : Vec Ideal S1x32x32 .f32) (p r : Fin 32) (z : Fin 1) :
    k0_pay19 (F := Ideal) h1 (ix3 p z r) = h1 (ix3 (0 : Fin 1) p r) := by
  have e : k0_pay19 (F := Ideal) h1 (ix3 p z r)
      = shapeCast S32x1x32 (shapeCast S32x32 h1 shapeCasts_S1x32x32_S32x32) shapeCasts_S32x32_S32x1x32 (ix3 p z r) := rfl
  rw [e, cast_add1, cast_drop0 _ _ _ _ (0 : Fin 1)]

/-- The last payload at an index: the running sum plus the two remaining masked faces, kept where the interior
    mask is set and `0` elsewhere. -/
theorem pay1_apply (m : IVec S32x32x32 1) (v123 v129 v231 : FVec Ideal S32x32x32 .f32) (v234 : FVec Ideal S32x1x32 .f32)
    (h2 : Vec Ideal S1x32x32 .f32) (p q r : Fin 32) :
    k0_pay1 (F := Ideal) m v123 v129 v231 v234 h2 (ix3 p q r)
      = Scalar.select (m (ix3 p q r))
          ((v231 (ix3 p q r) + v123 (ix3 p q r) * v234 (ix3 p (0 : Fin 1) r))
            + v129 (ix3 p q r) * h2 (ix3 (0 : Fin 1) p q)) (0 : EReal) := by
  have e : k0_pay1 (F := Ideal) m v123 v129 v231 v234 h2 (ix3 p q r)
      = Scalar.select (m (ix3 p q r))
          ((v231 (ix3 p q r) + v123 (ix3 p q r) * broadcastTo S32x32x32 v234 broadcasts_S32x1x32_S32x32x32 (ix3 p q r))
            + v129 (ix3 p q r) *
              broadcastTo S32x32x32 (shapeCast S32x32x1 (shapeCast S32x32 h2 shapeCasts_S1x32x32_S32x32) shapeCasts_S32x32_S32x32x1)
                broadcasts_S32x32x1_S32x32x32 (ix3 p q r))
          (Ideal.ofBits .f32 0x00000000#32) := rfl
  have b1 : broadcastTo S32x32x32 v234 broadcasts_S32x1x32_S32x32x32 (ix3 p q r) = v234 (ix3 p (0 : Fin 1) r) := by
    refine broadcastTo_apply v234 broadcasts_S32x1x32_S32x32x32 (ix3 p q r) (ix3 p (0 : Fin 1) r) (fun a => ?_)
    match a with
    | ⟨0, _⟩ => rfl
    | ⟨1, _⟩ => rfl
    | ⟨2, _⟩ => rfl
  have b2 : broadcastTo S32x32x32 (shapeCast S32x32x1 (shapeCast S32x32 h2 shapeCasts_S1x32x32_S32x32) shapeCasts_S32x32_S32x32x1)
      broadcasts_S32x32x1_S32x32x32 (ix3 p q r) = h2 (ix3 (0 : Fin 1) p q) := by
    refine (broadcastTo_apply _ broadcasts_S32x32x1_S32x32x32 (ix3 p q r) (ix3 p q (0 : Fin 1)) (fun a => ?_)).trans ?_
    · match a with
      | ⟨0, _⟩ => rfl
      | ⟨1, _⟩ => rfl
      | ⟨2, _⟩ => rfl
    · rw [cast_add2, cast_drop0 _ _ _ _ (0 : Fin 1)]
  rw [e, b1, b2, Ideal.ofBits_zero_f32]

variable (u : Vec Ideal S32x32x32 .f32)

/-- The face sent along axis 0 by a device with coordinate `k` there: layer 31 when `k = 0`, layer 0 when `k = 1`. -/
theorem pay3_apply (k : ℕ) (hk : k < 2) (q r : Fin 32) (z : Fin 1) :
    k0_pay3 (F := Ideal) (BitVec.ofNat 32 k) u (ix3 z q r)
      = if k = 0 then u (ix3 (31 : Fin 32) q r) else u (ix3 (0 : Fin 32) q r) := by
  have e : k0_pay3 (F := Ideal) (BitVec.ofNat 32 k) u
      = shapeCast S1x32x32 (Scalar.select (Scalar.cmpi .eq (BitVec.ofNat 32 k) 0#32)
          (shapeCast S32x32 (extractStridedSlice S1x32x32 ![31, 0, 0] (k0_pay2 (F := Ideal) u) slices_S32x32x32_o31_0_0_S1x32x32) shapeCasts_S1x32x32_S32x32)
          (shapeCast S32x32 (extractStridedSlice S1x32x32 ![0, 0, 0] (k0_pay2 (F := Ideal) u) slices_S32x32x32_o0_0_0_S1x32x32) shapeCasts_S1x32x32_S32x32))
          shapeCasts_S32x32_S1x32x32 := rfl
  rw [e, select_coord k hk, pay2_eq]
  by_cases h : k = 0
  · rw [if_pos h, if_pos h, cast_add0, cast_drop0 _ _ _ _ (0 : Fin 1)]
    refine extractStridedSlice_apply ![31, 0, 0] u _ _ (ix3 (31 : Fin 32) q r) (fun a => ?_)
    match a with
    | ⟨0, _⟩ => rfl
    | ⟨1, _⟩ => show q.val = 0 + q.val; omega
    | ⟨2, _⟩ => show r.val = 0 + r.val; omega
  · rw [if_neg h, if_neg h, cast_add0, cast_drop0 _ _ _ _ (0 : Fin 1)]
    refine extractStridedSlice_apply ![0, 0, 0] u _ _ (ix3 (0 : Fin 32) q r) (fun a => ?_)
    match a with
    | ⟨0, _⟩ => rfl
    | ⟨1, _⟩ => show q.val = 0 + q.val; omega
    | ⟨2, _⟩ => show r.val = 0 + r.val; omega

/-- The face sent along axis 1. -/
theorem pay4_apply (k : ℕ) (hk : k < 2) (p r : Fin 32) (z : Fin 1) :
    k0_pay4 (F := Ideal) (BitVec.ofNat 32 k) u (ix3 z p r)
      = if k = 0 then u (ix3 p (31 : Fin 32) r) else u (ix3 p (0 : Fin 32) r) := by
  have e : k0_pay4 (F := Ideal) (BitVec.ofNat 32 k) u
      = shapeCast S1x32x32 (Scalar.select (Scalar.cmpi .eq (BitVec.ofNat 32 k) 0#32)
          (shapeCast S32x32 (extractStridedSlice S32x1x32 ![0, 31, 0] (k0_pay2 (F := Ideal) u) slices_S32x32x32_o0_31_0_S32x1x32) shapeCasts_S32x1x32_S32x32)
          (shapeCast S32x32 (extractStridedSlice S32x1x32 ![0, 0, 0] (k0_pay2 (F := Ideal) u) slices_S32x32x32_o0_0_0_S32x1x32) shapeCasts_S32x1x32_S32x32))
          shapeCasts_S32x32_S1x32x32 := rfl
  rw [e, select_coord k hk, pay2_eq]
  by_cases h : k = 0
  · rw [if_pos h, if_pos h, cast_add0, cast_drop1 _ _ _ _ (0 : Fin 1)]
    refine extractStridedSlice_apply ![0, 31, 0] u _ _ (ix3 p (31 : Fin 32) r) (fun a => ?_)
    match a with
    | ⟨0, _⟩ => show p.val = 0 + p.val; omega
    | ⟨1, _⟩ => rfl
    | ⟨2, _⟩ => show r.val = 0 + r.val; omega
  · rw [if_neg h, if_neg h, cast_add0, cast_drop1 _ _ _ _ (0 : Fin 1)]
    refine extractStridedSlice_apply ![0, 0, 0] u _ _ (ix3 p (0 : Fin 32) r) (fun a => ?_)
    match a with
    | ⟨0, _⟩ => show p.val = 0 + p.val; omega
    | ⟨1, _⟩ => rfl
    | ⟨2, _⟩ => show r.val = 0 + r.val; omega

/-- The face sent along axis 2. -/
theorem pay5_apply (k : ℕ) (hk : k < 2) (p q : Fin 32) (z : Fin 1) :
    k0_pay5 (F := Ideal) (BitVec.ofNat 32 k) u (ix3 z p q)
      = if k = 0 then u (ix3 p q (31 : Fin 32)) else u (ix3 p q (0 : Fin 32)) := by
  have e : k0_pay5 (F := Ideal) (BitVec.ofNat 32 k) u
      = shapeCast S1x32x32 (Scalar.select (Scalar.cmpi .eq (BitVec.ofNat 32 k) 0#32)
          (shapeCast S32x32 (extractStridedSlice S32x32x1 ![0, 0, 31] (k0_pay2 (F := Ideal) u) slices_S32x32x32_o0_0_31_S32x32x1) shapeCasts_S32x32x1_S32x32)
          (shapeCast S32x32 (extractStridedSlice S32x32x1 ![0, 0, 0] (k0_pay2 (F := Ideal) u) slices_S32x32x32_o0_0_0_S32x32x1) shapeCasts_S32x32x1_S32x32))
          shapeCasts_S32x32_S1x32x32 := rfl
  rw [e, select_coord k hk, pay2_eq]
  by_cases h : k = 0
  · rw [if_pos h, if_pos h, cast_add0, cast_drop2 _ _ _ _ (0 : Fin 1)]
    refine extractStridedSlice_apply ![0, 0, 31] u _ _ (ix3 p q (31 : Fin 32)) (fun a => ?_)
    match a with
    | ⟨0, _⟩ => show p.val = 0 + p.val; omega
    | ⟨1, _⟩ => show q.val = 0 + q.val; omega
    | ⟨2, _⟩ => rfl
  · rw [if_neg h, if_neg h, cast_add0, cast_drop2 _ _ _ _ (0 : Fin 1)]
    refine extractStridedSlice_apply ![0, 0, 0] u _ _ (ix3 p q (0 : Fin 32)) (fun a => ?_)
    match a with
    | ⟨0, _⟩ => show p.val = 0 + p.val; omega
    | ⟨1, _⟩ => show q.val = 0 + q.val; omega
    | ⟨2, _⟩ => rfl

end Halo

/-! ## One axis: the two shifted copies and the masked received face make the two neighbours in the whole array -/

section Axis

/-- Along one axis, for a device at coordinate `k` and a position `p` of its block whose coordinate in the whole
    array is strictly between 0 and 63: the copy from below (`0` at the block's first layer), the copy from above
    (`0` at its last layer) and the mask times the neighbour's facing layer add up to the two neighbours of the
    position in the whole array. -/
theorem axis_sum (f : ℕ → EReal) (k p : ℕ) (hk : k < 2) (hp : p < 32) (h1 : 0 < 32 * k + p) (h2 : 32 * k + p < 63) :
    ((if p = 0 then 0 else f (32 * k + (p - 1))) + (if p = 31 then 0 else f (32 * k + (p + 1))))
        + (if p = (if k = 0 then 31 else 0) then (1 : EReal) else 0)
          * (if 1 - k = 0 then f (32 * (1 - k) + 31) else f (32 * (1 - k) + 0))
      = f (32 * k + p - 1) + f (32 * k + p + 1) := by
  have hf : ∀ {a b : ℕ}, a = b → f a = f b := fun h => congrArg f h
  rcases Nat.lt_or_ge k 1 with hk0 | hk1
  · have k0 : k = 0 := by omega
    subst k0
    have hp0 : ¬ p = 0 := by omega
    rw [if_neg hp0, if_pos rfl, if_neg (show ¬ (1 - 0 = 0) by omega)]
    by_cases h31 : p = 31
    · rw [if_pos h31, if_pos h31, add_zero, one_mul,
        hf (show 32 * 0 + (p - 1) = 32 * 0 + p - 1 by omega), hf (show 32 * (1 - 0) + 0 = 32 * 0 + p + 1 by omega)]
    · rw [if_neg h31, if_neg h31, zero_mul, add_zero,
        hf (show 32 * 0 + (p - 1) = 32 * 0 + p - 1 by omega), hf (show 32 * 0 + (p + 1) = 32 * 0 + p + 1 by omega)]
  · have k1 : k = 1 := by omega
    subst k1
    have hp31 : ¬ p = 31 := by omega
    rw [if_neg hp31, if_neg (show ¬ (1 = 0) by omega), if_pos (show 1 - 1 = 0 by omega)]
    by_cases h0 : p = 0
    · rw [if_pos h0, if_pos h0, zero_add, one_mul, add_comm,
        hf (show 32 * (1 - 1) + 31 = 32 * 1 + p - 1 by omega), hf (show 32 * 1 + (p + 1) = 32 * 1 + p + 1 by omega)]
    · rw [if_neg h0, if_neg h0, zero_mul, add_zero,
        hf (show 32 * 1 + (p - 1) = 32 * 1 + p - 1 by omega), hf (show 32 * 1 + (p + 1) = 32 * 1 + p + 1 by omega)]

/-- The three axes put together: the kernel's ten summands in its order are the reference's seven in its order. -/
theorem combine (am ap bm bp cm cp n mx hx my hy mz hz l0 r0 l1 r1 l2 r2 : EReal)
    (hX : (am + ap) + mx * hx = l0 + r0) (hY : (bm + bp) + my * hy = l1 + r1) (hZ : (cm + cp) + mz * hz = l2 + r2) :
    ((((((((am + ap) + bm) + bp) + cm) + cp) - n) + mx * hx) + my * hy) + mz * hz
      = (((((l0 + r0) + l1) + r1) + l2) + r2) - n := by
  have e1 : ((((((((am + ap) + bm) + bp) + cm) + cp) - n) + mx * hx) + my * hy) + mz * hz
      = ((((am + ap) + mx * hx) + ((bm + bp) + my * hy)) + ((cm + cp) + mz * hz)) - n := by
    simp only [sub_eq_add_neg]
    ac_rfl
  have e2 : (((((l0 + r0) + l1) + r1) + l2) + r2) - n = (((l0 + r0) + (l1 + r1)) + (l2 + r2)) - n := by
    simp only [sub_eq_add_neg]
    ac_rfl
  rw [e1, e2, hX, hY, hZ]

/-- A select on a decided bit is the `if`. -/
theorem select_ite {α : Type} (P : Prop) [Decidable P] (A B : α) :
    Scalar.select (if P then 1#1 else 0#1) A B = if P then A else B := by
  by_cases hP : P
  · rw [if_pos hP, if_pos hP]; exact ValueIdx.select_one A B
  · rw [if_neg hP, if_neg hP]; exact ValueIdx.select_zero A B

end Axis

/-! ## A block of a function of natural coordinates, and one device's result on such blocks -/

section Core
open ValueIdx Cert.KernelIdeal.Gen

/-- The 32³ block at offsets `(a0, b0, c0)` of a function of three natural coordinates. -/
def blk (g : ℕ → ℕ → ℕ → EReal) (a0 b0 c0 : ℕ) : Vec Ideal S32x32x32 .f32 :=
  fun i => g (a0 + (i 0).val) (b0 + (i 1).val) (c0 + (i 2).val)

/-- One device's result at `(p, q, r)`, the device at mesh coordinates `(kx, ky, kz)`, every device's block cut from
    one function `g` of natural coordinates: the stencil of `g` where the position is strictly inside the whole array,
    `0` on its boundary. -/
theorem core (g : ℕ → ℕ → ℕ → EReal) (kx ky kz : ℕ) (hkx : kx < 2) (hky : ky < 2) (hkz : kz < 2)
    (i1 : S32x32x32.Iotas .tc 32 [1]) (i2 : S32x32x32.Iotas .tc 32 [2]) (p q r : Fin 32) :
    k0_pay1 (F := Ideal) (k0_pay14 (BitVec.ofNat 32 kx) (BitVec.ofNat 32 ky) (BitVec.ofNat 32 kz))
        (k0_pay16 (F := Ideal) (BitVec.ofNat 32 ky) (iota .tc S32x32x32 32 [1] i1))
        (k0_pay17 (F := Ideal) (BitVec.ofNat 32 kz) (iota .tc S32x32x32 32 [2] i2))
        (k0_pay18 (F := Ideal)
          (k0_pay13 (F := Ideal) (k0_pay2 (F := Ideal) (blk g (32 * kx) (32 * ky) (32 * kz))) (k0_pay8 (F := Ideal))
            (k0_pay9 (F := Ideal) (blk g (32 * kx) (32 * ky) (32 * kz))) (k0_pay10 (F := Ideal) (blk g (32 * kx) (32 * ky) (32 * kz)))
            (k0_pay11 (F := Ideal) (blk g (32 * kx) (32 * ky) (32 * kz))) (k0_pay12 (F := Ideal) (blk g (32 * kx) (32 * ky) (32 * kz))))
          (k0_pay15 (F := Ideal) (BitVec.ofNat 32 kx))
          (k0_pay3 (F := Ideal) (BitVec.ofNat 32 (1 - kx)) (blk g (32 * (1 - kx)) (32 * ky) (32 * kz))))
        (k0_pay19 (F := Ideal) (k0_pay4 (F := Ideal) (BitVec.ofNat 32 (1 - ky)) (blk g (32 * kx) (32 * (1 - ky)) (32 * kz))))
        (k0_pay5 (F := Ideal) (BitVec.ofNat 32 (1 - kz)) (blk g (32 * kx) (32 * ky) (32 * (1 - kz))))
        (ix3 p q r)
      = if ((((0 < 32 * kx + p.val ∧ 32 * kx + p.val < 63) ∧ 0 < 32 * ky + q.val) ∧ 32 * ky + q.val < 63)
          ∧ 0 < 32 * kz + r.val) ∧ 32 * kz + r.val < 63
        then stencil g (32 * kx + p.val) (32 * ky + q.val) (32 * kz + r.val) else 0 := by
  have hkx' : 1 - kx < 2 := by omega
  have hky' : 1 - ky < 2 := by omega
  have hkz' : 1 - kz < 2 := by omega
  rw [pay1_apply, pay14_apply kx ky kz hkx hky hkz, select_ite]
  by_cases hI : ((((0 < 32 * kx + p.val ∧ 32 * kx + p.val < 63) ∧ 0 < 32 * ky + q.val) ∧ 32 * ky + q.val < 63)
          ∧ 0 < 32 * kz + r.val) ∧ 32 * kz + r.val < 63
  · rw [if_pos hI, if_pos hI]
    obtain ⟨⟨⟨⟨⟨hx1, hx2⟩, hy1⟩, hy2⟩, hz1⟩, hz2⟩ := hI
    rw [pay16_apply ky hky, pay17_apply kz hkz, pay18_apply, pay15_apply kx hkx, pay19_apply, pay2_eq, pay13_apply,
      pay9_apply, pay10_apply, pay11_apply, pay12_apply, pay3_apply _ _ hkx', pay4_apply _ _ hky', pay5_apply _ _ hkz']
    have hX := axis_sum (fun n => g n (32 * ky + q.val) (32 * kz + r.val)) kx p.val hkx p.isLt hx1 hx2
    have hY := axis_sum (fun n => g (32 * kx + p.val) n (32 * kz + r.val)) ky q.val hky q.isLt hy1 hy2
    have hZ := axis_sum (fun n => g (32 * kx + p.val) (32 * ky + q.val) n) kz r.val hkz r.isLt hz1 hz2
    unfold stencil
    exact combine _ _ _ _ _ _ _ _ _ _ _ _ _ _ _ _ _ _ _ hX hY hZ
  · rw [if_neg hI, if_neg hI]

end Core

/-! ## The devices' blocks of the whole array, and the theorem -/

section Mesh
open ValueIdx Cert.KernelIdeal.Gen

/-- Device `c`'s block coordinates are its mesh coordinates. -/
theorem meshLin0 : ∀ c : Dev nD, Layout.meshLin [2, 2, 2] c.val [0] = cx c := by decide
theorem meshLin1 : ∀ c : Dev nD, Layout.meshLin [2, 2, 2] c.val [1] = cy c := by decide
theorem meshLin2 : ∀ c : Dev nD, Layout.meshLin [2, 2, 2] c.val [2] = cz c := by decide

/-- Where position `(p, q, r)` of device `c`'s block is in the whole array. -/
theorem blockIdx_eq (c : Dev nD) (p q r : Fin 32) (h : Layout.TilesN (⟨3, ![32, 32, 32]⟩ : Shape) ⟨3, ![64, 64, 64]⟩ _) :
    h.idx (Layout.meshBlock [2, 2, 2] ![[0], [1], [2]] c) (ix3 p q r)
      = ix3 (⟨32 * cx c + p.val, by have := cx_lt c; omega⟩ : Fin 64) (⟨32 * cy c + q.val, by have := cy_lt c; omega⟩ : Fin 64)
          (⟨32 * cz c + r.val, by have := cz_lt c; omega⟩ : Fin 64) := by
  funext a
  match a with
  | ⟨0, _⟩ =>
    refine Fin.ext ?_
    show Layout.meshLin [2, 2, 2] c.val [0] * 32 + p.val = 32 * cx c + p.val
    rw [meshLin0]; omega
  | ⟨1, _⟩ =>
    refine Fin.ext ?_
    show Layout.meshLin [2, 2, 2] c.val [1] * 32 + q.val = 32 * cy c + q.val
    rw [meshLin1]; omega
  | ⟨2, _⟩ =>
    refine Fin.ext ?_
    show Layout.meshLin [2, 2, 2] c.val [2] * 32 + r.val = 32 * cz c + r.val
    rw [meshLin2]; omega

/-- A device's block of an array is the block of the array's function of natural coordinates. -/
theorem blockOf_eq (U : (⟨Cert.ReferenceIdeal.S64x64x64, .f32⟩ : BufTy).Contents (Elt Ideal)) (c : Dev nD) :
    blockOf U c = blk (ext U) (32 * cx c) (32 * cy c) (32 * cz c) := by
  funext i
  obtain ⟨p, q, r, rfl⟩ : ∃ p q r : Fin 32, i = ix3 p q r := ⟨i 0, i 1, i 2, eq_ix3 i⟩
  unfold blockOf
  rw [Layout.blockN_apply, blockIdx_eq]
  exact ext_idx U _

end Mesh

section Main
open ValueIdx Cert.KernelIdeal.Gen

/-- The theorem at one position of one device's block. -/
theorem meshOut_apply (U : (⟨Cert.ReferenceIdeal.S64x64x64, .f32⟩ : BufTy).Contents (Elt Ideal)) (c : Dev nD) (p q r : Fin 32) :
    meshOut (F := Ideal) (blockOf U) c (ix3 p q r)
      = blockOf (Cert.ReferenceIdeal.Read.val_main_v20 (F := Ideal) U) c (ix3 p q r) := by
  have eL : meshOut (F := Ideal) (blockOf U) c
      = k0_pay1 (F := Ideal) (k0_pay14 (wx c) (wy c) (wz c))
        (k0_pay16 (F := Ideal) (wy c) (iota .tc S32x32x32 32 [1] Facts₀.iota_S32x32x32_d1_w32))
        (k0_pay17 (F := Ideal) (wz c) (iota .tc S32x32x32 32 [2] Facts₀.iota_S32x32x32_d2_w32))
        (k0_pay18 (F := Ideal)
          (k0_pay13 (F := Ideal) (k0_pay2 (F := Ideal) (blockOf U c)) (k0_pay8 (F := Ideal))
            (k0_pay9 (F := Ideal) (blockOf U c)) (k0_pay10 (F := Ideal) (blockOf U c))
            (k0_pay11 (F := Ideal) (blockOf U c)) (k0_pay12 (F := Ideal) (blockOf U c)))
          (k0_pay15 (F := Ideal) (wx c))
          (k0_pay3 (F := Ideal) (wx (nbr 0 c)) (blockOf U (nbr 0 c))))
        (k0_pay19 (F := Ideal) (k0_pay4 (F := Ideal) (wy (nbr 1 c)) (blockOf U (nbr 1 c))))
        (k0_pay5 (F := Ideal) (wz (nbr 2 c)) (blockOf U (nbr 2 c))) := rfl
  have eR : blockOf (Cert.ReferenceIdeal.Read.val_main_v20 (F := Ideal) U) c (ix3 p q r)
      = Cert.ReferenceIdeal.Read.val_main_v20 (F := Ideal) U
          (ix3 (⟨32 * cx c + p.val, by have := cx_lt c; omega⟩ : Fin 64) (⟨32 * cy c + q.val, by have := cy_lt c; omega⟩ : Fin 64)
            (⟨32 * cz c + r.val, by have := cz_lt c; omega⟩ : Fin 64)) := by
    unfold blockOf
    rw [Layout.blockN_apply, blockIdx_eq]
  rw [eL, eR, ref_apply, blockOf_eq U c, blockOf_eq U (nbr 0 c), blockOf_eq U (nbr 1 c), blockOf_eq U (nbr 2 c),
    wx_eq c, wy_eq c, wz_eq c, wx_eq (nbr 0 c), wy_eq (nbr 1 c), wz_eq (nbr 2 c),
    cx_nbr0, cy_nbr0, cz_nbr0, cx_nbr1, cy_nbr1, cz_nbr1, cx_nbr2, cy_nbr2, cz_nbr2]
  exact core (ext U) (cx c) (cy c) (cz c) (cx_lt c) (cy_lt c) (cz_lt c) _ _ p q r

end Main

/-- With every device holding its block of `U`, each device's result is its block of the reference's result: inside
    a block the kernel's shifted copies are the reference's six neighbours, on the block's face towards a neighbour
    the missing neighbour is the face received from that neighbour, and the interior mask is the reference's
    `[1:-1, 1:-1, 1:-1]`. -/
theorem meshOut_eq_block (U : (⟨Cert.ReferenceIdeal.S64x64x64, .f32⟩ : BufTy).Contents (Elt Ideal))
    (hfin : ∀ (c' : Dev nD) (j : S32x32x32.Idx), ∃ r : ℝ, blockOf U c' j = ((r : EReal)))
    (c : Dev nD) :
    meshOut (F := Ideal) (blockOf U) c = blockOf (Cert.ReferenceIdeal.Read.val_main_v20 (F := Ideal) U) c := by
  funext j
  obtain ⟨p, q, r, rfl⟩ : ∃ p q r : Fin 32, j = ValueIdx.ix3 p q r := ⟨j 0, j 1, j 2, ValueIdx.eq_ix3 j⟩
  exact meshOut_apply U c p q r

end Cert.HaloValue

end
-- ==== Proof.Finite.lean ====
/-
  The precondition read back: a block on which `finite_inputs` is all ones holds real numbers.
-/
import proofs.«900534_g7700000000000535_dist_halo3d_v7x_xyz2x2x2_s32_f32_1_alg».proof.Proof.Gen.Pre_finite_inputs_Kernel
import Idealize.ShloMosaic.PureOps.Ideal
import Idealize.ShloMosaic.Lib.ReduceAll
import Idealize.ShloMosaic.Lib.ValueIdx

noncomputable section

namespace Cert.HaloFinite

open Idealize.ShloMosaic

/-- The rank-0 shape has one index. -/
local instance : Subsingleton Cert.Pre_finite_inputs_Kernel.S_.Idx := ⟨fun a b => funext fun d => d.elim0⟩

/-- The f32 pattern `0x7F800000` denotes `+∞`. -/
theorem ofBits_posInf : Ideal.ofBits .f32 0x7F800000#32 = (⊤ : EReal) := by
  simp [Ideal.ofBits, Ideal.ieee]

/-- `max x (-x) < ⊤` leaves only the real numbers: `⊤` gives `⊤`, and `⊥` gives `-⊥ = ⊤`. -/
theorem real_of_abs_lt_top (a : EReal) (h : max a (-a) < ⊤) : ∃ r : ℝ, a = ((r : EReal)) := by
  induction a using EReal.rec with
  | bot => simp at h
  | coe r => exact ⟨r, rfl⟩
  | top => simp at h

/-- If `|x| < +inf` holds at every entry (the printed `finite_inputs` evaluates to all ones), every entry of `x`
    is a real number. -/
theorem real_of_pre (x : FVec Ideal Cert.Pre_finite_inputs_Kernel.S32x32x32 .f32)
    (h : Cert.Pre_finite_inputs_Kernel.fn (F := Ideal) x = fun _ => 1#1) (j : Cert.Pre_finite_inputs_Kernel.S32x32x32.Idx) :
    ∃ r : ℝ, x j = ((r : EReal)) := by
  have h0 := congrFun h ValueIdx.ix0
  dsimp only [Cert.Pre_finite_inputs_Kernel.fn] at h0
  have hj := Host.reduce_andi_all _ _ _ _ _ h0 j
  -- the comparison word at `j` is the decision of `|x j| < +inf`
  have hc : BitVec.ofBool (decide (max (x j) (-(x j)) < Ideal.ofBits .f32 0x7F800000#32)) = 1#1 := hj
  have hlt : max (x j) (-(x j)) < Ideal.ofBits .f32 0x7F800000#32 := by
    by_contra hn
    rw [decide_eq_false hn] at hc
    exact absurd hc (by decide)
  rw [ofBits_posInf] at hlt
  exact real_of_abs_lt_top _ hlt

end Cert.HaloFinite

end
-- ==== Proof.lean ====
/-
  The halo exchange on the 2×2×2 mesh against the one-device 7-point stencil.
  Each device holds a 32³ block of the 64³ array. It signals its three neighbours' barrier semaphores, stores the
  three faces of its block that touch them, waits for its own three barrier units, sends each face into the matching
  slot of the neighbour's landing buffer, waits for its three departures and three arrivals, and writes the stencil of
  its block — zeros beyond the block, plus each received face on the layer that touches that neighbour — masked to
  the interior of the whole array. The frames are the run of that protocol on all eight devices (at the word-level
  instance and at the ideal one); the reference's frame is its run read back; at the ideal instance every device's
  result block is its block of the reference's result, entry by entry.
-/
import proofs.«900534_g7700000000000535_dist_halo3d_v7x_xyz2x2x2_s32_f32_1_alg».proof.Defs
import proofs.«900534_g7700000000000535_dist_halo3d_v7x_xyz2x2x2_s32_f32_1_alg».proof.Proof.Gen.Kernel
import proofs.«900534_g7700000000000535_dist_halo3d_v7x_xyz2x2x2_s32_f32_1_alg».proof.Proof.Gen.KernelIdeal
import proofs.«900534_g7700000000000535_dist_halo3d_v7x_xyz2x2x2_s32_f32_1_alg».proof.Proof.Gen.ReferenceIdeal
import proofs.«900534_g7700000000000535_dist_halo3d_v7x_xyz2x2x2_s32_f32_1_alg».proof.Proof.Gen.Pre_finite_inputs_Kernel
import proofs.«900534_g7700000000000535_dist_halo3d_v7x_xyz2x2x2_s32_f32_1_alg».proof.Proof.Gen.Pre_finite_inputs_ReferenceIdeal
import proofs.«900534_g7700000000000535_dist_halo3d_v7x_xyz2x2x2_s32_f32_1_alg».proof.Proof.Gen.ReferenceIdeal.Run
import proofs.«900534_g7700000000000535_dist_halo3d_v7x_xyz2x2x2_s32_f32_1_alg».proof.Proof.Gen.ReferenceIdeal.Read
import proofs.«900534_g7700000000000535_dist_halo3d_v7x_xyz2x2x2_s32_f32_1_alg».proof.Proof.Kernel.Launch
import proofs.«900534_g7700000000000535_dist_halo3d_v7x_xyz2x2x2_s32_f32_1_alg».proof.Proof.KernelIdeal.Launch
import proofs.«900534_g7700000000000535_dist_halo3d_v7x_xyz2x2x2_s32_f32_1_alg».proof.Proof.Value
import proofs.«900534_g7700000000000535_dist_halo3d_v7x_xyz2x2x2_s32_f32_1_alg».proof.Proof.Finite
import Idealize.ShloMosaic.Adequacy
import Idealize.ShloMosaic.Init

noncomputable section

namespace Cert.Proof

open Idealize.ShloMosaic Idealize.ShloMosaic.TcCoe Idealize.SL.Sem

/-- The word-level program runs on the mesh and leaves every device's input block as it was. -/
theorem frame_k : Cert.frame_Kernel := fun m ρ _ =>
  (θ_run Cert.Kernel.defs _ _).mono (fun _ h c => (h c 0).trans (Cert.Kernel.Halo.finalA_x m ρ c))
    (Cert.Kernel.Halo.run_main (F := Bits) m ρ)

/-- So does the idealized program. -/
theorem frame_ki : Cert.frame_KernelIdeal := fun m ρ _ =>
  (θ_run Cert.KernelIdeal.defs _ _).mono (fun _ h c => (h c 0).trans (Cert.KernelIdeal.Halo.finalA_x m ρ c))
    (Cert.KernelIdeal.Halo.run_main (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- A device's staged block is its whole input array (the window is the whole array). -/
theorem ublk_eq (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) :
    Cert.KernelIdeal.Halo.ublk m ρ c = m ((c.tc : Thread Cert.KernelIdeal.nD Cert.KernelIdeal.τ).loc Cert.KernelIdeal.main_arg0) := by
  unfold Cert.KernelIdeal.Halo.ublk
  exact Memref.read_access_unit_zero (Elt Ideal) Cert.KernelIdeal.main_arg0 (funext fun a => by fin_cases a <;> rfl) _ _

/-- At the ideal instance, from blocks of one whole array: the mesh's results are the blocks of the reference's
    result, and both programs leave their inputs as they were. -/
theorem algebraic : Cert.algebraic_KernelIdeal_ReferenceIdeal := by
  intro m ρ m' ρ' hpre hagree
  refine ⟨Cert.ReferenceIdeal.Read.val_main_v20 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono
      (fun _ h c => ⟨?_, (h c 0).trans (Cert.KernelIdeal.Halo.finalA_x m ρ c)⟩) (Cert.KernelIdeal.Halo.run_main (F := Ideal) m ρ)
    refine ((h c 1).trans (Cert.KernelIdeal.Halo.finalA_out m ρ c)).trans ?_
    have hu : Cert.KernelIdeal.Halo.ublk m ρ = Cert.HaloValue.blockOf
        (m' (((0 : Dev Cert.ReferenceIdeal.nD).tc : Thread Cert.ReferenceIdeal.nD Cert.ReferenceIdeal.τ).loc Cert.ReferenceIdeal.main_arg0)) :=
      funext fun c' => (ublk_eq m ρ c').trans (hagree c')
    show Cert.KernelIdeal.Halo.meshOut (Cert.KernelIdeal.Halo.ublk m ρ) c = _
    rw [hu]
    exact Cert.HaloValue.meshOut_eq_block _
      (fun c' j => Cert.HaloFinite.real_of_pre _
        ((congrArg (fun x => Cert.Pre_finite_inputs_Kernel.fn (F := Ideal) x) (hagree c')).symm.trans (hpre c')) j) c
  · refine (θ_run Cert.ReferenceIdeal.defs _ _).mono (fun _ h => ⟨(h 0).1.trans ?_, (h 0).2⟩)
      (Cert.ReferenceIdeal.Value.run (F := Ideal) m' ρ')
    exact Cert.ReferenceIdeal.Read.val_main_v20_eq _

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, trivial, algebraic⟩

end Cert.Proof

end
